-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x8 : Shape := ⟨2, ![1600000, 8]⟩
abbrev S100000 : Shape := ⟨1, ![100000]⟩
abbrev S8x32 : Shape := ⟨2, ![8, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S8x128 : Shape := ⟨2, ![8, 128]⟩
abbrev S128x12 : Shape := ⟨2, ![128, 12]⟩
abbrev S12 : Shape := ⟨1, ![12]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x128 : S_.BroadcastsInDim S8x128 (![] : Fin 0 → Fin S8x128.rank)
  reducesTo_S8x128_S_d0_1 : S8x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg1 : IVec S2x1600000 32) (main_v83 : IVec S_ 1) (main_v84 : FVec F S12 .f32) (main_cst_32 : FVec F S_ .f32) : IVec S_ 1 :=
  let main_v85 : FVec F S12 .f32 := broadcastInDim S12 ![] bcast_S_S12 main_cst_32
  let main_v86 : IVec S12 1 := cmpf .olt main_v84 main_v85
  let main_c_33 : IVec S_ 1 := constantI S_ 1 1#1
  let main_v87 : IVec S_ 1 := (fun x v => Host.reduce IntOp.andi x v reducesTo_S12_S_d0 h_S_) main_v86 main_c_33
  let main_v88 : IVec S_ 1 := andi main_v83 main_v87
  let main_v89 : IVec S1x1600000 32 := (extractStridedSlice S1x1600000 ![0, 0] · slices_S2x1600000_S1x1600000_0_0) main_arg1
  let main_v90 : IVec S1600000 32 := shapeCast S1600000 main_v89 shapeCasts_S1x1600000_S1600000
  let main_c_34 : IVec S_ 32 := constantI S_ 32 0#32
  let main_v91 : IVec S1600000 32 := broadcastInDim S1600000 ![] bcast_S_S1600000 main_c_34
  let main_v92 : IVec S1600000 1 := cmpi .slt main_v90 main_v91
  let main_c_35 : IVec S_ 32 := constantI S_ 32 100000#32
  let main_v93 : IVec S1600000 32 := broadcastInDim S1600000 ![] bcast_S_S1600000 main_c_35
  let main_v94 : IVec S1600000 32 := addi main_v90 main_v93
  let main_v95 : IVec S1600000 32 := select main_v92 main_v94 main_v90
  let main_c_36 : IVec S_ 32 := constantI S_ 32 0#32
  let main_v96 : IVec S1600000 32 := broadcastInDim S1600000 ![] bcast_S_S1600000 main_c_36
  let main_v97 : IVec S1600000 1 := cmpi .sge main_v95 main_v96
  let main_c_37 : IVec S_ 32 := constantI S_ 32 99999#32
  let main_v98 : IVec S1600000 32 := broadcastInDim S1600000 ![] bcast_S_S1600000 main_c_37
  let main_v99 : IVec S1600000 1 := cmpi .sle main_v95 main_v98
  let main_v100 : IVec S1600000 1 := andi main_v97 main_v99
  let main_c_38 : IVec S_ 1 := constantI S_ 1 1#1
  let main_v101 : IVec S_ 1 := (fun x v => Host.reduce IntOp.andi x v reducesTo_S1600000_S_d0 h_S_) main_v100 main_c_38
  let main_v102 : IVec S_ 1 := andi main_v88 main_v101
  main_v102

def fn_part4 {F : FTy → Type} [FloatOps F] (main_arg1 : IVec S2x1600000 32) (main_arg16 : FVec F S128x128 .f32) (main_arg17 : FVec F S128 .f32) (main_arg18 : FVec F S128x12 .f32) (main_arg19 : FVec F S12 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x12 .f32 := Host.absf main_arg18
  let main_cst_30 : FVec F S_ .f32 := constant S_ .f32 0x7F800000#32
  let main_v80 : FVec F S128x12 .f32 := broadcastInDim S128x12 ![] bcast_S_S128x12 main_cst_30
  let main_v81 : IVec S128x12 1 := cmpf .olt main_v79 main_v80
  let main_c_31 : IVec S_ 1 := constantI S_ 1 1#1
  let main_v82 : IVec S_ 1 := (fun x v => Host.reduce IntOp.andi x v reducesTo_S128x12_S_d0_1 h_S_) main_v81 main_c_31
  let main_v83 : IVec S_ 1 := andi main_v78 main_v82
  let main_v84 : FVec F S12 .f32 := Host.absf main_arg19
  let main_cst_32 : FVec F S_ .f32 := constant S_ .f32 0x7F800000#32
  fn_part5 (F := F) main_arg1 main_v83 main_v84 main_cst_32

def fn_part3 {F : FTy → Type} [FloatOps F] (main_arg1 : IVec S2x1600000 32) (main_arg13 : FVec F S128 .f32) (main_arg14 : FVec F S128x128 .f32) (main_arg15 : FVec F S128 .f32) (main_arg16 : FVec F S128x128 .f32) (main_arg17 : FVec F S128 .f32) (main_arg18 : FVec F S128x12 .f32) (main_arg19 : FVec F S12 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg16 main_arg17 main_arg18 main_arg19 main_v63 main_v67

def fn_part2 {F : FTy → Type} [FloatOps F] (main_arg1 : IVec S2x1600000 32) (main_arg9 : FVec F S128 .f32) (main_arg10 : FVec F S8x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x12 .f32) (main_arg19 : FVec F S12 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S8x128 .f32 := Host.absf main_arg10
  let main_cst_14 : FVec F S_ .f32 := constant S_ .f32 0x7F800000#32
  let main_v40 : FVec F S8x128 .f32 := broadcastInDim S8x128 ![] bcast_S_S8x128 main_cst_14
  let main_v41 : IVec S8x128 1 := cmpf .olt main_v39 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg13 main_arg14 main_arg15 main_arg16 main_arg17 main_arg18 main_arg19 main_v48 main_v49 main_v50

def fn_part1 {F : FTy → Type} [FloatOps F] (main_arg1 : IVec S2x1600000 32) (main_arg6 : FVec F S32x128 .f32) (main_arg7 : FVec F S128 .f32) (main_arg8 : FVec F S128x128 .f32) (main_arg9 : FVec F S128 .f32) (main_arg10 : FVec F S8x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x12 .f32) (main_arg19 : FVec F S12 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_v33

def fn {F : FTy → Type} [FloatOps F] (main_arg0 : FVec F S100000x32 .f32) (main_arg1 : IVec S2x1600000 32) (main_arg2 : FVec F S1600000x8 .f32) (main_arg3 : IVec S100000 32) (main_arg4 : FVec F S8x32 .f32) (main_arg5 : FVec F S32 .f32) (main_arg6 : FVec F S32x128 .f32) (main_arg7 : FVec F S128 .f32) (main_arg8 : FVec F S128x128 .f32) (main_arg9 : FVec F S128 .f32) (main_arg10 : FVec F S8x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x12 .f32) (main_arg19 : FVec F S12 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S8x32 .f32 := Host.absf main_arg4
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_v13 main_v16
-- ==== Kernel.lean ====
abbrev S100000x32 : Shape := ⟨2, ![100000, 32]⟩
abbrev S2x1600000 : Shape := ⟨2, ![2, 1600000]⟩
abbrev S1600000x8 : Shape := ⟨2, ![1600000, 8]⟩
abbrev S100000 : Shape := ⟨1, ![100000]⟩
abbrev S8x32 : Shape := ⟨2, ![8, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S8x128 : Shape := ⟨2, ![8, 128]⟩
abbrev S128x12 : Shape := ⟨2, ![128, 12]⟩
abbrev S12 : Shape := ⟨1, ![12]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x32 : Shape := ⟨2, ![1600000, 32]⟩
abbrev S8000x32 : Shape := ⟨2, ![8000, 32]⟩
abbrev S8000x8 : Shape := ⟨2, ![8000, 8]⟩
abbrev S1x32 : Shape := ⟨2, ![1, 32]⟩
abbrev S100000x128 : Shape := ⟨2, ![100000, 128]⟩
abbrev S4000x32 : Shape := ⟨2, ![4000, 32]⟩
abbrev S4000x128 : Shape := ⟨2, ![4000, 128]⟩
abbrev S1x128 : Shape := ⟨2, ![1, 128]⟩
abbrev S1600000x128 : Shape := ⟨2, ![1600000, 128]⟩
abbrev S8000x128 : Shape := ⟨2, ![8000, 128]⟩
abbrev S2048x128 : Shape := ⟨2, ![2048, 128]⟩
abbrev S100000x1 : Shape := ⟨2, ![100000, 1]⟩
abbrev S2048x12 : Shape := ⟨2, ![2048, 12]⟩
abbrev S1x12 : Shape := ⟨2, ![1, 12]⟩

abbrev nBuf : Space → Nat
  | .hbm => 87
  | .vmem => 42
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x8, .f32⟩
  | .hbm, ⟨3, _⟩ => ⟨S100000, .i32⟩
  | .hbm, ⟨4, _⟩ => ⟨S8x32, .f32⟩
  | .hbm, ⟨5, _⟩ => ⟨S32, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S8x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x12, .f32⟩
  | .hbm, ⟨19, _⟩ => ⟨S12, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x32, .f32⟩
  | .hbm, ⟨43, _⟩ => ⟨S1600000x32, .i1⟩
  | .hbm, ⟨44, _⟩ => ⟨S_, .f32⟩
  | .hbm, ⟨45, _⟩ => ⟨S1600000x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1, .i32⟩
  | .hbm, ⟨62, _⟩ => ⟨S_, .i32⟩
  | .hbm, ⟨63, _⟩ => ⟨S1600000x1, .i32⟩
  | .hbm, ⟨64, _⟩ => ⟨S1600000x1, .i1⟩
  | .hbm, ⟨65, _⟩ => ⟨S1x1, .i32⟩
  | .hbm, ⟨66, _⟩ => ⟨S1600000x1, .i32⟩
  | .hbm, ⟨67, _⟩ => ⟨S1600000x1, .i1⟩
  | .hbm, ⟨68, _⟩ => ⟨S1600000x1, .i1⟩
  | .hbm, ⟨69, _⟩ => ⟨S_, .i1⟩
  | .hbm, ⟨70, _⟩ => ⟨S1600000, .i1⟩
  | .hbm, ⟨71, _⟩ => ⟨S1600000x128, .f32⟩
  | .hbm, ⟨72, _⟩ => ⟨S1600000x128, .i1⟩
  | .hbm, ⟨73, _⟩ => ⟨S_, .f32⟩
  | .hbm, ⟨74, _⟩ => ⟨S1600000x128, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S2048x128, .f32⟩
  | .hbm, ⟨84, _⟩ => ⟨S100000x1, .i32⟩
  | .hbm, ⟨85, _⟩ => ⟨S2048x128, .f32⟩
  | .hbm, ⟨86, _⟩ => ⟨S2048x12, .f32⟩
  | .local _ .vmem, ⟨0, _⟩ => ⟨S8000x32, .f32⟩
  | .local _ .vmem, ⟨1, _⟩ => ⟨S8000x32, .f32⟩
  | .local _ .vmem, ⟨2, _⟩ => ⟨S8000x8, .f32⟩
  | .local _ .vmem, ⟨3, _⟩ => ⟨S8000x8, .f32⟩
  | .local _ .vmem, ⟨4, _⟩ => ⟨S8x32, .f32⟩
  | .local _ .vmem, ⟨5, _⟩ => ⟨S32, .f32⟩
  | .local _ .vmem, ⟨6, _⟩ => ⟨S8000x32, .f32⟩
  | .local _ .vmem, ⟨7, _⟩ => ⟨S8000x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S8000x128, .f32⟩
  | .local _ .vmem, ⟨19, _⟩ => ⟨S8000x128, .f32⟩
  | .local _ .vmem, ⟨20, _⟩ => ⟨S8000x8, .f32⟩
  | .local _ .vmem, ⟨21, _⟩ => ⟨S8000x8, .f32⟩
  | .local _ .vmem, ⟨22, _⟩ => ⟨S8x128, .f32⟩
  | .local _ .vmem, ⟨23, _⟩ => ⟨S128, .f32⟩
  | .local _ .vmem, ⟨24, _⟩ => ⟨S8000x128, .f32⟩
  | .local _ .vmem, ⟨25, _⟩ => ⟨S8000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S4000x128, .f32⟩
  | .local _ .vmem, ⟨35, _⟩ => ⟨S4000x128, .f32⟩
  | .local _ .vmem, ⟨36, _⟩ => ⟨S2048x128, .f32⟩
  | .local _ .vmem, ⟨37, _⟩ => ⟨S128x128, .f32⟩
  | .local _ .vmem, ⟨38, _⟩ => ⟨S128, .f32⟩
  | .local _ .vmem, ⟨39, _⟩ => ⟨S128x12, .f32⟩
  | .local _ .vmem, ⟨40, _⟩ => ⟨S12, .f32⟩
  | .local _ .vmem, ⟨41, _⟩ => ⟨S2048x12, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v10 : Ref sig .tc := ⟨.hbm, 75, rfl⟩
abbrev main_v11 : Ref sig .tc := ⟨.hbm, 76, rfl⟩
abbrev main_cst_0 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_1 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x12 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S12 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x12 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  inb_S8000x8_S8000x8_0_0 : ∀ a, (![0, 0] : Fin 2 → Nat) a + S8000x8.size a ≤ S8000x8.size a
  h_S8000x8 : 0 < S8000x8.numel
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  bcast_S_S100000x32 : S_.BroadcastsInDim S100000x32 (![] : Fin 0 → Fin S100000x32.rank)
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S8x128_S8x128_0_0 : ∀ a, (![0, 0] : Fin 2 → Nat) a + S8x128.size a ≤ S8x128.size a
  h_S8x128 : 0 < S8x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S100000x128 : S_.BroadcastsInDim S100000x128 (![] : Fin 0 → Fin S100000x128.rank)
  shapeCasts_S4000x128_S4000x128 : S4000x128.ShapeCasts S4000x128
  bcast_S_S2048x128 : S_.BroadcastsInDim S2048x128 (![] : Fin 0 → Fin S2048x128.rank)
  bcast_S100000_S100000x1_0 : S100000.BroadcastsInDim S100000x1 (![0] : Fin 1 → Fin S100000x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x12_S128x12_0_0 : ∀ a, (![0, 0] : Fin 2 → Nat) a + S128x12.size a ≤ S128x12.size a
  h_S128x12 : 0 < S128x12.numel
  inb_S12_S12_0 : ∀ a, (![0] : Fin 1 → Nat) a + S12.size a ≤ S12.size a
  h_S12 : 0 < S12.numel
  shapeCasts_S12_S1x12 : S12.ShapeCasts S1x12
  broadcasts_S1x12_S2048x12 : S1x12.Broadcasts S2048x12
  inb_S2048x12_S2048x12_0_0 : ∀ a, (![0, 0] : Fin 2 → Nat) a + S2048x12.size a ≤ S2048x12.size a
  h_S2048x12 : 0 < S2048x12.numel
  gather_S100000x32_S1600000x1_S1600000x32_1_0_n_n_0_1_132_wf : GatherDims.WF S100000x32 S1600000x1 S1600000x32 [1] [0] [] [0] [] 1 ![1, 32]
  dot_S8000x8_S8x32_S8000x32_1_0_0_1_n_n_wf : DotDims.WF S8000x8 S8x32 S8000x32 [1] [0] [0] [1] [] []
  scatter_S100000x32_S1600000x1_S1600000x32_1_0_0_1_wf : ScatterDims.WF S100000x32 S1600000x1 S1600000x32 [1] [0] [0] 1
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  dot_S8000x8_S8x128_S8000x128_1_0_0_1_n_n_wf : DotDims.WF S8000x8 S8x128 S8000x128 [1] [0] [0] [1] [] []
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x12_S2048x12_1_0_0_1_n_n_wf : DotDims.WF S2048x128 S128x12 S2048x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S1600000x8.size a
  hwx0_1 : ∀ i : grid0.Coords, EltTy.bits .f32 = 32 ∨ (Rect.block (s := S1600000x8) S8000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x32.size a ≤ S1600000x32.size a
  hwx0_4 : ∀ i : grid0.Coords, EltTy.bits .f32 = 32 ∨ (Rect.block (s := S1600000x32) S8000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .f32 = 32 ∨ (Rect.block (s := S100000x32) S4000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x8.size a ≤ S1600000x8.size a
  hwx2_1 : ∀ i : grid2.Coords, EltTy.bits .f32 = 32 ∨ (Rect.block (s := S1600000x8) S8000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x128.size a
  hwx2_2 : ∀ i : grid2.Coords, EltTy.bits .f32 = 32 ∨ (Rect.block (s := S8x128) S8x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S1600000x128.size a
  hwx2_4 : ∀ i : grid2.Coords, EltTy.bits .f32 = 32 ∨ (Rect.block (s := S1600000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S2048x128.size a
  hwx4_0 : ∀ i : grid4.Coords, EltTy.bits .f32 = 32 ∨ (Rect.block (s := S2048x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x12.size a ≤ S128x12.size a
  hwx4_3 : ∀ i : grid4.Coords, EltTy.bits .f32 = 32 ∨ (Rect.block (s := S128x12) S128x12.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S12.size a ≤ S12.size a
  hwx4_4 : ∀ i : grid4.Coords, EltTy.bits .f32 = 32 ∨ (Rect.block (s := S12) S12.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x12.size a ≤ S2048x12.size a
  hwx4_5 : ∀ i : grid4.Coords, EltTy.bits .f32 = 32 ∨ (Rect.block (s := S2048x12) S2048x12.size (cc4_transform_5 i) (hinb4_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x8_S8x32_S8000x32_1_0_0_1_n_n : DotDims S8000x8 S8x32 S8000x32 where
  lhsContracting := [1]
  rhsContracting := [0]
  lhsNonContracting := [0]
  rhsNonContracting := [1]
  lhsBatch := []
  rhsBatch := []
  wf := dot_S8000x8_S8x32_S8000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x12_S2048x12_1_0_0_1_n_n : DotDims S2048x128 S128x12 S2048x12 where
  lhsContracting := [1]
  rhsContracting := [0]
  lhsNonContracting := [0]
  rhsNonContracting := [1]
  lhsBatch := []
  rhsBatch := []
  wf := dot_S2048x128_S128x12_S2048x12_1_0_0_1_n_n_wf

abbrev win0_0 : Pipeline.Window sig grid0 :=
  Pipeline.Window.ofSpec (Memref.whole main_v4) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v10) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S8x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v18) S2048x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128x12.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S12.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v19) S2048x12.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x8 : Shape := ⟨2, ![1600000, 8]⟩
abbrev S100000 : Shape := ⟨1, ![100000]⟩
abbrev S8x32 : Shape := ⟨2, ![8, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S8x128 : Shape := ⟨2, ![8, 128]⟩
abbrev S128x12 : Shape := ⟨2, ![128, 12]⟩
abbrev S12 : Shape := ⟨1, ![12]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x128 : Shape := ⟨2, ![100000, 128]⟩
abbrev S1x128 : Shape := ⟨2, ![1, 128]⟩
abbrev S1600000x128 : Shape := ⟨2, ![1600000, 128]⟩
abbrev S2048x128 : Shape := ⟨2, ![2048, 128]⟩
abbrev S100000x1 : Shape := ⟨2, ![100000, 1]⟩
abbrev S2048x12 : Shape := ⟨2, ![2048, 12]⟩
abbrev S1x12 : Shape := ⟨2, ![1, 12]⟩

abbrev nBuf : Space → Nat
  | .hbm => 159
  | .vmem => 0
  | .smem => 0
  | _ => 0

abbrev hbmTy0_0 (i : Nat) : BufTy := match i % 128 with
  | 0 => ⟨S100000x32, .f32⟩
  | 1 => ⟨S2x1600000, .i32⟩
  | 2 => ⟨S1600000x8, .f32⟩
  | 3 => ⟨S100000, .i32⟩
  | 4 => ⟨S8x32, .f32⟩
  | 5 => ⟨S32, .f32⟩
  | 6 => ⟨S32x128, .f32⟩
  | 7 => ⟨S128, .f32⟩
  | 8 => ⟨S128x128, .f32⟩
  | 9 => ⟨S128, .f32⟩
  | 10 => ⟨S8x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x12, .f32⟩
  | 19 => ⟨S12, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S1600000x32, .f32⟩
  | 34 => ⟨S1600000x32, .f32⟩
  | 35 => ⟨S1x32, .f32⟩
  | 36 => ⟨S1600000x32, .f32⟩
  | 37 => ⟨S1600000x32, .f32⟩
  | 38 => ⟨S_, .f32⟩
  | 39 => ⟨S1600000x32, .f32⟩
  | 40 => ⟨S1600000x32, .f32⟩
  | 41 => ⟨S_, .f32⟩
  | 42 => ⟨S100000x32, .f32⟩
  | 43 => ⟨S1600000x1, .i32⟩
  | 44 => ⟨S100000x32, .f32⟩
  | 45 => ⟨S100000x32, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .i1⟩
  | 53 => ⟨S_, .f32⟩
  | 54 => ⟨S100000x128, .f32⟩
  | 55 => ⟨S100000x128, .i1⟩
  | 56 => ⟨S_, .f32⟩
  | 57 => ⟨S_, .f32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .i1⟩
  | 72 => ⟨S_, .f32⟩
  | 73 => ⟨S100000x128, .f32⟩
  | 74 => ⟨S100000x128, .i1⟩
  | 75 => ⟨S_, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S1600000x128, .f32⟩
  | 94 => ⟨S1600000x128, .f32⟩
  | 95 => ⟨S1x128, .f32⟩
  | 96 => ⟨S1600000x128, .f32⟩
  | 97 => ⟨S1600000x128, .f32⟩
  | 98 => ⟨S_, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .i1⟩
  | 113 => ⟨S_, .f32⟩
  | 114 => ⟨S100000x128, .f32⟩
  | 115 => ⟨S100000x128, .i1⟩
  | 116 => ⟨S_, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x32, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .i1⟩
  | 4 => ⟨S_, .f32⟩
  | 5 => ⟨S100000x128, .f32⟩
  | 6 => ⟨S100000x128, .i1⟩
  | 7 => ⟨S_, .f32⟩
  | 8 => ⟨S_, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S2048x128, .f32⟩
  | 18 => ⟨S100000x1, .i32⟩
  | 19 => ⟨S2048x128, .f32⟩
  | 20 => ⟨S2048x128, .f32⟩
  | 21 => ⟨S1x128, .f32⟩
  | 22 => ⟨S2048x128, .f32⟩
  | 23 => ⟨S2048x128, .f32⟩
  | 24 => ⟨S_, .f32⟩
  | 25 => ⟨S2048x128, .f32⟩
  | 26 => ⟨S2048x128, .f32⟩
  | 27 => ⟨S2048x12, .f32⟩
  | 28 => ⟨S1x12, .f32⟩
  | 29 => ⟨S2048x12, .f32⟩
  | 30 => ⟨S2048x12, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call0_cst : Ref sig .tc := ⟨.hbm, 38, rfl⟩
abbrev main_call0_v0 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_cst_0 : Ref sig .tc := ⟨.hbm, 53, rfl⟩
abbrev main_call1_v2 : Ref sig .tc := ⟨.hbm, 54, rfl⟩
abbrev main_call1_v3 : Ref sig .tc := ⟨.hbm, 55, rfl⟩
abbrev main_call1_cst_1 : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_v4 : Ref sig .tc := ⟨.hbm, 59, rfl⟩
abbrev main_call1_v5 : Ref sig .tc := ⟨.hbm, 60, rfl⟩
abbrev main_call1_cst_2 : Ref sig .tc := ⟨.hbm, 61, rfl⟩
abbrev main_call1_v6 : Ref sig .tc := ⟨.hbm, 62, rfl⟩
abbrev main_call1_v7 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_cst_1 : Ref sig .tc := ⟨.hbm, 75, rfl⟩
abbrev main_call2_call0_v0 : Ref sig .tc := ⟨.hbm, 76, rfl⟩
abbrev main_call2_call0_v1 : Ref sig .tc := ⟨.hbm, 77, rfl⟩
abbrev main_call2_v4 : Ref sig .tc := ⟨.hbm, 78, rfl⟩
abbrev main_call2_v5 : Ref sig .tc := ⟨.hbm, 79, rfl⟩
abbrev main_call2_cst_2 : Ref sig .tc := ⟨.hbm, 80, rfl⟩
abbrev main_call2_v6 : Ref sig .tc := ⟨.hbm, 81, rfl⟩
abbrev main_call2_v7 : Ref sig .tc := ⟨.hbm, 82, rfl⟩
abbrev main_v30 : Ref sig .tc := ⟨.hbm, 83, rfl⟩
abbrev main_c_1 : Ref sig .tc := ⟨.hbm, 84, rfl⟩
abbrev main_v31 : Ref sig .tc := ⟨.hbm, 85, rfl⟩
abbrev main_v32 : Ref sig .tc := ⟨.hbm, 86, rfl⟩
abbrev main_c_2 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call3_cst : Ref sig .tc := ⟨.hbm, 98, rfl⟩
abbrev main_call3_v0 : Ref sig .tc := ⟨.hbm, 99, rfl⟩
abbrev main_v43 : Ref sig .tc := ⟨.hbm, 100, rfl⟩
abbrev main_cst_3 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_call4_cst : Ref sig .tc := ⟨.hbm, 110, rfl⟩
abbrev main_call4_v0 : Ref sig .tc := ⟨.hbm, 111, rfl⟩
abbrev main_call4_v1 : Ref sig .tc := ⟨.hbm, 112, rfl⟩
abbrev main_call4_cst_0 : Ref sig .tc := ⟨.hbm, 113, rfl⟩
abbrev main_call4_v2 : Ref sig .tc := ⟨.hbm, 114, rfl⟩
abbrev main_call4_v3 : Ref sig .tc := ⟨.hbm, 115, rfl⟩
abbrev main_call4_cst_1 : Ref sig .tc := ⟨.hbm, 116, rfl⟩
abbrev main_call4_call0_v0 : Ref sig .tc := ⟨.hbm, 117, rfl⟩
abbrev main_call4_call0_v1 : Ref sig .tc := ⟨.hbm, 118, rfl⟩
abbrev main_call4_v4 : Ref sig .tc := ⟨.hbm, 119, rfl⟩
abbrev main_call4_v5 : Ref sig .tc := ⟨.hbm, 120, rfl⟩
abbrev main_call4_cst_2 : Ref sig .tc := ⟨.hbm, 121, rfl⟩
abbrev main_call4_v6 : Ref sig .tc := ⟨.hbm, 122, rfl⟩
abbrev main_call4_v7 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call5_cst : Ref sig .tc := ⟨.hbm, 129, rfl⟩
abbrev main_call5_v0 : Ref sig .tc := ⟨.hbm, 130, rfl⟩
abbrev main_call5_v1 : Ref sig .tc := ⟨.hbm, 131, rfl⟩
abbrev main_call5_cst_0 : Ref sig .tc := ⟨.hbm, 132, rfl⟩
abbrev main_call5_v2 : Ref sig .tc := ⟨.hbm, 133, rfl⟩
abbrev main_call5_v3 : Ref sig .tc := ⟨.hbm, 134, rfl⟩
abbrev main_call5_cst_1 : Ref sig .tc := ⟨.hbm, 135, rfl⟩
abbrev main_call5_call0_v0 : Ref sig .tc := ⟨.hbm, 136, rfl⟩
abbrev main_call5_call0_v1 : Ref sig .tc := ⟨.hbm, 137, rfl⟩
abbrev main_call5_v4 : Ref sig .tc := ⟨.hbm, 138, rfl⟩
abbrev main_call5_v5 : Ref sig .tc := ⟨.hbm, 139, rfl⟩
abbrev main_call5_cst_2 : Ref sig .tc := ⟨.hbm, 140, rfl⟩
abbrev main_call5_v6 : Ref sig .tc := ⟨.hbm, 141, rfl⟩
abbrev main_call5_v7 : Ref sig .tc := ⟨.hbm, 142, rfl⟩
abbrev main_v57 : Ref sig .tc := ⟨.hbm, 143, rfl⟩
abbrev main_cst_4 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_call6_cst : Ref sig .tc := ⟨.hbm, 152, rfl⟩
abbrev main_call6_v0 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S1x128_S2048x128_0_1 : S1x128.BroadcastsInDim S2048x128 (![0, 1] : Fin 2 → Fin S2048x128.rank)
  bcast_S12_S1x12_1 : S12.BroadcastsInDim S1x12 (![1] : Fin 1 → Fin S1x12.rank)
  bcast_S1x12_S2048x12_0_1 : S1x12.BroadcastsInDim S2048x12 (![0, 1] : Fin 2 → Fin S2048x12.rank)
  gather_S100000x32_S1600000x1_S1600000x32_1_0_n_n_0_1_132_wf : GatherDims.WF S100000x32 S1600000x1 S1600000x32 [1] [0] [] [0] [] 1 ![1, 32]
  dot_S1600000x8_S8x32_S1600000x32_1_0_0_1_n_n_wf : DotDims.WF S1600000x8 S8x32 S1600000x32 [1] [0] [0] [1] [] []
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x8_S8x128_S1600000x128_1_0_0_1_n_n_wf : DotDims.WF S1600000x8 S8x128 S1600000x128 [1] [0] [0] [1] [] []
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x12_S2048x12_1_0_0_1_n_n_wf : DotDims.WF S2048x128 S128x12 S2048x12 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x8_S8x32_S1600000x32_1_0_0_1_n_n : DotDims S1600000x8 S8x32 S1600000x32 where
  lhsContracting := [1]
  rhsContracting := [0]
  lhsNonContracting := [0]
  rhsNonContracting := [1]
  lhsBatch := []
  rhsBatch := []
  wf := dot_S1600000x8_S8x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x8_S8x128_S1600000x128_1_0_0_1_n_n : DotDims S1600000x8 S8x128 S1600000x128 where
  lhsContracting := [1]
  rhsContracting := [0]
  lhsNonContracting := [0]
  rhsNonContracting := [1]
  lhsBatch := []
  rhsBatch := []
  wf := dot_S1600000x8_S8x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x12_S2048x12_1_0_0_1_n_n : DotDims S2048x128 S128x12 S2048x12 where
  lhsContracting := [1]
  rhsContracting := [0]
  lhsNonContracting := [0]
  rhsNonContracting := [1]
  lhsBatch := []
  rhsBatch := []
  wf := dot_S2048x128_S128x12_S2048x12_1_0_0_1_n_n_wf

class Facts : Prop extends Facts₀ where

variable [Facts]
-- ==== Proof.Spec.lean ====
/-
  The layers of the network as functions of whole arrays over the extended reals, index by index.
  A dense layer is `lin A W b = A·W + b` (row r, column c: the sum over k of A[r,k]·W[k,c], plus b[c]);
  `relu` is the maximum with 0 and `elu` is x for x > 0 and exp x − 1 otherwise.  An edge message is
  `msg g ea We be = relu (g + lin ea We be)`, a node update is
  `mlp x agg Wa ba Wb bb = elu (lin (elu (lin (x + agg) Wa ba)) Wb bb)` and the readout is
  `fin hg W1 b1 W2 b2 = lin (relu (lin hg W1 b1)) W2 b2`.  Every one of them acts on each row by itself,
  which is why a block of rows of the result is the same function of the blocks of rows of the operands.
-/
import Idealize.ShloMosaic.PureOps.Ideal
import Idealize.ShloMosaic.PureOps.Ideal.Laws
import Idealize.ShloMosaic.Lib.ValueIdx
import Idealize.ShloMosaic.Lib.StackMember

noncomputable section

namespace Cert.Spec

open Idealize.ShloMosaic Idealize.ShloMosaic.ValueIdx
open scoped BigOperators

/-- A matrix of extended reals with `M` rows and `N` columns. -/
abbrev Mat (M N : Nat) := FVec Ideal ⟨2, ![M, N]⟩ .f32
/-- A vector of extended reals with `N` entries. -/
abbrev Row (N : Nat) := FVec Ideal ⟨1, ![N]⟩ .f32

variable {M K N : Nat}

/-- The dense layer `A·W + b`: entry (r, c) is `∑ k, A[r,k]·W[k,c]` plus `b[c]`. -/
def lin (A : Mat M K) (W : Mat K N) (b : Row N) : Mat M N :=
  fun j => (∑ k : Fin K, A (ix2 (j 0) k) * W (ix2 k (j 1))) + b (ix1 (j 1))

/-- The rectifier on one extended real. -/
def relu1 (v : EReal) : EReal := max v 0

/-- The exponential linear unit on one extended real: `v` where `v > 0`, `exp v − 1` elsewhere. -/
def elu1 (v : EReal) : EReal := Scalar.select (Ideal.cmp .ogt v 0) v (Ideal.exp v - 1)

def relu (v : Mat M N) : Mat M N := fun j => relu1 (v j)
def elu (v : Mat M N) : Mat M N := fun j => elu1 (v j)

/-- An edge message: the gathered source row plus the dense layer of the edge attributes, rectified. -/
def msg (g : Mat M N) (ea : Mat M K) (We : Mat K N) (be : Row N) : Mat M N :=
  fun j => relu1 (g j + lin ea We be j)

/-- A node update: two dense layers, each followed by `elu`, of the node rows plus the aggregated messages. -/
def mlp (x agg : Mat M K) (Wa : Mat K N) (ba : Row N) (Wb : Mat N N) (bb : Row N) : Mat M N :=
  elu (lin (elu (lin (fun j => x j + agg j) Wa ba)) Wb bb)

/-- The readout: a dense layer, the rectifier, a dense layer. -/
def fin (hg : Mat M K) (W1 : Mat K K) (b1 : Row K) (W2 : Mat K N) (b2 : Row N) : Mat M N :=
  lin (relu (lin hg W1 b1)) W2 b2

/-- The f32 pattern of 1.0 denotes the real 1. -/
theorem ofBits_one_f32 : Ideal.ofBits .f32 0x3F800000#32 = 1 := by
  simp [Ideal.ofBits, Ideal.ieee]
  rw [← EReal.coe_mul]
  norm_num

/-- A product with a zero accumulator, at the plain two-matrix contraction, read at (r, c): the sum over the
    contracted coordinate. -/
theorem matmul_plain_zero_apply (prec : Option ContractPrecision) (A : Mat M K) (W : Mat K N) (r : Fin M) (c : Fin N) :
    FloatOps.matmul (DotDims.plain M K N) prec A W (constant ⟨2, ![M, N]⟩ .f32 0x00000000#32) (ix2 r c)
      = ∑ k : Fin K, A (ix2 r k) * W (ix2 k c) := by
  rw [Ideal.matmul_constant_zero_apply, ← Ideal.dotGeneral_apply (DotDims.plain M K N) prec default A W (ix2 r c)]
  exact StackMember.dotGeneral_plain_apply prec A W r c

end Cert.Spec

end
-- ==== Proof.KMsgA.lean ====
import proofs.«406645_j19301583028827_1_alg».proof.Proof.Gen.KernelIdeal.Frame
import proofs.«406645_j19301583028827_1_alg».proof.Proof.Spec
import Idealize.ShloMosaic.Lib.Pipeline.Value
import Idealize.ShloMosaic.Lib.ValueIdx
import Idealize.ShloMosaic.Lib.ValueLayout
set_option maxRecDepth 16384
noncomputable section
namespace Cert.KernelIdeal.KVal
open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-!
  The first edge-message region (32 channels). Each of its 200 points takes 8000 edges: the gathered source rows
  g, the edge attributes ea, the whole weights We (8×32) and bias be, and stores max (g + (ea·We + be)) 0. That is
  the edge message of the block's rows, and because an edge message depends on its own row only, the 200 stored
  blocks are the blocks of the edge message of the whole arrays; they tile the 1600000 rows, so the output array
  ends as that one function of the arrays the region finds.
-/

open scoped BigOperators

/-! ## The body's payload is the edge message of its blocks -/

/-- The printed contraction record of the 8000×8 by 8×32 product is the plain two-matrix contraction. -/
theorem msgA_dot_msg32_plain : dot_S8000x8_S8x32_S8000x32_1_0_0_1_n_n = DotDims.plain 8000 8 32 := rfl

/-- The bias row, made a 1×32 matrix and repeated down the 8000 rows, read at (p, q), is the bias at q. -/
theorem msgA_bias32_apply (be : Vec Ideal S32 .f32) (p : Fin 8000) (q : Fin 32) :
    broadcastTo S8000x32 (shapeCast S1x32 be shapeCasts_S32_S1x32) broadcasts_S1x32_S8000x32 (ix2 p q) = be (ix1 q) := by
  rw [broadcastTo_apply _ _ (ix2 p q) (ix2 (0 : Fin 1) q)]
  · rw [shapeCast_addUnit_apply]
    exact congrArg be (funext fun a => by match a with | ⟨0, _⟩ => rfl)
  · intro a
    match a with
    | ⟨0, _⟩ => rfl
    | ⟨1, _⟩ => rfl

/-- The product of the edge attributes and the weights, from a zero accumulator, read at (p, q): the sum over the
    8 attribute channels (the narrowing of the operands is the identity on extended reals). -/
theorem msgA_prod32_apply (ea : Vec Ideal S8000x8 .f32) (We : Vec Ideal S8x32 .f32) (p : Fin 8000) (q : Fin 32) :
    matmul dot_S8000x8_S8x32_S8000x32_1_0_0_1_n_n none (truncf (F := Ideal) .bf16 ea bitsLt_bf16_f32)
        (truncf (F := Ideal) .bf16 We bitsLt_bf16_f32) (constant (F := Ideal) S8000x32 .f32 0x00000000#32) (ix2 p q)
      = ∑ k : Fin 8, ea (ix2 p k) * We (ix2 k q) := by
  rw [msgA_dot_msg32_plain]
  exact Cert.Spec.matmul_plain_zero_apply none ea We p q

/-- The stored value of one block: max (g + (ea·We + be)) 0, which is the edge message of the block's operands. -/
theorem msgA_edgeMsg32_pay (ea : Vec Ideal S8000x8 .f32) (We : Vec Ideal S8x32 .f32) (be : Vec Ideal S32 .f32)
    (g : Vec Ideal S8000x32 .f32) :
    k0_pay1 (F := Ideal) ea We be g = Cert.Spec.msg (M := 8000) (K := 8) (N := 32) g ea We be := by
  funext j
  obtain ⟨p, q, rfl⟩ : ∃ (p : Fin 8000) (q : Fin 32), j = ix2 p q := ⟨j 0, j 1, eq_ix2 j⟩
  unfold k0_pay1
  rw [maximumf_apply, addf_apply, addf_apply, broadcast_apply, shapeCast_self, msgA_bias32_apply, msgA_prod32_apply]
  show max _ (Ideal.ofBits .f32 0x00000000#32) = _
  rw [Ideal.ofBits_zero_f32]
  rfl

/-! ## From blocks of 8000 edges to the whole array of messages -/

theorem msgA_zeroOff2 : (![0, 0] : Fin 2 → Nat) = fun _ => 0 := funext fun a => by fin_cases a <;> rfl
theorem msgA_zeroOff1 : (![0] : Fin 1 → Nat) = fun _ => 0 := funext fun a => by fin_cases a <;> rfl

/-- The printed index maps over the 200 grid points: the three row-block windows sit at block t of the rows and
    block 0 of the columns; the weights and the bias are whole. -/
theorem msgA_blockIdx32 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of block t of the gathered source rows is row t·8000 + p of the array. -/
theorem msgA_srcBlock32 (c : Dev nD) (t : Fin cfg0.N) (p : Fin 8000) (q : Fin 32) (r : Fin 1600000)
    (hr : r.val = t.val * 8000 + p.val) :
    iblk0 (F := Ideal) V c 0 t (ix2 p q) = V c main_v4 (ix2 r q) := by
  show V c main_v4 (((cfg0.win 0).blk t).view.emb (ix2 p q)) = V c main_v4 (ix2 r q)
  refine congrArg _ (funext fun a => Fin.ext ?_)
  obtain ⟨e0, e1, -⟩ := msgA_blockIdx32 t
  match a with
  | ⟨0, _⟩ => show win0_0.index t (0 : Fin 2) * 8000 + 1 * p.val = r.val; omega
  | ⟨1, _⟩ => show win0_0.index t (1 : Fin 2) * 32 + 1 * q.val = q.val; omega

/-- Row p of block t of the edge attributes is row t·8000 + p of the array. -/
theorem msgA_attrBlock32 (c : Dev nD) (t : Fin cfg0.N) (p : Fin 8000) (k : Fin 8) (r : Fin 1600000)
    (hr : r.val = t.val * 8000 + p.val) :
    iblk0 (F := Ideal) V c 1 t (ix2 p k) = V c main_arg2 (ix2 r k) := by
  show V c main_arg2 (((cfg0.win 1).blk t).view.emb (ix2 p k)) = V c main_arg2 (ix2 r k)
  refine congrArg _ (funext fun a => Fin.ext ?_)
  obtain ⟨-, -, e2, e3, -⟩ := msgA_blockIdx32 t
  match a with
  | ⟨0, _⟩ => show win0_1.index t (0 : Fin 2) * 8000 + 1 * p.val = r.val; omega
  | ⟨1, _⟩ => show win0_1.index t (1 : Fin 2) * 8 + 1 * k.val = k.val; omega

/-- The weights' window is the whole 8×32 array at every point. -/
theorem msgA_weightBlock32 (c : Dev nD) (t : Fin cfg0.N) (k : Fin 8) (q : Fin 32) :
    iblk0 (F := Ideal) V c 2 t (ix2 k q) = V c main_arg4 (ix2 k q) := by
  show V c main_arg4 (((cfg0.win 2).blk t).view.emb (ix2 k q)) = V c main_arg4 (ix2 k q)
  refine congrArg _ (funext fun a => Fin.ext ?_)
  obtain ⟨-, -, -, -, e4, e5, -⟩ := msgA_blockIdx32 t
  match a with
  | ⟨0, _⟩ => show win0_2.index t (0 : Fin 2) * 8 + 1 * k.val = k.val; omega
  | ⟨1, _⟩ => show win0_2.index t (1 : Fin 2) * 32 + 1 * q.val = q.val; omega

/-- The bias's window is the whole array of 32 at every point. -/
theorem msgA_biasBlock32 (c : Dev nD) (t : Fin cfg0.N) (q : Fin 32) :
    iblk0 (F := Ideal) V c 3 t (ix1 q) = V c main_arg5 (ix1 q) := by
  show V c main_arg5 (((cfg0.win 3).blk t).view.emb (ix1 q)) = V c main_arg5 (ix1 q)
  refine congrArg _ (funext fun a => Fin.ext ?_)
  obtain ⟨-, -, -, -, -, -, e6, -⟩ := msgA_blockIdx32 t
  match a with
  | ⟨0, _⟩ => show win0_3.index t (0 : Fin 1) * 32 + 1 * q.val = q.val; omega

/-- Row p of output block t is row t·8000 + p of the output array. -/
theorem msgA_outBlock32 (t : Fin cfg0.N) (p : Fin 8000) (q : Fin 32) (r : Fin 1600000)
    (hr : r.val = t.val * 8000 + p.val) :
    ((cfg0.win 4).blk t).view.emb (ix2 p q) = (ix2 r q : S1600000x32.Idx) := by
  refine funext fun a => Fin.ext ?_
  obtain ⟨-, -, -, -, -, -, -, e7, e8⟩ := msgA_blockIdx32 t
  match a with
  | ⟨0, _⟩ => show win0_4.index t (0 : Fin 2) * 8000 + 1 * p.val = r.val; omega
  | ⟨1, _⟩ => show win0_4.index t (1 : Fin 2) * 32 + 1 * q.val = q.val; omega

/-- An edge message depends on its own row only: where row p of the block operands is row r of the array
    operands, and the weights and the bias agree, the messages agree at (p, ·) and (r, ·). -/
theorem msgA_msg_row {M B K N : Nat} (g : Cert.Spec.Mat M N) (ea : Cert.Spec.Mat M K) (We : Cert.Spec.Mat K N) (be : Cert.Spec.Row N)
    (gb : Cert.Spec.Mat B N) (eab : Cert.Spec.Mat B K) (Wb : Cert.Spec.Mat K N) (bb : Cert.Spec.Row N)
    (p : Fin B) (r : Fin M) (q : Fin N)
    (hg : gb (ix2 p q) = g (ix2 r q)) (hea : ∀ k : Fin K, eab (ix2 p k) = ea (ix2 r k))
    (hW : ∀ k : Fin K, Wb (ix2 k q) = We (ix2 k q)) (hb : bb (ix1 q) = be (ix1 q)) :
    Cert.Spec.msg gb eab Wb bb (ix2 p q) = Cert.Spec.msg g ea We be (ix2 r q) := by
  show Cert.Spec.relu1 (gb (ix2 p q) + ((∑ k : Fin K, eab (ix2 p k) * Wb (ix2 k q)) + bb (ix1 q)))
    = Cert.Spec.relu1 (g (ix2 r q) + ((∑ k : Fin K, ea (ix2 r k) * We (ix2 k q)) + be (ix1 q)))
  rw [hg, hb]
  simp only [hea, hW]

/-- WHAT POINT t WRITES BACK is block t of the edge messages of the whole arrays as the region finds them. -/
theorem msgA_flushedMsg32 (c : Dev nD) (t : Fin cfg0.N) :
    (dat0 (F := Ideal) V c).flushed 4 t = ((cfg0.win 4).blk t).view.read (Elt Ideal)
      (Cert.Spec.msg (V c main_v4) (V c main_arg2) (V c main_arg4) (V c main_arg5)) := by
  show (cfg0.win 4).cut (grid0.coords t) ((dat0 V c).after 4 t) = _
  rw [after0_4]
  unfold out0_4
  rw [View.canon_unit_zero msgA_zeroOff2]
  simp only [View.ld_unit_zero (S := S8000x32) msgA_zeroOff2, View.ld_unit_zero (S := S8000x8) msgA_zeroOff2,
    View.ld_unit_zero (S := S8x32) msgA_zeroOff2, View.ld_unit_zero (S := S32) msgA_zeroOff1]
  rw [msgA_edgeMsg32_pay]
  funext y
  obtain ⟨p, q, rfl⟩ : ∃ (p : Fin 8000) (q : Fin 32), y = ix2 p q := ⟨y 0, y 1, eq_ix2 y⟩
  have ht : t.val < 200 := lt_of_lt_of_eq t.isLt N_0
  have hp : p.val < 8000 := p.isLt
  show Cert.Spec.msg (M := 8000) (K := 8) (N := 32) (iblk0 V c 0 t) (iblk0 V c 1 t) (iblk0 V c 2 t) (iblk0 V c 3 t) (ix2 p q)
    = Cert.Spec.msg (V c main_v4) (V c main_arg2) (V c main_arg4) (V c main_arg5) (((cfg0.win 4).blk t).view.emb (ix2 p q))
  rw [msgA_outBlock32 t p q ⟨t.val * 8000 + p.val, by omega⟩ rfl]
  exact msgA_msg_row (M := 1600000) (B := 8000) (K := 8) (N := 32) _ _ _ _ _ _ _ _ p ⟨t.val * 8000 + p.val, by omega⟩ q
    (msgA_srcBlock32 V c t p q _ rfl) (fun k => msgA_attrBlock32 V c t p k _ rfl)
    (fun k => msgA_weightBlock32 V c t k q) (msgA_biasBlock32 V c t q)

/-- An index of the output array is in point t's block iff each coordinate is in the block's range on its axis. -/
theorem msgA_mem_msgBlock32 (t : Fin cfg0.N) (i : S1600000x32.Idx) :
    i ∈ ((cfg0.win 4).blk t).view.set ↔ ∀ a : Fin 2, win0_4.index t a * S8000x32.size a ≤ (i a).val ∧ (i a).val < win0_4.index t a * S8000x32.size a + S8000x32.size a := by
  show i ∈ ((View.whole main_v5).slice (win0_4.rect t)).set ↔ _
  rw [View.set_slice_whole, Rect.mem_set_unit]
  exact Iff.rfl

/-- Every row r of the output lies in the block of point r / 8000, and every point writes its block back. -/
theorem msgA_msgBlocks32_cover (i : S1600000x32.Idx) :
    ∃ t : Fin cfg0.N, (cfg0.win 4).flush t = true ∧ i ∈ ((cfg0.win 4).blk t).view.set := by
  have hi0 : (i 0).val < 1600000 := (i 0).isLt
  have hi1 : (i 1).val < 32 := (i 1).isLt
  have hN : (i 0).val / 8000 < cfg0.N := by rw [show cfg0.N = 200 from N_0]; omega
  refine ⟨⟨(i 0).val / 8000, hN⟩, flush0_4 _, ?_⟩
  rw [msgA_mem_msgBlock32]
  obtain ⟨-, -, -, -, -, -, -, e7, e8⟩ := msgA_blockIdx32 ⟨(i 0).val / 8000, hN⟩
  have e7' : win0_4.index ⟨(i 0).val / 8000, hN⟩ (0 : Fin 2) = (i 0).val / 8000 := e7
  intro a
  match a with
  | ⟨0, _⟩ => show win0_4.index ⟨(i 0).val / 8000, hN⟩ (0 : Fin 2) * 8000 ≤ (i 0).val ∧ (i 0).val < win0_4.index ⟨(i 0).val / 8000, hN⟩ (0 : Fin 2) * 8000 + 8000; omega
  | ⟨1, _⟩ => show win0_4.index ⟨(i 0).val / 8000, hN⟩ (1 : Fin 2) * 32 ≤ (i 1).val ∧ (i 1).val < win0_4.index ⟨(i 0).val / 8000, hN⟩ (1 : Fin 2) * 32 + 32; omega

/-- THE ARRAY of messages after the region: the edge message of the gathered rows, the edge attributes, the
    weights and the bias as the region finds them. -/
theorem final0 (c : Dev nD) :
    (dat0 (F := Ideal) V c).arrAt 4 cfg0.N
      = Cert.Spec.msg (V c main_v4) (V c main_arg2) (V c main_arg4) (V c main_arg5) :=
  (dat0 V c).arrAt_eq_of_cover 4 _ (fun t _ => msgA_flushedMsg32 V c t) msgA_msgBlocks32_cover

end Cert.KernelIdeal.KVal
end
-- ==== Proof.KMsgB.lean ====
import proofs.«406645_j19301583028827_1_alg».proof.Proof.Gen.KernelIdeal.Frame
import proofs.«406645_j19301583028827_1_alg».proof.Proof.Spec
import Idealize.ShloMosaic.Lib.Pipeline.Value
import Idealize.ShloMosaic.Lib.ValueIdx
import Idealize.ShloMosaic.Lib.ValueLayout
set_option maxRecDepth 16384
noncomputable section
namespace Cert.KernelIdeal.KVal
open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-!
  The second edge-message region (128 channels). Each of its 200 points takes 8000 edges: the gathered source rows
  g (128 wide), the edge attributes ea, the whole weights We (8×128) and bias be, and stores
  max (g + (ea·We + be)) 0: the edge message of the block's rows. An edge message depends on its own row only, so
  the 200 stored blocks are the blocks of the edge message of the whole arrays; they tile the 1600000 rows, and
  the output array ends as that one function of the arrays the region finds.
-/

open scoped BigOperators

/-! ## The body's payload is the edge message of its blocks -/

/-- The printed contraction record of the 8000×8 by 8×128 product is the plain two-matrix contraction. -/
theorem msgB_dot_msg128_plain : dot_S8000x8_S8x128_S8000x128_1_0_0_1_n_n = DotDims.plain 8000 8 128 := rfl

/-- The bias row, made a 1×128 matrix and repeated down the 8000 rows, read at (p, q), is the bias at q. -/
theorem msgB_bias128_apply (be : Vec Ideal S128 .f32) (p : Fin 8000) (q : Fin 128) :
    broadcastTo S8000x128 (shapeCast S1x128 be shapeCasts_S128_S1x128) broadcasts_S1x128_S8000x128 (ix2 p q) = be (ix1 q) := by
  rw [broadcastTo_apply _ _ (ix2 p q) (ix2 (0 : Fin 1) q)]
  · rw [shapeCast_addUnit_apply]
    exact congrArg be (funext fun a => by match a with | ⟨0, _⟩ => rfl)
  · intro a
    match a with
    | ⟨0, _⟩ => rfl
    | ⟨1, _⟩ => rfl

/-- The product of the edge attributes and the weights, from a zero accumulator, read at (p, q): the sum over the
    8 attribute channels (the narrowing of the operands is the identity on extended reals). -/
theorem msgB_prod128_apply (ea : Vec Ideal S8000x8 .f32) (We : Vec Ideal S8x128 .f32) (p : Fin 8000) (q : Fin 128) :
    matmul dot_S8000x8_S8x128_S8000x128_1_0_0_1_n_n none (truncf (F := Ideal) .bf16 ea bitsLt_bf16_f32)
        (truncf (F := Ideal) .bf16 We bitsLt_bf16_f32) (constant (F := Ideal) S8000x128 .f32 0x00000000#32) (ix2 p q)
      = ∑ k : Fin 8, ea (ix2 p k) * We (ix2 k q) := by
  rw [msgB_dot_msg128_plain]
  exact Cert.Spec.matmul_plain_zero_apply none ea We p q

/-- The stored value of one block: max (g + (ea·We + be)) 0, which is the edge message of the block's operands. -/
theorem msgB_edgeMsg128_pay (ea : Vec Ideal S8000x8 .f32) (We : Vec Ideal S8x128 .f32) (be : Vec Ideal S128 .f32)
    (g : Vec Ideal S8000x128 .f32) :
    k2_pay1 (F := Ideal) ea We be g = Cert.Spec.msg (M := 8000) (K := 8) (N := 128) g ea We be := by
  funext j
  obtain ⟨p, q, rfl⟩ : ∃ (p : Fin 8000) (q : Fin 128), j = ix2 p q := ⟨j 0, j 1, eq_ix2 j⟩
  unfold k2_pay1
  rw [maximumf_apply, addf_apply, addf_apply, broadcast_apply, shapeCast_self, msgB_bias128_apply, msgB_prod128_apply]
  show max _ (Ideal.ofBits .f32 0x00000000#32) = _
  rw [Ideal.ofBits_zero_f32]
  rfl

/-! ## From blocks of 8000 edges to the whole array of messages -/

theorem msgB_zeroOffB2 : (![0, 0] : Fin 2 → Nat) = fun _ => 0 := funext fun a => by fin_cases a <;> rfl
theorem msgB_zeroOffB1 : (![0] : Fin 1 → Nat) = fun _ => 0 := funext fun a => by fin_cases a <;> rfl

/-- The printed index maps over the 200 grid points: the three row-block windows sit at block t of the rows and
    block 0 of the columns; the weights and the bias are whole. -/
theorem msgB_blockIdx128 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row p of block t of the gathered source rows is row t·8000 + p of the array. -/
theorem msgB_srcBlock128 (c : Dev nD) (t : Fin cfg2.N) (p : Fin 8000) (q : Fin 128) (r : Fin 1600000)
    (hr : r.val = t.val * 8000 + p.val) :
    iblk2 (F := Ideal) V c 0 t (ix2 p q) = V c main_v10 (ix2 r q) := by
  show V c main_v10 (((cfg2.win 0).blk t).view.emb (ix2 p q)) = V c main_v10 (ix2 r q)
  refine congrArg _ (funext fun a => Fin.ext ?_)
  obtain ⟨e0, e1, -⟩ := msgB_blockIdx128 t
  match a with
  | ⟨0, _⟩ => show win2_0.index t (0 : Fin 2) * 8000 + 1 * p.val = r.val; omega
  | ⟨1, _⟩ => show win2_0.index t (1 : Fin 2) * 128 + 1 * q.val = q.val; omega

/-- Row p of block t of the edge attributes is row t·8000 + p of the array. -/
theorem msgB_attrBlock128 (c : Dev nD) (t : Fin cfg2.N) (p : Fin 8000) (k : Fin 8) (r : Fin 1600000)
    (hr : r.val = t.val * 8000 + p.val) :
    iblk2 (F := Ideal) V c 1 t (ix2 p k) = V c main_arg2 (ix2 r k) := by
  show V c main_arg2 (((cfg2.win 1).blk t).view.emb (ix2 p k)) = V c main_arg2 (ix2 r k)
  refine congrArg _ (funext fun a => Fin.ext ?_)
  obtain ⟨-, -, e2, e3, -⟩ := msgB_blockIdx128 t
  match a with
  | ⟨0, _⟩ => show win2_1.index t (0 : Fin 2) * 8000 + 1 * p.val = r.val; omega
  | ⟨1, _⟩ => show win2_1.index t (1 : Fin 2) * 8 + 1 * k.val = k.val; omega

/-- The weights' window is the whole 8×128 array at every point. -/
theorem msgB_weightBlock128 (c : Dev nD) (t : Fin cfg2.N) (k : Fin 8) (q : Fin 128) :
    iblk2 (F := Ideal) V c 2 t (ix2 k q) = V c main_arg10 (ix2 k q) := by
  show V c main_arg10 (((cfg2.win 2).blk t).view.emb (ix2 k q)) = V c main_arg10 (ix2 k q)
  refine congrArg _ (funext fun a => Fin.ext ?_)
  obtain ⟨-, -, -, -, e4, e5, -⟩ := msgB_blockIdx128 t
  match a with
  | ⟨0, _⟩ => show win2_2.index t (0 : Fin 2) * 8 + 1 * k.val = k.val; omega
  | ⟨1, _⟩ => show win2_2.index t (1 : Fin 2) * 128 + 1 * q.val = q.val; omega

/-- The bias's window is the whole array of 128 at every point. -/
theorem msgB_biasBlock128 (c : Dev nD) (t : Fin cfg2.N) (q : Fin 128) :
    iblk2 (F := Ideal) V c 3 t (ix1 q) = V c main_arg11 (ix1 q) := by
  show V c main_arg11 (((cfg2.win 3).blk t).view.emb (ix1 q)) = V c main_arg11 (ix1 q)
  refine congrArg _ (funext fun a => Fin.ext ?_)
  obtain ⟨-, -, -, -, -, -, e6, -⟩ := msgB_blockIdx128 t
  match a with
  | ⟨0, _⟩ => show win2_3.index t (0 : Fin 1) * 128 + 1 * q.val = q.val; omega

/-- Row p of output block t is row t·8000 + p of the output array. -/
theorem msgB_outBlock128 (t : Fin cfg2.N) (p : Fin 8000) (q : Fin 128) (r : Fin 1600000)
    (hr : r.val = t.val * 8000 + p.val) :
    ((cfg2.win 4).blk t).view.emb (ix2 p q) = (ix2 r q : S1600000x128.Idx) := by
  refine funext fun a => Fin.ext ?_
  obtain ⟨-, -, -, -, -, -, -, e7, e8⟩ := msgB_blockIdx128 t
  match a with
  | ⟨0, _⟩ => show win2_4.index t (0 : Fin 2) * 8000 + 1 * p.val = r.val; omega
  | ⟨1, _⟩ => show win2_4.index t (1 : Fin 2) * 128 + 1 * q.val = q.val; omega

/-- An edge message depends on its own row only: where row p of the block operands is row r of the array
    operands, and the weights and the bias agree, the messages agree at (p, ·) and (r, ·). -/
theorem msgB_msg_of_row {M B K N : Nat} (g : Cert.Spec.Mat M N) (ea : Cert.Spec.Mat M K) (We : Cert.Spec.Mat K N) (be : Cert.Spec.Row N)
    (gb : Cert.Spec.Mat B N) (eab : Cert.Spec.Mat B K) (Wb : Cert.Spec.Mat K N) (bb : Cert.Spec.Row N)
    (p : Fin B) (r : Fin M) (q : Fin N)
    (hg : gb (ix2 p q) = g (ix2 r q)) (hea : ∀ k : Fin K, eab (ix2 p k) = ea (ix2 r k))
    (hW : ∀ k : Fin K, Wb (ix2 k q) = We (ix2 k q)) (hb : bb (ix1 q) = be (ix1 q)) :
    Cert.Spec.msg gb eab Wb bb (ix2 p q) = Cert.Spec.msg g ea We be (ix2 r q) := by
  show Cert.Spec.relu1 (gb (ix2 p q) + ((∑ k : Fin K, eab (ix2 p k) * Wb (ix2 k q)) + bb (ix1 q)))
    = Cert.Spec.relu1 (g (ix2 r q) + ((∑ k : Fin K, ea (ix2 r k) * We (ix2 k q)) + be (ix1 q)))
  rw [hg, hb]
  simp only [hea, hW]

/-- WHAT POINT t WRITES BACK is block t of the edge messages of the whole arrays as the region finds them. -/
theorem msgB_flushedMsg128 (c : Dev nD) (t : Fin cfg2.N) :
    (dat2 (F := Ideal) V c).flushed 4 t = ((cfg2.win 4).blk t).view.read (Elt Ideal)
      (Cert.Spec.msg (V c main_v10) (V c main_arg2) (V c main_arg10) (V c main_arg11)) := by
  show (cfg2.win 4).cut (grid2.coords t) ((dat2 V c).after 4 t) = _
  rw [after2_4]
  unfold out2_4
  rw [View.canon_unit_zero msgB_zeroOffB2]
  simp only [View.ld_unit_zero (S := S8000x128) msgB_zeroOffB2, View.ld_unit_zero (S := S8000x8) msgB_zeroOffB2,
    View.ld_unit_zero (S := S8x128) msgB_zeroOffB2, View.ld_unit_zero (S := S128) msgB_zeroOffB1]
  rw [msgB_edgeMsg128_pay]
  funext y
  obtain ⟨p, q, rfl⟩ : ∃ (p : Fin 8000) (q : Fin 128), y = ix2 p q := ⟨y 0, y 1, eq_ix2 y⟩
  have ht : t.val < 200 := lt_of_lt_of_eq t.isLt N_2
  have hp : p.val < 8000 := p.isLt
  show Cert.Spec.msg (M := 8000) (K := 8) (N := 128) (iblk2 V c 0 t) (iblk2 V c 1 t) (iblk2 V c 2 t) (iblk2 V c 3 t) (ix2 p q)
    = Cert.Spec.msg (V c main_v10) (V c main_arg2) (V c main_arg10) (V c main_arg11) (((cfg2.win 4).blk t).view.emb (ix2 p q))
  rw [msgB_outBlock128 t p q ⟨t.val * 8000 + p.val, by omega⟩ rfl]
  exact msgB_msg_of_row (M := 1600000) (B := 8000) (K := 8) (N := 128) _ _ _ _ _ _ _ _ p ⟨t.val * 8000 + p.val, by omega⟩ q
    (msgB_srcBlock128 V c t p q _ rfl) (fun k => msgB_attrBlock128 V c t p k _ rfl)
    (fun k => msgB_weightBlock128 V c t k q) (msgB_biasBlock128 V c t q)

/-- An index of the output array is in point t's block iff each coordinate is in the block's range on its axis. -/
theorem msgB_mem_msgBlock128 (t : Fin cfg2.N) (i : S1600000x128.Idx) :
    i ∈ ((cfg2.win 4).blk t).view.set ↔ ∀ a : Fin 2, win2_4.index t a * S8000x128.size a ≤ (i a).val ∧ (i a).val < win2_4.index t a * S8000x128.size a + S8000x128.size a := by
  show i ∈ ((View.whole main_v11).slice (win2_4.rect t)).set ↔ _
  rw [View.set_slice_whole, Rect.mem_set_unit]
  exact Iff.rfl

/-- Every row r of the output lies in the block of point r / 8000, and every point writes its block back. -/
theorem msgB_msgBlocks128_cover (i : S1600000x128.Idx) :
    ∃ t : Fin cfg2.N, (cfg2.win 4).flush t = true ∧ i ∈ ((cfg2.win 4).blk t).view.set := by
  have hi0 : (i 0).val < 1600000 := (i 0).isLt
  have hi1 : (i 1).val < 128 := (i 1).isLt
  have hN : (i 0).val / 8000 < cfg2.N := by rw [show cfg2.N = 200 from N_2]; omega
  refine ⟨⟨(i 0).val / 8000, hN⟩, flush2_4 _, ?_⟩
  rw [msgB_mem_msgBlock128]
  obtain ⟨-, -, -, -, -, -, -, e7, e8⟩ := msgB_blockIdx128 ⟨(i 0).val / 8000, hN⟩
  have e7' : win2_4.index ⟨(i 0).val / 8000, hN⟩ (0 : Fin 2) = (i 0).val / 8000 := e7
  intro a
  match a with
  | ⟨0, _⟩ => show win2_4.index ⟨(i 0).val / 8000, hN⟩ (0 : Fin 2) * 8000 ≤ (i 0).val ∧ (i 0).val < win2_4.index ⟨(i 0).val / 8000, hN⟩ (0 : Fin 2) * 8000 + 8000; omega
  | ⟨1, _⟩ => show win2_4.index ⟨(i 0).val / 8000, hN⟩ (1 : Fin 2) * 128 ≤ (i 1).val ∧ (i 1).val < win2_4.index ⟨(i 0).val / 8000, hN⟩ (1 : Fin 2) * 128 + 128; omega

/-- THE ARRAY of messages after the region: the edge message of the gathered rows, the edge attributes, the
    weights and the bias as the region finds them. -/
theorem final2 (c : Dev nD) :
    (dat2 (F := Ideal) V c).arrAt 4 cfg2.N
      = Cert.Spec.msg (V c main_v10) (V c main_arg2) (V c main_arg10) (V c main_arg11) :=
  (dat2 V c).arrAt_eq_of_cover 4 _ (fun t _ => msgB_flushedMsg128 V c t) msgB_msgBlocks128_cover

end Cert.KernelIdeal.KVal
end
-- ==== Proof.KMlpA.lean ====
/-
  The value of the first node-update region: the array it leaves is the node update `mlp` of the arrays it finds.
  The body, on one block of 4000 rows, adds the node rows and the aggregated messages, applies a dense layer
  (32 channels to 128) and the exponential linear unit, a second dense layer (128 to 128) and the unit again; read
  index by index that is `mlp` of the block's rows and the whole weights (`node_payload`).  A row of `mlp` depends on
  that row of the two row operands only (`mlp_row_congr`), the row-block windows at point t hold rows
  4000 t … 4000 t + 3999 and the weight and bias windows hold whole arrays, so point t writes back block t of `mlp` of
  the whole arrays (`node_block_written`); the 25 blocks cover the 100000 rows (`node_blocks_cover`), so the array
  ends holding `mlp` of the whole arrays (`final1`).
-/
import proofs.«406645_j19301583028827_1_alg».proof.Proof.Gen.KernelIdeal.Frame
import proofs.«406645_j19301583028827_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
set_option maxRecDepth 16384
noncomputable section
namespace Cert.KernelIdeal.KVal
open Idealize.ShloMosaic Idealize.ShloMosaic.TcCoe Idealize.SL.Sem Idealize.ShloMosaic.ValueIdx
open Idealize.ShloMosaic.Pipeline (Dat Cfg Window)
open Cert.KernelIdeal Cert.KernelIdeal.Gen

/-- A bias vector cast to one row and repeated down the rows reads, at (p, q), its entry q. -/
theorem bias_row_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply _ _ (ix2 p q) (ix2 (0 : Fin 1) q) (fun a => by
      match a with
      | ⟨0, _⟩ => rfl
      | ⟨1, _⟩ => rfl)]
  rw [shapeCast_apply _ _ (ix2 (0 : Fin 1) q) (ix1 q) (by
      rw [Shape.rowMajor_val_one, Shape.rowMajor_val_two]; simp)]

/-- A product of two matrices held at any float types, accumulated from zero, read at (r, c): the sum over the
    contracted coordinate. -/
theorem prod_zero_apply {M K N : Nat} {φ₁ φ₂ : FTy} (A : FVec Ideal ⟨2, ![M, K]⟩ φ₁) (W : FVec Ideal ⟨2, ![K, N]⟩ φ₂)
    (r : Fin M) (c : Fin N) :
    FloatOps.matmul (DotDims.plain M K N) none A W (constant ⟨2, ![M, N]⟩ .f32 0x00000000#32) (ix2 r c)
      = ∑ k : Fin K, A (ix2 r k) * W (ix2 k c) := by
  rw [Ideal.matmul_constant_zero_apply, ← Ideal.dotGeneral_apply (DotDims.plain M K N) none default A W (ix2 r c)]
  exact StackMember.dotGeneral_plain_apply none A W r c

/-- The first dense layer of the body (32 channels in, 128 out) is `lin`. -/
theorem dense_in_eq (A : FVec Ideal S4000x32 .f32) (W : Vec Ideal S32x128 .f32) (b : Vec Ideal S128 .f32) :
    addf (matmul dot_S4000x32_S32x128_S4000x128_1_0_0_1_n_n none (truncf .bf16 A bitsLt_bf16_f32) (truncf .bf16 W bitsLt_bf16_f32)
        (constant S4000x128 .f32 0x00000000#32))
      (broadcastTo S4000x128 (shapeCast S1x128 b shapeCasts_S128_S1x128) broadcasts_S1x128_S4000x128)
      = Cert.Spec.lin (M := 4000) (K := 32) (N := 128) A W b := by
  funext j
  obtain ⟨p, q, rfl⟩ : ∃ (p : Fin 4000) (q : Fin 128), j = ix2 p q := ⟨j 0, j 1, eq_ix2 j⟩
  rw [addf_apply, bias_row_apply]
  show FloatOps.matmul (DotDims.plain 4000 32 128) none (truncf .bf16 A bitsLt_bf16_f32) (truncf .bf16 W bitsLt_bf16_f32)
      (constant ⟨2, ![4000, 128]⟩ .f32 0x00000000#32) (ix2 p q) + b (ix1 q) = _
  rw [prod_zero_apply]
  rfl

/-- The second dense layer of the body (128 channels in, 128 out) is `lin`. -/
theorem dense_out_eq (A : FVec Ideal S4000x128 .f32) (W : Vec Ideal S128x128 .f32) (b : Vec Ideal S128 .f32) :
    addf (matmul dot_S4000x128_S128x128_S4000x128_1_0_0_1_n_n none (truncf .bf16 A bitsLt_bf16_f32) (truncf .bf16 W bitsLt_bf16_f32)
        (constant S4000x128 .f32 0x00000000#32))
      (broadcastTo S4000x128 (shapeCast S1x128 b shapeCasts_S128_S1x128) broadcasts_S1x128_S4000x128)
      = Cert.Spec.lin (M := 4000) (K := 128) (N := 128) A W b := by
  funext j
  obtain ⟨p, q, rfl⟩ : ∃ (p : Fin 4000) (q : Fin 128), j = ix2 p q := ⟨j 0, j 1, eq_ix2 j⟩
  rw [addf_apply, bias_row_apply]
  show FloatOps.matmul (DotDims.plain 4000 128 128) none (truncf .bf16 A bitsLt_bf16_f32) (truncf .bf16 W bitsLt_bf16_f32)
      (constant ⟨2, ![4000, 128]⟩ .f32 0x00000000#32) (ix2 p q) + b (ix1 q) = _
  rw [prod_zero_apply]
  rfl

/-- The body's select-of-compare form of the exponential linear unit is `elu`. -/
theorem elu_form_eq (v : FVec Ideal S4000x128 .f32) :
    select (cmpf .ogt v (broadcast S4000x128 (Scalar.ofBits (F := Ideal) .f32 0x00000000#32))) v
        (subf (exp v) (broadcast S4000x128 (Scalar.ofBits (F := Ideal) .f32 0x3F800000#32)))
      = Cert.Spec.elu (M := 4000) (N := 128) v := by
  funext j
  show Scalar.select (Ideal.cmp .ogt (v j) (Ideal.ofBits .f32 0x00000000#32)) (v j) (Ideal.exp (v j) - Ideal.ofBits .f32 0x3F800000#32) = _
  rw [Ideal.ofBits_zero_f32, Cert.Spec.ofBits_one_f32]
  rfl

/-- The body's value on one block of rows: the node update of the block's rows. -/
theorem node_payload (x agg : Vec Ideal S4000x32 .f32) (Wa : Vec Ideal S32x128 .f32) (ba : Vec Ideal S128 .f32)
    (Wb : Vec Ideal S128x128 .f32) (bb : Vec Ideal S128 .f32) :
    k1_pay1 (F := Ideal) x agg Wa ba Wb bb = Cert.Spec.mlp (M := 4000) (K := 32) (N := 128) x agg Wa ba Wb bb := by
  unfold k1_pay1
  dsimp only []
  rw [shapeCast_self, dense_in_eq, elu_form_eq, dense_out_eq, elu_form_eq]
  rfl

/-- Row `r` of a node update depends on row `r` of the node rows and of the aggregated messages only: two pairs of
    operands that agree on a row give the same row. -/
theorem mlp_row_congr {M M' K N : Nat} (x agg : Cert.Spec.Mat M K) (x' agg' : Cert.Spec.Mat M' K) (Wa : Cert.Spec.Mat K N)
    (ba : Cert.Spec.Row N) (Wb : Cert.Spec.Mat N N) (bb : Cert.Spec.Row N) (r : Fin M) (r' : Fin M')
    (hx : ∀ k : Fin K, x (ix2 r k) = x' (ix2 r' k)) (hagg : ∀ k : Fin K, agg (ix2 r k) = agg' (ix2 r' k)) (q : Fin N) :
    Cert.Spec.mlp x agg Wa ba Wb bb (ix2 r q) = Cert.Spec.mlp x' agg' Wa ba Wb bb (ix2 r' q) := by
  show Cert.Spec.elu1 ((∑ k : Fin N, Cert.Spec.elu1 ((∑ k' : Fin K, (x (ix2 r k') + agg (ix2 r k')) * Wa (ix2 k' k)) + ba (ix1 k))
        * Wb (ix2 k q)) + bb (ix1 q))
      = Cert.Spec.elu1 ((∑ k : Fin N, Cert.Spec.elu1 ((∑ k' : Fin K, (x' (ix2 r' k') + agg' (ix2 r' k')) * Wa (ix2 k' k)) + ba (ix1 k))
        * Wb (ix2 k q)) + bb (ix1 q))
  simp only [hx, hagg]

theorem zero_off2 : (![0, 0] : Fin 2 → Nat) = fun _ => 0 := funext fun a => by fin_cases a <;> rfl
theorem zero_off1 : (![0] : Fin 1 → Nat) = fun _ => 0 := funext fun a => by fin_cases a; rfl

/-- The printed index maps, decided over the 25 grid points: the two row-block inputs and the output sit at block
    `t` of the rows, the weights and biases at block 0. -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The node-row window's block at point `t` is rows `4000 t … 4000 t + 3999` of the node rows. -/
theorem x_block_apply (c : Dev nD) (t : Fin cfg1.N) (p : Fin 4000) (k : Fin 32) (r : Fin 100000)
    (hr : r.val = t.val * 4000 + p.val) :
    (iblk1 (F := Ideal) V c 0 t : Vec Ideal S4000x32 .f32) (ix2 p k) = (V c main_arg0 : S100000x32.Idx → Ideal .f32) (ix2 r k) := by
  obtain ⟨e0, e1, -⟩ := node_index_facts t
  unfold iblk1
  rw [View.read_apply]
  show V c main_arg0 _ = V c main_arg0 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 32 + 1 * k.val = k.val; rw [e1]; omega

/-- The aggregated-message window's block at point `t` is the same rows of the aggregated messages. -/
theorem agg_block_apply (c : Dev nD) (t : Fin cfg1.N) (p : Fin 4000) (k : Fin 32) (r : Fin 100000)
    (hr : r.val = t.val * 4000 + p.val) :
    (iblk1 (F := Ideal) V c 1 t : Vec Ideal S4000x32 .f32) (ix2 p k) = (V c main_v8 : S100000x32.Idx → Ideal .f32) (ix2 r k) := by
  obtain ⟨-, -, e0, e1, -⟩ := node_index_facts t
  unfold iblk1
  rw [View.read_apply]
  show V c main_v8 _ = V c main_v8 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 32 + 1 * k.val = k.val; rw [e1]; omega

/-- The first layer's weight window holds the whole weight matrix at every point. -/
theorem Wa_block (c : Dev nD) (t : Fin cfg1.N) :
    (iblk1 (F := Ideal) V c 2 t : Vec Ideal S32x128 .f32) = (V c main_arg6 : S32x128.Idx → Ideal .f32) := by
  obtain ⟨-, -, -, -, e0, e1, -⟩ := node_index_facts t
  funext j
  unfold iblk1
  rw [View.read_apply]
  show V c main_arg6 _ = V c main_arg6 _
  congr 1
  funext a
  apply Fin.ext
  match a with
  | ⟨0, _⟩ => show win1_2.index t (0 : Fin 2) * 32 + 1 * (j 0).val = (j 0).val; rw [e0]; omega
  | ⟨1, _⟩ => show win1_2.index t (1 : Fin 2) * 128 + 1 * (j 1).val = (j 1).val; rw [e1]; omega

/-- The first layer's bias window holds the whole bias at every point. -/
theorem ba_block (c : Dev nD) (t : Fin cfg1.N) :
    (iblk1 (F := Ideal) V c 3 t : Vec Ideal S128 .f32) = (V c main_arg7 : S128.Idx → Ideal .f32) := by
  obtain ⟨-, -, -, -, -, -, e0, -⟩ := node_index_facts t
  funext j
  unfold iblk1
  rw [View.read_apply]
  show V c main_arg7 _ = V c main_arg7 _
  congr 1
  funext a
  apply Fin.ext
  match a with
  | ⟨0, _⟩ => show win1_3.index t (0 : Fin 1) * 128 + 1 * (j 0).val = (j 0).val; rw [e0]; omega

/-- The second layer's weight window holds the whole weight matrix at every point. -/
theorem Wb_block (c : Dev nD) (t : Fin cfg1.N) :
    (iblk1 (F := Ideal) V c 4 t : Vec Ideal S128x128 .f32) = (V c main_arg8 : S128x128.Idx → Ideal .f32) := by
  obtain ⟨-, -, -, -, -, -, -, e0, e1, -⟩ := node_index_facts t
  funext j
  unfold iblk1
  rw [View.read_apply]
  show V c main_arg8 _ = V c main_arg8 _
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- The second layer's bias window holds the whole bias at every point. -/
theorem bb_block (c : Dev nD) (t : Fin cfg1.N) :
    (iblk1 (F := Ideal) V c 5 t : Vec Ideal S128 .f32) = (V c main_arg9 : S128.Idx → Ideal .f32) := by
  obtain ⟨-, -, -, -, -, -, -, -, -, e0, -⟩ := node_index_facts t
  funext j
  unfold iblk1
  rw [View.read_apply]
  show V c main_arg9 _ = V c main_arg9 _
  congr 1
  funext a
  apply Fin.ext
  match a with
  | ⟨0, _⟩ => show win1_5.index t (0 : Fin 1) * 128 + 1 * (j 0).val = (j 0).val; rw [e0]; omega

/-- WHAT POINT `t` WRITES BACK is block `t` of the node update of the whole arrays as the region finds them. -/
theorem node_block_written (c : Dev nD) (t : Fin cfg1.N) :
    (dat1 (F := Ideal) V c).flushed 6 t = ((cfg1.win 6).blk t).view.read (Elt Ideal)
      (Cert.Spec.mlp (V c main_arg0) (V c main_v8) (V c main_arg6) (V c main_arg7) (V c main_arg8) (V c main_arg9)) := by
  show (cfg1.win 6).cut (grid1.coords t) ((dat1 V c).after 6 t) = _
  rw [after1_6]
  unfold out1_6
  rw [View.canon_unit_zero zero_off2]
  simp only [View.ld_unit_zero (S := S4000x32) zero_off2, View.ld_unit_zero (S := S32x128) zero_off2,
    View.ld_unit_zero (S := S128x128) zero_off2, View.ld_unit_zero (S := S128) zero_off1]
  rw [node_payload, Wa_block, ba_block, Wb_block, bb_block]
  obtain ⟨-, -, -, -, -, -, -, -, -, -, e0, e1⟩ := node_index_facts t
  funext j
  obtain ⟨p, q, rfl⟩ : ∃ (p : Fin 4000) (q : Fin 128), j = ix2 p q := ⟨j 0, j 1, eq_ix2 j⟩
  have ht : t.val < 25 := t.isLt
  have hp : p.val < 4000 := p.isLt
  have hr : t.val * 4000 + p.val < 100000 := by omega
  refine (mlp_row_congr (iblk1 (F := Ideal) V c 0 t) (iblk1 (F := Ideal) V c 1 t) (V c main_arg0) (V c main_v8)
    (V c main_arg6) (V c main_arg7) (V c main_arg8) (V c main_arg9) p ⟨t.val * 4000 + p.val, hr⟩
    (fun k => x_block_apply V c t p k _ rfl) (fun k => agg_block_apply V c t p k _ rfl) q).trans ?_
  rw [View.read_apply]
  congr 1
  funext a
  apply Fin.ext
  match a with
  | ⟨0, _⟩ => show t.val * 4000 + p.val = win1_6.index t (0 : Fin 2) * 4000 + 1 * p.val; rw [e0]; omega
  | ⟨1, _⟩ => show q.val = win1_6.index t (1 : Fin 2) * 128 + 1 * q.val; rw [e1]; omega

/-- An index of the output array is in point `t`'s block iff each coordinate is in the block's range on its axis. -/
theorem mem_node_block (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v9).slice (win1_6.rect t)).set ↔ _
  rw [View.set_slice_whole, Rect.mem_set_unit]
  exact Iff.rfl

/-- Every row of the output lies in the block of the point `row / 4000`. -/
theorem node_blocks_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 4000 < 25 := by omega
  refine ⟨⟨(i 0).val / 4000, ht⟩, flush1_6 _, ?_⟩
  obtain ⟨-, -, -, -, -, -, -, -, -, -, e0, e1⟩ := node_index_facts ⟨(i 0).val / 4000, ht⟩
  rw [mem_node_block]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [e1]; omega

/-- THE ARRAY after the region: the node update of the arrays the region finds. -/
theorem final1 (c : Dev nD) :
    (dat1 (F := Ideal) V c).arrAt 6 cfg1.N
      = Cert.Spec.mlp (V c main_arg0) (V c main_v8) (V c main_arg6) (V c main_arg7) (V c main_arg8) (V c main_arg9) :=
  (dat1 (F := Ideal) V c).arrAt_eq_of_cover 6 _ (fun t _ => node_block_written V c t) node_blocks_cover

end Cert.KernelIdeal.KVal
end
-- ==== Proof.KMlpB.lean ====
/-
  The value of the second node-update region: the same body as the first at 128 input channels, on the first
  update's result and the second layer's aggregated messages.  The body on one block of 4000 rows is `mlp` of the
  block's rows and the whole weights (`node_payload_hid`; the dense layer, the exponential linear unit and the row
  dependence of `mlp` are the first region's lemmas); the row-block windows at point t hold rows
  4000 t … 4000 t + 3999 and the weight and bias windows hold whole arrays, so point t writes back block t of `mlp` of
  the whole arrays (`node_block_written_hid`); the 25 blocks cover the 100000 rows (`node_blocks_cover_hid`), so the
  array ends holding `mlp` of the whole arrays (`final3`).
-/
import proofs.«406645_j19301583028827_1_alg».proof.Proof.Gen.KernelIdeal.Frame
import proofs.«406645_j19301583028827_1_alg».proof.Proof.Spec
import proofs.«406645_j19301583028827_1_alg».proof.Proof.KMlpA
import Idealize.ShloMosaic.Lib.Pipeline.Value
import Idealize.ShloMosaic.Lib.ValueIdx
import Idealize.ShloMosaic.Lib.ValueLayout
set_option maxRecDepth 16384
noncomputable section
namespace Cert.KernelIdeal.KVal
open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The hidden-width body's value on one block of rows: the node update of the block's rows, at 128 channels in. -/
theorem node_payload_hid (h agg : Vec Ideal S4000x128 .f32) (Wa : Vec Ideal S128x128 .f32) (ba : Vec Ideal S128 .f32)
    (Wb : Vec Ideal S128x128 .f32) (bb : Vec Ideal S128 .f32) :
    k3_pay1 (F := Ideal) h agg Wa ba Wb bb = Cert.Spec.mlp (M := 4000) (K := 128) (N := 128) h agg Wa ba Wb bb := by
  unfold k3_pay1
  dsimp only []
  rw [shapeCast_self, shapeCast_self, dense_out_eq, elu_form_eq, dense_out_eq, elu_form_eq]
  rfl

/-- The printed index maps of the second node update, decided over the 25 grid points: the two row-block inputs
    and the output sit at block `t` of the rows, the weights and biases at block 0. -/
theorem node_index_facts_hid : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- The hidden-row window's block at point `t` is rows `4000 t … 4000 t + 3999` of the first update's result. -/
theorem h_block_apply (c : Dev nD) (t : Fin cfg3.N) (p : Fin 4000) (k : Fin 128) (r : Fin 100000)
    (hr : r.val = t.val * 4000 + p.val) :
    (iblk3 (F := Ideal) V c 0 t : Vec Ideal S4000x128 .f32) (ix2 p k) = (V c main_v9 : S100000x128.Idx → Ideal .f32) (ix2 r k) := by
  obtain ⟨e0, e1, -⟩ := node_index_facts_hid t
  unfold iblk3
  rw [View.read_apply]
  show V c main_v9 _ = V c main_v9 _
  congr 1
  funext a
  apply Fin.ext
  match a with
  | ⟨0, _⟩ => show win3_0.index t (0 : Fin 2) * 4000 + 1 * p.val = r.val; rw [e0, hr]; omega
  | ⟨1, _⟩ => show win3_0.index t (1 : Fin 2) * 128 + 1 * k.val = k.val; rw [e1]; omega

/-- The second aggregated-message window's block at point `t` is the same rows of the aggregated messages. -/
theorem agg_block_apply_hid (c : Dev nD) (t : Fin cfg3.N) (p : Fin 4000) (k : Fin 128) (r : Fin 100000)
    (hr : r.val = t.val * 4000 + p.val) :
    (iblk3 (F := Ideal) V c 1 t : Vec Ideal S4000x128 .f32) (ix2 p k) = (V c main_v14 : S100000x128.Idx → Ideal .f32) (ix2 r k) := by
  obtain ⟨-, -, e0, e1, -⟩ := node_index_facts_hid t
  unfold iblk3
  rw [View.read_apply]
  show V c main_v14 _ = V c main_v14 _
  congr 1
  funext a
  apply Fin.ext
  match a with
  | ⟨0, _⟩ => show win3_1.index t (0 : Fin 2) * 4000 + 1 * p.val = r.val; rw [e0, hr]; omega
  | ⟨1, _⟩ => show win3_1.index t (1 : Fin 2) * 128 + 1 * k.val = k.val; rw [e1]; omega

/-- The first layer's weight window holds the whole weight matrix at every point. -/
theorem Wa_block_hid (c : Dev nD) (t : Fin cfg3.N) :
    (iblk3 (F := Ideal) V c 2 t : Vec Ideal S128x128 .f32) = (V c main_arg12 : S128x128.Idx → Ideal .f32) := by
  obtain ⟨-, -, -, -, e0, e1, -⟩ := node_index_facts_hid t
  funext j
  unfold iblk3
  rw [View.read_apply]
  show V c main_arg12 _ = V c main_arg12 _
  congr 1
  funext a
  apply Fin.ext
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega

/-- The first layer's bias window holds the whole bias at every point. -/
theorem ba_block_hid (c : Dev nD) (t : Fin cfg3.N) :
    (iblk3 (F := Ideal) V c 3 t : Vec Ideal S128 .f32) = (V c main_arg13 : S128.Idx → Ideal .f32) := by
  obtain ⟨-, -, -, -, -, -, e0, -⟩ := node_index_facts_hid t
  funext j
  unfold iblk3
  rw [View.read_apply]
  show V c main_arg13 _ = V c main_arg13 _
  congr 1
  funext a
  apply Fin.ext
  match a with
  | ⟨0, _⟩ => show win3_3.index t (0 : Fin 1) * 128 + 1 * (j 0).val = (j 0).val; rw [e0]; omega

/-- The second layer's weight window holds the whole weight matrix at every point. -/
theorem Wb_block_hid (c : Dev nD) (t : Fin cfg3.N) :
    (iblk3 (F := Ideal) V c 4 t : Vec Ideal S128x128 .f32) = (V c main_arg14 : S128x128.Idx → Ideal .f32) := by
  obtain ⟨-, -, -, -, -, -, -, e0, e1, -⟩ := node_index_facts_hid t
  funext j
  unfold iblk3
  rw [View.read_apply]
  show V c main_arg14 _ = V c main_arg14 _
  congr 1
  funext a
  apply Fin.ext
  match a with
  | ⟨0, _⟩ => show win3_4.index t (0 : Fin 2) * 128 + 1 * (j 0).val = (j 0).val; rw [e0]; omega
  | ⟨1, _⟩ => show win3_4.index t (1 : Fin 2) * 128 + 1 * (j 1).val = (j 1).val; rw [e1]; omega

/-- The second layer's bias window holds the whole bias at every point. -/
theorem bb_block_hid (c : Dev nD) (t : Fin cfg3.N) :
    (iblk3 (F := Ideal) V c 5 t : Vec Ideal S128 .f32) = (V c main_arg15 : S128.Idx → Ideal .f32) := by
  obtain ⟨-, -, -, -, -, -, -, -, -, e0, -⟩ := node_index_facts_hid t
  funext j
  unfold iblk3
  rw [View.read_apply]
  show V c main_arg15 _ = V c main_arg15 _
  congr 1
  funext a
  apply Fin.ext
  match a with
  | ⟨0, _⟩ => show win3_5.index t (0 : Fin 1) * 128 + 1 * (j 0).val = (j 0).val; rw [e0]; omega

/-- WHAT POINT `t` WRITES BACK is block `t` of the node update of the whole arrays as the region finds them. -/
theorem node_block_written_hid (c : Dev nD) (t : Fin cfg3.N) :
    (dat3 (F := Ideal) V c).flushed 6 t = ((cfg3.win 6).blk t).view.read (Elt Ideal)
      (Cert.Spec.mlp (V c main_v9) (V c main_v14) (V c main_arg12) (V c main_arg13) (V c main_arg14) (V c main_arg15)) := by
  show (cfg3.win 6).cut (grid3.coords t) ((dat3 V c).after 6 t) = _
  rw [after3_6]
  unfold out3_6
  rw [View.canon_unit_zero zero_off2]
  simp only [View.ld_unit_zero (S := S4000x128) zero_off2, View.ld_unit_zero (S := S128x128) zero_off2,
    View.ld_unit_zero (S := S128) zero_off1]
  rw [node_payload_hid, Wa_block_hid, ba_block_hid, Wb_block_hid, bb_block_hid]
  obtain ⟨-, -, -, -, -, -, -, -, -, -, e0, e1⟩ := node_index_facts_hid t
  funext j
  obtain ⟨p, q, rfl⟩ : ∃ (p : Fin 4000) (q : Fin 128), j = ix2 p q := ⟨j 0, j 1, eq_ix2 j⟩
  have ht : t.val < 25 := t.isLt
  have hp : p.val < 4000 := p.isLt
  have hr : t.val * 4000 + p.val < 100000 := by omega
  refine (mlp_row_congr (iblk3 (F := Ideal) V c 0 t) (iblk3 (F := Ideal) V c 1 t) (V c main_v9) (V c main_v14)
    (V c main_arg12) (V c main_arg13) (V c main_arg14) (V c main_arg15) p ⟨t.val * 4000 + p.val, hr⟩
    (fun k => h_block_apply V c t p k _ rfl) (fun k => agg_block_apply_hid V c t p k _ rfl) q).trans ?_
  rw [View.read_apply]
  congr 1
  funext a
  apply Fin.ext
  match a with
  | ⟨0, _⟩ => show t.val * 4000 + p.val = win3_6.index t (0 : Fin 2) * 4000 + 1 * p.val; rw [e0]; omega
  | ⟨1, _⟩ => show q.val = win3_6.index t (1 : Fin 2) * 128 + 1 * q.val; rw [e1]; omega

/-- An index of the second update's output array is in point `t`'s block iff each coordinate is in the block's
    range on its axis. -/
theorem mem_node_block_hid (t : Fin cfg3.N) (i : S100000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v15).slice (win3_6.rect t)).set ↔ _
  rw [View.set_slice_whole, Rect.mem_set_unit]
  exact Iff.rfl

/-- Every row of the second update's output lies in the block of the point `row / 4000`. -/
theorem node_blocks_cover_hid (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 4000 < 25 := by omega
  refine ⟨⟨(i 0).val / 4000, ht⟩, flush3_6 _, ?_⟩
  obtain ⟨-, -, -, -, -, -, -, -, -, -, e0, e1⟩ := node_index_facts_hid ⟨(i 0).val / 4000, ht⟩
  rw [mem_node_block_hid]
  intro a
  match a with
  | ⟨0, _⟩ =>
    show win3_6.index ⟨(i 0).val / 4000, ht⟩ (0 : Fin 2) * 4000 ≤ (i 0).val
      ∧ (i 0).val < win3_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_6.index ⟨(i 0).val / 4000, ht⟩ (1 : Fin 2) * 128 ≤ (i 1).val
      ∧ (i 1).val < win3_6.index ⟨(i 0).val / 4000, ht⟩ (1 : Fin 2) * 128 + 128
    rw [e1]; omega

/-- THE ARRAY after the region: the node update of the arrays the region finds. -/
theorem final3 (c : Dev nD) :
    (dat3 (F := Ideal) V c).arrAt 6 cfg3.N
      = Cert.Spec.mlp (V c main_v9) (V c main_v14) (V c main_arg12) (V c main_arg13) (V c main_arg14) (V c main_arg15) :=
  (dat3 (F := Ideal) V c).arrAt_eq_of_cover 6 _ (fun t _ => node_block_written_hid V c t) node_blocks_cover_hid

end Cert.KernelIdeal.KVal
end
-- ==== Proof.KFin.lean ====
import proofs.«406645_j19301583028827_1_alg».proof.Proof.Gen.KernelIdeal.Frame
import proofs.«406645_j19301583028827_1_alg».proof.Proof.Spec
import Idealize.ShloMosaic.Lib.Pipeline.Value
import Idealize.ShloMosaic.Lib.ValueIdx
import Idealize.ShloMosaic.Lib.ValueLayout
set_option maxRecDepth 16384
noncomputable section
namespace Cert.KernelIdeal.KVal
open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The first printed contraction record of the readout is the plain product of a 2048×128 by a 128×128 matrix. -/
theorem fin_dot1_plain : dot_S2048x128_S128x128_S2048x128_1_0_0_1_n_n = DotDims.plain 2048 128 128 := rfl
/-- The second is the plain product of a 2048×128 by a 128×12 matrix. -/
theorem fin_dot2_plain : dot_S2048x128_S128x12_S2048x12_1_0_0_1_n_n = DotDims.plain 2048 128 12 := rfl

/-- A dense layer as the readout's body writes it: the plain product onto a zero accumulator plus the bias row
    cast to one row and broadcast over the rows, is `lin`. -/
theorem fin_dense_eq {M K N : Nat} (A : FVec Ideal ⟨2, ![M, K]⟩ .f32) (W : FVec Ideal ⟨2, ![K, N]⟩ .f32)
    (b : FVec Ideal ⟨1, ![N]⟩ .f32) (h1 : FTy.bf16.bits < FTy.f32.bits)
    (hc : (⟨1, ![N]⟩ : Shape).ShapeCasts ⟨2, ![1, N]⟩) (hb : (⟨2, ![1, N]⟩ : Shape).Broadcasts ⟨2, ![M, N]⟩) :
    addf (matmul (DotDims.plain M K N) none (truncf .bf16 A h1) (truncf .bf16 W h1) (constant (F := Ideal) ⟨2, ![M, N]⟩ .f32 0x00000000#32))
        (broadcastTo ⟨2, ![M, N]⟩ (shapeCast ⟨2, ![1, N]⟩ b hc) hb)
      = Cert.Spec.lin A W b := by
  funext j
  obtain ⟨p, q, rfl⟩ : ∃ (p : Fin M) (q : Fin N), j = ix2 p q := ⟨j 0, j 1, eq_ix2 j⟩
  rw [addf_apply, broadcastTo_1b_ab_apply, shapeCast_a_1a_apply]
  have hm := Cert.Spec.matmul_plain_zero_apply none (truncf .bf16 A h1 : FVec Ideal ⟨2, ![M, K]⟩ .f32) (truncf .bf16 W h1 : FVec Ideal ⟨2, ![K, N]⟩ .f32) p q
  exact congrArg (· + b (ix1 q)) hm

/-- The maximum with the splat of the zero word is the rectifier. -/
theorem fin_max_zero_eq {M N : Nat} (X : FVec Ideal ⟨2, ![M, N]⟩ .f32) :
    maximumf X (broadcast ⟨2, ![M, N]⟩ (Scalar.ofBits (F := Ideal) .f32 0x00000000#32)) = Cert.Spec.relu X := by
  funext j
  rw [maximumf_apply, broadcast_apply]
  show max (X j) (Ideal.ofBits .f32 0x00000000#32) = max (X j) 0
  rw [Ideal.ofBits_zero_f32]

/-- The readout's payload is the readout of the specification: a dense layer, the rectifier, a dense layer. -/
theorem fin_pay_eq (v0 : Vec Ideal S2048x128 .f32) (v3 : Vec Ideal S128x128 .f32) (v6 : Vec Ideal S128 .f32)
    (v13 : Vec Ideal S128x12 .f32) (v16 : Vec Ideal S12 .f32) :
    k4_pay1 (F := Ideal) v0 v3 v6 v13 v16 = Cert.Spec.fin (M := 2048) (K := 128) (N := 12) v0 v3 v6 v13 v16 := by
  unfold k4_pay1
  dsimp only
  rw [shapeCast_self, fin_dot1_plain, fin_dot2_plain, fin_dense_eq, fin_max_zero_eq, fin_dense_eq]
  rfl

variable (V : (c : Dev nD) → (b : Ref sig .tc) → Buf (Elt Ideal) ((c : Thread nD τ).loc b))

theorem fin_hz2 : (![0, 0] : Fin 2 → Nat) = fun _ => 0 := funext fun a => by fin_cases a <;> rfl
theorem fin_hz1 : (![0] : Fin 1 → Nat) = fun _ => 0 := funext fun a => by fin_cases a; rfl

/-- The one grid point's block of the pooled rows is the whole array. -/
theorem fin_blk0 (c : Dev nD) (t : Fin cfg4.N) : (iblk4 (F := Ideal) V c 0 t : S2048x128.Idx → EReal) = V c main_v18 := by
  funext y
  show V c main_v18 (((cfg4.win 0).blk t).view.emb y) = V c main_v18 y
  congr 1
  funext a; apply Fin.ext
  match a with
  | ⟨0, _⟩ => show win4_0.index t (0 : Fin 2) * 2048 + 1 * (y 0).val = (y 0).val; rw [show win4_0.index t (0 : Fin 2) = 0 from rfl]; omega
  | ⟨1, _⟩ => show win4_0.index t (1 : Fin 2) * 128 + 1 * (y 1).val = (y 1).val; rw [show win4_0.index t (1 : Fin 2) = 0 from rfl]; omega

/-- Its block of the first weight matrix is the whole matrix. -/
theorem fin_blk1 (c : Dev nD) (t : Fin cfg4.N) : (iblk4 (F := Ideal) V c 1 t : S128x128.Idx → EReal) = V c main_arg16 := by
  funext y
  show V c main_arg16 (((cfg4.win 1).blk t).view.emb y) = V c main_arg16 y
  congr 1
  funext a; apply Fin.ext
  match a with
  | ⟨0, _⟩ => show win4_1.index t (0 : Fin 2) * 128 + 1 * (y 0).val = (y 0).val; rw [show win4_1.index t (0 : Fin 2) = 0 from rfl]; omega
  | ⟨1, _⟩ => show win4_1.index t (1 : Fin 2) * 128 + 1 * (y 1).val = (y 1).val; rw [show win4_1.index t (1 : Fin 2) = 0 from rfl]; omega

/-- Its block of the first bias is the whole row. -/
theorem fin_blk2 (c : Dev nD) (t : Fin cfg4.N) : (iblk4 (F := Ideal) V c 2 t : S128.Idx → EReal) = V c main_arg17 := by
  funext y
  show V c main_arg17 (((cfg4.win 2).blk t).view.emb y) = V c main_arg17 y
  congr 1
  funext a; apply Fin.ext
  match a with
  | ⟨0, _⟩ => show win4_2.index t (0 : Fin 1) * 128 + 1 * (y 0).val = (y 0).val; rw [show win4_2.index t (0 : Fin 1) = 0 from rfl]; omega

/-- Its block of the second weight matrix is the whole matrix. -/
theorem fin_blk3 (c : Dev nD) (t : Fin cfg4.N) : (iblk4 (F := Ideal) V c 3 t : S128x12.Idx → EReal) = V c main_arg18 := by
  funext y
  show V c main_arg18 (((cfg4.win 3).blk t).view.emb y) = V c main_arg18 y
  congr 1
  funext a; apply Fin.ext
  match a with
  | ⟨0, _⟩ => show win4_3.index t (0 : Fin 2) * 128 + 1 * (y 0).val = (y 0).val; rw [show win4_3.index t (0 : Fin 2) = 0 from rfl]; omega
  | ⟨1, _⟩ => show win4_3.index t (1 : Fin 2) * 12 + 1 * (y 1).val = (y 1).val; rw [show win4_3.index t (1 : Fin 2) = 0 from rfl]; omega

/-- Its block of the second bias is the whole row. -/
theorem fin_blk4 (c : Dev nD) (t : Fin cfg4.N) : (iblk4 (F := Ideal) V c 4 t : S12.Idx → EReal) = V c main_arg19 := by
  funext y
  show V c main_arg19 (((cfg4.win 4).blk t).view.emb y) = V c main_arg19 y
  congr 1
  funext a; apply Fin.ext
  match a with
  | ⟨0, _⟩ => show win4_4.index t (0 : Fin 1) * 12 + 1 * (y 0).val = (y 0).val; rw [show win4_4.index t (0 : Fin 1) = 0 from rfl]; omega

/-- The output's block at the one grid point sits at the array's origin: an index of the block is the same index of the array. -/
theorem fin_out_emb (t : Fin cfg4.N) (j : S2048x12.Idx) : ((cfg4.win 5).blk t).view.emb j = j := by
  funext a; apply Fin.ext
  match a with
  | ⟨0, _⟩ => show win4_5.index t (0 : Fin 2) * 2048 + 1 * (j 0).val = (j 0).val; rw [show win4_5.index t (0 : Fin 2) = 0 from rfl]; omega
  | ⟨1, _⟩ => show win4_5.index t (1 : Fin 2) * 12 + 1 * (j 1).val = (j 1).val; rw [show win4_5.index t (1 : Fin 2) = 0 from rfl]; omega

/-- What the one grid point writes back is the readout of the arrays as the region finds them, read through its block. -/
theorem fin_flushed_eq (c : Dev nD) (t : Fin cfg4.N) :
    (dat4 (F := Ideal) V c).flushed 5 t = ((cfg4.win 5).blk t).view.read (Elt Ideal)
      (Cert.Spec.fin (V c main_v18) (V c main_arg16) (V c main_arg17) (V c main_arg18) (V c main_arg19)) := by
  show (cfg4.win 5).cut (grid4.coords t) ((dat4 V c).after 5 t) = _
  rw [after4_5]
  unfold out4_5
  rw [View.canon_unit_zero fin_hz2]
  simp only [View.ld_unit_zero (S := S2048x128) fin_hz2, View.ld_unit_zero (S := S128x128) fin_hz2, View.ld_unit_zero (S := S128x12) fin_hz2,
    View.ld_unit_zero (S := S128) fin_hz1, View.ld_unit_zero (S := S12) fin_hz1]
  rw [fin_pay_eq]
  funext j
  show Cert.Spec.fin (M := 2048) (K := 128) (N := 12) (iblk4 V c 0 t) (iblk4 V c 1 t) (iblk4 V c 2 t) (iblk4 V c 3 t) (iblk4 V c 4 t) j
    = Cert.Spec.fin (M := 2048) (K := 128) (N := 12) (V c main_v18) (V c main_arg16) (V c main_arg17) (V c main_arg18) (V c main_arg19) (((cfg4.win 5).blk t).view.emb j)
  rw [fin_blk0 V c t, fin_blk1 V c t, fin_blk2 V c t, fin_blk3 V c t, fin_blk4 V c t, fin_out_emb t j]

/-- An index of the output array is in the grid point's block iff each coordinate is in the block's range on its axis. -/
theorem fin_mem_blk (t : Fin cfg4.N) (i : S2048x12.Idx) :
    i ∈ ((cfg4.win 5).blk t).view.set ↔ ∀ a : Fin 2, win4_5.index t a * S2048x12.size a ≤ (i a).val ∧ (i a).val < win4_5.index t a * S2048x12.size a + S2048x12.size a := by
  show i ∈ ((View.whole main_v19).slice (win4_5.rect t)).set ↔ _
  rw [View.set_slice_whole, Rect.mem_set_unit]
  exact Iff.rfl

/-- The one block is the whole output array: every index is covered by the one grid point. -/
theorem fin_cover (i : S2048x12.Idx) :
    ∃ t : Fin cfg4.N, (cfg4.win 5).flush t = true ∧ i ∈ ((cfg4.win 5).blk t).view.set := by
  refine ⟨t4_0, flush4_5 t4_0, ?_⟩
  rw [fin_mem_blk]
  intro a
  have h0 : (i 0).val < 2048 := (i 0).isLt
  have h1 : (i 1).val < 12 := (i 1).isLt
  match a with
  | ⟨0, _⟩ => show win4_5.index t4_0 (0 : Fin 2) * 2048 ≤ (i 0).val ∧ (i 0).val < win4_5.index t4_0 (0 : Fin 2) * 2048 + 2048; rw [show win4_5.index t4_0 (0 : Fin 2) = 0 from rfl]; omega
  | ⟨1, _⟩ => show win4_5.index t4_0 (1 : Fin 2) * 12 ≤ (i 1).val ∧ (i 1).val < win4_5.index t4_0 (1 : Fin 2) * 12 + 12; rw [show win4_5.index t4_0 (1 : Fin 2) = 0 from rfl]; omega

/-- The readout region leaves in its output array the readout of the arrays it found: a dense layer, the rectifier, a dense layer
    of the pooled rows. -/
theorem final4 (c : Dev nD) :
    (dat4 (F := Ideal) V c).arrAt 5 cfg4.N
      = Cert.Spec.fin (V c main_v18) (V c main_arg16) (V c main_arg17) (V c main_arg18) (V c main_arg19) :=
  (dat4 (F := Ideal) V c).arrAt_eq_of_cover 5 _ (fun t _ => fin_flushed_eq V c t) (fun i => fin_cover i)

end Cert.KernelIdeal.KVal
end
-- ==== Proof.KerOps.lean ====
/-
  The host-side steps of the idealized kernel program between its five kernel regions, each as ONE function of
  arrays: the source and target rows of the edge list, the index normalisation (a negative index counts from the
  end), the masked row gather `take` (rows whose normalised index falls outside the table are filled with the
  not-a-number pattern), the three segment sums as accumulating scatters into zeros, and `kerOut`, the whole
  network as the program computes it: two rounds of "gather the source rows, form the edge messages, sum them at
  the target nodes, update the nodes", then the per-graph sum and the readout.
-/
import proofs.«406645_j19301583028827_1_alg».proof.KernelIdeal
import proofs.«406645_j19301583028827_1_alg».proof.Proof.Gen.KernelIdeal
import proofs.«406645_j19301583028827_1_alg».proof.Proof.Spec

noncomputable section

namespace Cert.KernelIdeal.KVal

open Idealize.ShloMosaic Cert.KernelIdeal Cert.KernelIdeal.Facts₀

/-- Row 0 of the edge list: the source node of every edge. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def dstRow (ei : IVec S2x1600000 32) : IVec S1600000 32 :=
  shapeCast S1600000 (extractStridedSlice S1x1600000 ![1, 0] ei slices_S2x1600000_S1x1600000_1_0) shapeCasts_S1x1600000_S1600000

/-- A vector of indices as a one-column index table. -/
def idxCol (s : IVec S1600000 32) : IVec S1600000x1 32 :=
  broadcastInDim S1600000x1 ![0] bcast_S1600000_S1600000x1_0 s

/-- The normalised indices: `s + 100000` where `s < 0`, else `s`; as a one-column index table. -/
def normIdx (s : IVec S1600000 32) : IVec S1600000x1 32 :=
  idxCol (select (cmpi .slt s (broadcastInDim S1600000 ![] bcast_S_S1600000 (constantI S_ 32 0#32)))
    (addi s (broadcastInDim S1600000 ![] bcast_S_S1600000 (constantI S_ 32 100000#32))) s)

/-- Per edge: does the (normalised) index address a row of the 100000-row table? -/
def inRange (i : IVec S1600000x1 32) : IVec S1600000 1 :=
  Host.reduce IntOp.andi
    (andi (cmpi .sge i (broadcastInDim S1600000x1 ![] bcast_S_S1600000x1 (constantI S_ 32 0#32)))
      (cmpi .sle i (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The masked gather of 32-wide rows. -/
def take32 (x : FVec Ideal S100000x32 .f32) (s : IVec S1600000 32) : FVec Ideal S1600000x32 .f32 :=
  select (broadcastInDim S1600000x32 ![0] bcast_S1600000_S1600000x32_0 (inRange (normIdx s)))
    (Host.gather gather_S100000x32_S1600000x1_S1600000x32_1_0_n_n_0_1_132 x (normIdx s))
    (broadcastInDim S1600000x32 ![] bcast_S_S1600000x32 (constant S_ .f32 0x7FC00000#32))

/-- The masked gather of 128-wide rows. -/
def take128 (x : FVec Ideal S100000x128 .f32) (s : IVec S1600000 32) : FVec Ideal S1600000x128 .f32 :=
  select (broadcastInDim S1600000x128 ![0] bcast_S1600000_S1600000x128_0 (inRange (normIdx s)))
    (Host.gather gather_S100000x128_S1600000x1_S1600000x128_1_0_n_n_0_1_1128 x (normIdx s))
    (broadcastInDim S1600000x128 ![] bcast_S_S1600000x128 (constant S_ .f32 0x7FC00000#32))

/-- The sum of 32-wide edge rows at their target nodes. -/
def scat32 (d : IVec S1600000 32) (u : FVec Ideal S1600000x32 .f32) : FVec Ideal S100000x32 .f32 :=
  Host.scatterAdd scatter_S100000x32_S1600000x1_S1600000x32_1_0_0_1
    (broadcastInDim S100000x32 ![] bcast_S_S100000x32 (constant S_ .f32 0x00000000#32)) (idxCol d) u

/-- The sum of 128-wide edge rows at their target nodes. -/
def scat128 (d : IVec S1600000 32) (u : FVec Ideal S1600000x128 .f32) : FVec Ideal S100000x128 .f32 :=
  Host.scatterAdd scatter_S100000x128_S1600000x1_S1600000x128_1_0_0_1
    (broadcastInDim S100000x128 ![] bcast_S_S100000x128 (constant S_ .f32 0x00000000#32)) (idxCol d) u

/-- The sum of the node rows of each graph. -/
def pool (b : IVec S100000 32) (u : FVec Ideal S100000x128 .f32) : FVec Ideal S2048x128 .f32 :=
  Host.scatterAdd scatter_S2048x128_S100000x1_S100000x128_1_0_0_1
    (broadcastInDim S2048x128 ![] bcast_S_S2048x128 (constant S_ .f32 0x00000000#32))
    (broadcastInDim S100000x1 ![0] bcast_S100000_S100000x1_0 b) u

/-- The node rows after the first round: gather the source rows, form the edge messages, sum them at the target
    nodes, update the nodes. -/
def layer1 (x : FVec Ideal S100000x32 .f32) (ei : IVec S2x1600000 32) (ea : FVec Ideal S1600000x8 .f32)
    (We1 : FVec Ideal S8x32 .f32) (be1 : FVec Ideal S32 .f32) (W1a : FVec Ideal S32x128 .f32) (b1a : FVec Ideal S128 .f32)
    (W1b : FVec Ideal S128x128 .f32) (b1b : FVec Ideal S128 .f32) : FVec Ideal S100000x128 .f32 :=
  Cert.Spec.mlp x (scat32 (dstRow ei) (Cert.Spec.msg (take32 x (srcRow ei)) ea We1 be1)) W1a b1a W1b b1b

/-- The network as the kernel program computes it, from its twenty argument arrays. -/
def kerOut (x : FVec Ideal S100000x32 .f32) (ei : IVec S2x1600000 32) (ea : FVec Ideal S1600000x8 .f32) (batch : IVec S100000 32)
    (We1 : FVec Ideal S8x32 .f32) (be1 : FVec Ideal S32 .f32) (W1a : FVec Ideal S32x128 .f32) (b1a : FVec Ideal S128 .f32)
    (W1b : FVec Ideal S128x128 .f32) (b1b : FVec Ideal S128 .f32) (We2 : FVec Ideal S8x128 .f32) (be2 : FVec Ideal S128 .f32)
    (W2a : FVec Ideal S128x128 .f32) (b2a : FVec Ideal S128 .f32) (W2b : FVec Ideal S128x128 .f32) (b2b : FVec Ideal S128 .f32)
    (Wl1 : FVec Ideal S128x128 .f32) (bl1 : FVec Ideal S128 .f32) (Wl2 : FVec Ideal S128x12 .f32) (bl2 : FVec Ideal S12 .f32) :
    FVec Ideal S2048x12 .f32 :=
  let h1 : FVec Ideal S100000x128 .f32 := layer1 x ei ea We1 be1 W1a b1a W1b b1b
  let h2 : FVec Ideal S100000x128 .f32 :=
    Cert.Spec.mlp h1 (scat128 (dstRow ei) (Cert.Spec.msg (take128 h1 (srcRow ei)) ea We2 be2)) W2a b2a W2b b2b
  Cert.Spec.fin (pool batch h2) Wl1 bl1 Wl2 bl2

end Cert.KernelIdeal.KVal

end
-- ==== Proof.KerInv.lean ====
/-
  What the second half of the kernel program's run needs to know of the buffers when the first node update
  (region 1) has ended: the node rows `layer1` of the arguments in the region's output buffer, the source and
  target rows of the edge list still in theirs, and the argument arrays the rest of the program reads as launched.
-/
import proofs.«406645_j19301583028827_1_alg».proof.Proof.Gen.KernelIdeal.Frame
import proofs.«406645_j19301583028827_1_alg».proof.Proof.KerOps

noncomputable section

namespace Cert.KernelIdeal.KVal

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The contents at the boundary after region 1 (the fold `W5` of the generated frame), buffer by buffer. -/
def AfterLayer1 (c : Dev nD) : Prop :=
  W5 (F := Ideal) m ρ c (Proc.devRef .tc main_v9)
      = layer1 (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
  ∧ W5 (F := Ideal) m ρ c (Proc.devRef .tc main_v1) = srcRow (m ((c : Thread nD τ).loc main_arg1))
  ∧ W5 (F := Ideal) m ρ c (Proc.devRef .tc main_v3) = dstRow (m ((c : Thread nD τ).loc main_arg1))
  ∧ W5 (F := Ideal) m ρ c (Proc.devRef .tc main_arg2) = m ((c : Thread nD τ).loc main_arg2)
  ∧ W5 (F := Ideal) m ρ c (Proc.devRef .tc main_arg3) = m ((c : Thread nD τ).loc main_arg3)
  ∧ W5 (F := Ideal) m ρ c (Proc.devRef .tc main_arg10) = m ((c : Thread nD τ).loc main_arg10)
  ∧ W5 (F := Ideal) m ρ c (Proc.devRef .tc main_arg11) = m ((c : Thread nD τ).loc main_arg11)
  ∧ W5 (F := Ideal) m ρ c (Proc.devRef .tc main_arg12) = m ((c : Thread nD τ).loc main_arg12)
  ∧ W5 (F := Ideal) m ρ c (Proc.devRef .tc main_arg13) = m ((c : Thread nD τ).loc main_arg13)
  ∧ W5 (F := Ideal) m ρ c (Proc.devRef .tc main_arg14) = m ((c : Thread nD τ).loc main_arg14)
  ∧ W5 (F := Ideal) m ρ c (Proc.devRef .tc main_arg15) = m ((c : Thread nD τ).loc main_arg15)
  ∧ W5 (F := Ideal) m ρ c (Proc.devRef .tc main_arg16) = m ((c : Thread nD τ).loc main_arg16)
  ∧ W5 (F := Ideal) m ρ c (Proc.devRef .tc main_arg17) = m ((c : Thread nD τ).loc main_arg17)
  ∧ W5 (F := Ideal) m ρ c (Proc.devRef .tc main_arg18) = m ((c : Thread nD τ).loc main_arg18)
  ∧ W5 (F := Ideal) m ρ c (Proc.devRef .tc main_arg19) = m ((c : Thread nD τ).loc main_arg19)

/-- The value of region K's output array for ANY entry contents `V`, as the region modules prove it. -/
abbrev Val0 : Prop := ∀ (V : (c : Dev nD) → (b : Ref sig .tc) → Buf (Elt Ideal) ((c : Thread nD τ).loc b)) (c : Dev nD),
  (dat0 (F := Ideal) V c).arrAt 4 cfg0.N = Cert.Spec.msg (V c main_v4) (V c main_arg2) (V c main_arg4) (V c main_arg5)
abbrev Val1 : Prop := ∀ (V : (c : Dev nD) → (b : Ref sig .tc) → Buf (Elt Ideal) ((c : Thread nD τ).loc b)) (c : Dev nD),
  (dat1 (F := Ideal) V c).arrAt 6 cfg1.N
    = Cert.Spec.mlp (V c main_arg0) (V c main_v8) (V c main_arg6) (V c main_arg7) (V c main_arg8) (V c main_arg9)
abbrev Val2 : Prop := ∀ (V : (c : Dev nD) → (b : Ref sig .tc) → Buf (Elt Ideal) ((c : Thread nD τ).loc b)) (c : Dev nD),
  (dat2 (F := Ideal) V c).arrAt 4 cfg2.N = Cert.Spec.msg (V c main_v10) (V c main_arg2) (V c main_arg10) (V c main_arg11)
abbrev Val3 : Prop := ∀ (V : (c : Dev nD) → (b : Ref sig .tc) → Buf (Elt Ideal) ((c : Thread nD τ).loc b)) (c : Dev nD),
  (dat3 (F := Ideal) V c).arrAt 6 cfg3.N
    = Cert.Spec.mlp (V c main_v9) (V c main_v14) (V c main_arg12) (V c main_arg13) (V c main_arg14) (V c main_arg15)
abbrev Val4 : Prop := ∀ (V : (c : Dev nD) → (b : Ref sig .tc) → Buf (Elt Ideal) ((c : Thread nD τ).loc b)) (c : Dev nD),
  (dat4 (F := Ideal) V c).arrAt 5 cfg4.N
    = Cert.Spec.fin (V c main_v18) (V c main_arg16) (V c main_arg17) (V c main_arg18) (V c main_arg19)

end Cert.KernelIdeal.KVal

end
-- ==== Proof.KerFoldA.lean ====
/-
  The first half of the kernel program's run, buffer by buffer: from the launch memory through the two rows of
  the edge list, the masked gather of the source rows, the first edge-message region, the sum of the messages at
  the target nodes and the first node update. Each host stretch is read once as a function of the contents it is
  entered with (what it writes, and the value of the one result the next region reads); each boundary then keeps
  a buffer that the stretch or the region before it does not write, and the fifteen facts about the contents
  after the first node update follow by carrying each buffer back to the launch.
-/
import proofs.«406645_j19301583028827_1_alg».proof.Proof.Gen.KernelIdeal.Frame
import proofs.«406645_j19301583028827_1_alg».proof.Proof.KerOps
import proofs.«406645_j19301583028827_1_alg».proof.Proof.KerInv
import Idealize.ShloMosaic.Lib.StableHlo.Run

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

attribute [local irreducible] Host.gather Host.scatterAdd Host.reduce

/-! ## What each host stretch writes -/

/-- The buffers the edge-list stretch writes: the two slices and the two rows. -/
abbrev wrRows : List (Ref sig .tc) := [main_v0, main_v1, main_v2, main_v3]

/-- The buffers the gather stretch writes: its twenty-two intermediate values and the gathered rows. -/
abbrev wrTake : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v4]

/-- The buffers the segment-sum stretch writes: the zero, the zero table, the index column and the sums. -/
abbrev wrScat : List (Ref sig .tc) := [main_cst, main_v6, main_v7, main_v8]

theorem hostOps0_wr : (hostOps0 : List (HloOp τ sig (Elt Ideal))).Forall fun op =>
    op.writes ⊆ (wrRows.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

theorem hostOps0_1_wr : (hostOps0_1 : List (HloOp τ sig (Elt Ideal))).Forall fun op =>
    op.writes ⊆ (wrTake.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

theorem hostOps1_wr : (hostOps1 : List (HloOp τ sig (Elt Ideal))).Forall fun op =>
    op.writes ⊆ (wrScat.map (Proc.devRef (τ := τ) .tc)).toFinset := by
  simp only [List.Forall, StableHlo.nullary_writes, StableHlo.unary_writes, StableHlo.ternary_writes,
    Finset.singleton_subset_iff, List.mem_toFinset]
  repeat' apply And.intro
  all_goals exact List.mem_map_of_mem (by decide)

/-! ## A buffer a boundary does not write is kept -/

variable (c : Dev nD)

theorem W1_keep (r : Ref sig .tc) (h : r ∉ wrRows) :
    W1 (F := Ideal) m ρ c (Proc.devRef .tc r) = m ((c : Thread nD τ).loc r) :=
  StableHlo.after_of_writes_sub hostOps0 _ hostOps0_wr h

theorem W2_keep (r : Ref sig .tc) (h : r ∉ wrTake) :
    W2 (F := Ideal) m ρ c (Proc.devRef .tc r) = W1 (F := Ideal) m ρ c (Proc.devRef .tc r) :=
  StableHlo.after_of_writes_sub hostOps0_1 _ hostOps0_1_wr h

theorem W4_keep (r : Ref sig .tc) (h : r ∉ wrScat) :
    W4 (F := Ideal) m ρ c (Proc.devRef .tc r) = W3 (F := Ideal) m ρ c (Proc.devRef .tc r) :=
  StableHlo.after_of_writes_sub hostOps1 _ hostOps1_wr h

/-! ## The value each host stretch leaves in the buffer the next region reads, as a function of the contents it is entered with -/

/-- The edge-list stretch leaves row 0 of the edge list in the source-row buffer. -/
theorem rows_src (V : Valuation τ sig (Elt Ideal)) :
    StableHlo.after hostOps0 V (Proc.devRef .tc main_v1) = srcRow (V (Proc.devRef .tc main_arg1)) := by
  after_results_simp
  rfl

/-- The edge-list stretch leaves row 1 of the edge list in the target-row buffer. -/
theorem rows_dst (V : Valuation τ sig (Elt Ideal)) :
    StableHlo.after hostOps0 V (Proc.devRef .tc main_v3) = dstRow (V (Proc.devRef .tc main_arg1)) := by
  after_results_simp
  rfl

/-- The segment-sum stretch leaves the sum of the edge messages at the target nodes. -/
theorem scat_val (V : Valuation τ sig (Elt Ideal)) :
    StableHlo.after hostOps1 V (Proc.devRef .tc main_v8)
      = scat32 (V (Proc.devRef .tc main_v3)) (V (Proc.devRef .tc main_v5)) := by
  after_results_simp
  rfl

/-! ### The gather stretch in three parts: the index table, the mask, the masked rows

Its twenty-three operations are read eight, ten and five at a time, each part as a function of the contents it is
entered with; the parts compose because the stretch is their concatenation. -/

/-- The first eight operations: they end in the normalised index table. -/
abbrev takeIdx : List (HloOp τ sig (Elt Ideal)) := (hostOps0_1 : List (HloOp τ sig (Elt Ideal))).take 8
/-- The next ten: they end in the per-edge mask. -/
abbrev takeMask : List (HloOp τ sig (Elt Ideal)) := ((hostOps0_1 : List (HloOp τ sig (Elt Ideal))).drop 8).take 10
/-- The last five: the gather and the masked choice. -/
abbrev takeSel : List (HloOp τ sig (Elt Ideal)) := (hostOps0_1 : List (HloOp τ sig (Elt Ideal))).drop 18

theorem hostOps0_1_parts : (hostOps0_1 : List (HloOp τ sig (Elt Ideal))) = takeIdx ++ (takeMask ++ takeSel) := rfl

/-- The masked rows from the mask, the table and the index table. -/
def maskRows32 (ok : IVec S1600000 1) (x : FVec Ideal S100000x32 .f32) (i : IVec S1600000x1 32) :
    FVec Ideal S1600000x32 .f32 :=
  select (broadcastInDim S1600000x32 ![0] bcast_S1600000_S1600000x32_0 ok)
    (Host.gather gather_S100000x32_S1600000x1_S1600000x32_1_0_n_n_0_1_132 x i)
    (broadcastInDim S1600000x32 ![] bcast_S_S1600000x32 (constant S_ .f32 0x7FC00000#32))

theorem take32_eq (x : FVec Ideal S100000x32 .f32) (s : IVec S1600000 32) :
    take32 x s = maskRows32 (inRange (normIdx s)) x (normIdx s) := rfl

theorem takeIdx_v5 (V : Valuation τ sig (Elt Ideal)) :
    StableHlo.after takeIdx V (Proc.devRef .tc main_call0_v5) = normIdx (V (Proc.devRef .tc main_v1)) := by
  simp only [takeIdx, hostOps0_1, List.take_succ_cons, List.take_zero]
  after_results_simp
  rfl

theorem takeIdx_arg0 (V : Valuation τ sig (Elt Ideal)) :
    StableHlo.after takeIdx V (Proc.devRef .tc main_arg0) = V (Proc.devRef .tc main_arg0) := by
  simp only [takeIdx, hostOps0_1, List.take_succ_cons, List.take_zero]
  after_results_simp

theorem takeMask_v12 (V : Valuation τ sig (Elt Ideal)) :
    StableHlo.after takeMask V (Proc.devRef .tc main_call0_v12) = inRange (V (Proc.devRef .tc main_call0_v5)) := by
  simp only [takeMask, hostOps0_1, List.take_succ_cons, List.take_zero, List.drop_succ_cons, List.drop_zero]
  after_results_simp
  rfl

theorem takeMask_v5 (V : Valuation τ sig (Elt Ideal)) :
    StableHlo.after takeMask V (Proc.devRef .tc main_call0_v5) = V (Proc.devRef .tc main_call0_v5) := by
  simp only [takeMask, hostOps0_1, List.take_succ_cons, List.take_zero, List.drop_succ_cons, List.drop_zero]
  after_results_simp

theorem takeMask_arg0 (V : Valuation τ sig (Elt Ideal)) :
    StableHlo.after takeMask V (Proc.devRef .tc main_arg0) = V (Proc.devRef .tc main_arg0) := by
  simp only [takeMask, hostOps0_1, List.take_succ_cons, List.take_zero, List.drop_succ_cons, List.drop_zero]
  after_results_simp

theorem takeSel_v4 (V : Valuation τ sig (Elt Ideal)) :
    StableHlo.after takeSel V (Proc.devRef .tc main_v4)
      = maskRows32 (V (Proc.devRef .tc main_call0_v12)) (V (Proc.devRef .tc main_arg0)) (V (Proc.devRef .tc main_call0_v5)) := by
  simp only [takeSel, hostOps0_1, List.drop_succ_cons, List.drop_zero]
  after_results_simp
  rfl

/-- The gather stretch leaves the masked gather of the node rows at the source indices. -/
theorem take_val (V : Valuation τ sig (Elt Ideal)) :
    StableHlo.after hostOps0_1 V (Proc.devRef .tc main_v4)
      = take32 (V (Proc.devRef .tc main_arg0)) (V (Proc.devRef .tc main_v1)) := by
  rw [hostOps0_1_parts, StableHlo.after_append, StableHlo.after_append, takeSel_v4, takeMask_v12, takeMask_v5, takeMask_arg0,
    takeIdx_v5, takeIdx_arg0, take32_eq]

/-! ## The fold, boundary by boundary

A buffer that no stretch writes and that is no array of a region is carried back to the launch memory; the rows
of the edge list are carried back to the stretch that writes them; a region's output array holds the region's
value at the contents the region is entered with. -/

/-- At the first region's entry an argument no stretch has written is as launched. -/
theorem W2_arg (r : Ref sig .tc) (h0 : r ∉ wrRows) (h1 : r ∉ wrTake) :
    W2 (F := Ideal) m ρ c (Proc.devRef .tc r) = m ((c : Thread nD τ).loc r) :=
  (W2_keep m ρ c r h1).trans (W1_keep m ρ c r h0)

/-- At the first region's exit a buffer that is none of its arrays is as launched. -/
theorem W3_arg (r : Ref sig .tc) (h0 : r ∉ wrRows) (h1 : r ∉ wrTake) (h3 : ∀ w, Pipeline.arrRef spec0 w ≠ r) :
    W3 (F := Ideal) m ρ c (Proc.devRef .tc r) = m ((c : Thread nD τ).loc r) :=
  (W3_of_ne m ρ c r h3).trans (W2_arg m ρ c r h0 h1)

/-- The edge attributes are an input array of the first region: the region leaves them as it found them. -/
theorem W3_arg2 : W3 (F := Ideal) m ρ c (Proc.devRef .tc main_arg2) = m ((c : Thread nD τ).loc main_arg2) :=
  ((W3_arr m ρ c 1).trans (((dat0 (V2 m ρ) c).arrAt_in 1 rfl _).trans (A_eq0 (V2 m ρ) c 1))).trans
    (W2_arg m ρ c main_arg2 (by decide) (by decide))

/-- At the second region's entry. -/
theorem W4_arg (r : Ref sig .tc) (h0 : r ∉ wrRows) (h1 : r ∉ wrTake) (h3 : ∀ w, Pipeline.arrRef spec0 w ≠ r)
    (h4 : r ∉ wrScat) : W4 (F := Ideal) m ρ c (Proc.devRef .tc r) = m ((c : Thread nD τ).loc r) :=
  (W4_keep m ρ c r h4).trans (W3_arg m ρ c r h0 h1 h3)

/-- At the second region's exit. -/
theorem W5_arg (r : Ref sig .tc) (h0 : r ∉ wrRows) (h1 : r ∉ wrTake) (h3 : ∀ w, Pipeline.arrRef spec0 w ≠ r)
    (h4 : r ∉ wrScat) (h5 : ∀ w, Pipeline.arrRef spec1 w ≠ r) :
    W5 (F := Ideal) m ρ c (Proc.devRef .tc r) = m ((c : Thread nD τ).loc r) :=
  (W5_of_ne m ρ c r h5).trans (W4_arg m ρ c r h0 h1 h3 h4)

theorem W5_arg2 : W5 (F := Ideal) m ρ c (Proc.devRef .tc main_arg2) = m ((c : Thread nD τ).loc main_arg2) :=
  (W5_of_ne m ρ c main_arg2 (by decide)).trans ((W4_keep m ρ c main_arg2 (by decide)).trans (W3_arg2 m ρ c))

/-- A row of the edge list, once written, is kept to the first region's exit … -/
theorem W3_row (r : Ref sig .tc) (h1 : r ∉ wrTake) (h3 : ∀ w, Pipeline.arrRef spec0 w ≠ r) :
    W3 (F := Ideal) m ρ c (Proc.devRef .tc r) = W1 (F := Ideal) m ρ c (Proc.devRef .tc r) :=
  (W3_of_ne m ρ c r h3).trans (W2_keep m ρ c r h1)

/-- … and to the second region's exit. -/
theorem W5_row (r : Ref sig .tc) (h1 : r ∉ wrTake) (h3 : ∀ w, Pipeline.arrRef spec0 w ≠ r) (h4 : r ∉ wrScat)
    (h5 : ∀ w, Pipeline.arrRef spec1 w ≠ r) :
    W5 (F := Ideal) m ρ c (Proc.devRef .tc r) = W1 (F := Ideal) m ρ c (Proc.devRef .tc r) :=
  (W5_of_ne m ρ c r h5).trans ((W4_keep m ρ c r h4).trans (W3_row m ρ c r h1 h3))

theorem W1_v1 : W1 (F := Ideal) m ρ c (Proc.devRef .tc main_v1) = srcRow (m ((c : Thread nD τ).loc main_arg1)) :=
  rows_src (W0 m ρ c)

theorem W1_v3 : W1 (F := Ideal) m ρ c (Proc.devRef .tc main_v3) = dstRow (m ((c : Thread nD τ).loc main_arg1)) :=
  rows_dst (W0 m ρ c)

/-- The gathered source rows at the first region's entry. -/
theorem W2_v4 : W2 (F := Ideal) m ρ c (Proc.devRef .tc main_v4)
    = take32 (m ((c : Thread nD τ).loc main_arg0)) (srcRow (m ((c : Thread nD τ).loc main_arg1))) := by
  show StableHlo.after hostOps0_1 (W1 (F := Ideal) m ρ c) (Proc.devRef .tc main_v4) = _
  rw [take_val, W1_keep m ρ c main_arg0 (by decide), W1_v1]

/-- The edge messages of the first round at the first region's exit. -/
theorem W3_v5 (h0 : Val0) : W3 (F := Ideal) m ρ c (Proc.devRef .tc main_v5)
    = Cert.Spec.msg (take32 (m ((c : Thread nD τ).loc main_arg0)) (srcRow (m ((c : Thread nD τ).loc main_arg1))))
        (m ((c : Thread nD τ).loc main_arg2)) (m ((c : Thread nD τ).loc main_arg4)) (m ((c : Thread nD τ).loc main_arg5)) := by
  refine ((W3_arr m ρ c 4).trans (h0 (V2 m ρ) c)).trans ?_
  show Cert.Spec.msg (W2 (F := Ideal) m ρ c (Proc.devRef .tc main_v4)) (W2 (F := Ideal) m ρ c (Proc.devRef .tc main_arg2))
    (W2 (F := Ideal) m ρ c (Proc.devRef .tc main_arg4)) (W2 (F := Ideal) m ρ c (Proc.devRef .tc main_arg5)) = _
  rw [W2_v4, W2_arg m ρ c main_arg2 (by decide) (by decide), W2_arg m ρ c main_arg4 (by decide) (by decide),
    W2_arg m ρ c main_arg5 (by decide) (by decide)]

/-- The messages summed at the target nodes, at the second region's entry. -/
theorem W4_v8 (h0 : Val0) : W4 (F := Ideal) m ρ c (Proc.devRef .tc main_v8)
    = scat32 (dstRow (m ((c : Thread nD τ).loc main_arg1)))
        (Cert.Spec.msg (take32 (m ((c : Thread nD τ).loc main_arg0)) (srcRow (m ((c : Thread nD τ).loc main_arg1))))
          (m ((c : Thread nD τ).loc main_arg2)) (m ((c : Thread nD τ).loc main_arg4)) (m ((c : Thread nD τ).loc main_arg5))) := by
  show StableHlo.after hostOps1 (W3 (F := Ideal) m ρ c) (Proc.devRef .tc main_v8) = _
  rw [scat_val, W3_v5 m ρ c h0, W3_row m ρ c main_v3 (by decide) (by decide), W1_v3]

/-- The node rows after the first round, at the second region's exit. -/
theorem W5_v9 (h0 : Val0) (h1 : Val1) : W5 (F := Ideal) m ρ c (Proc.devRef .tc main_v9)
    = layer1 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine ((W5_arr m ρ c 6).trans (h1 (V4 m ρ) c)).trans ?_
  show Cert.Spec.mlp (W4 (F := Ideal) m ρ c (Proc.devRef .tc main_arg0)) (W4 (F := Ideal) m ρ c (Proc.devRef .tc main_v8))
    (W4 (F := Ideal) m ρ c (Proc.devRef .tc main_arg6)) (W4 (F := Ideal) m ρ c (Proc.devRef .tc main_arg7))
    (W4 (F := Ideal) m ρ c (Proc.devRef .tc main_arg8)) (W4 (F := Ideal) m ρ c (Proc.devRef .tc main_arg9)) = _
  rw [W4_v8 m ρ c h0, W4_arg m ρ c main_arg0 (by decide) (by decide) (by decide) (by decide),
    W4_arg m ρ c main_arg6 (by decide) (by decide) (by decide) (by decide),
    W4_arg m ρ c main_arg7 (by decide) (by decide) (by decide) (by decide),
    W4_arg m ρ c main_arg8 (by decide) (by decide) (by decide) (by decide),
    W4_arg m ρ c main_arg9 (by decide) (by decide) (by decide) (by decide)]
  rfl

/-- The contents after the first node update, buffer by buffer. -/
theorem afterLayer1 (h0 : Val0) (h1 : Val1) (c : Dev nD) : AfterLayer1 m ρ c :=
  ⟨W5_v9 m ρ c h0 h1,
   (W5_row m ρ c main_v1 (by decide) (by decide) (by decide) (by decide)).trans (W1_v1 m ρ c),
   (W5_row m ρ c main_v3 (by decide) (by decide) (by decide) (by decide)).trans (W1_v3 m ρ c),
   W5_arg2 m ρ c,
   W5_arg m ρ c main_arg3 (by decide) (by decide) (by decide) (by decide) (by decide),
   W5_arg m ρ c main_arg10 (by decide) (by decide) (by decide) (by decide) (by decide),
   W5_arg m ρ c main_arg11 (by decide) (by decide) (by decide) (by decide) (by decide),
   W5_arg m ρ c main_arg12 (by decide) (by decide) (by decide) (by decide) (by decide),
   W5_arg m ρ c main_arg13 (by decide) (by decide) (by decide) (by decide) (by decide),
   W5_arg m ρ c main_arg14 (by decide) (by decide) (by decide) (by decide) (by decide),
   W5_arg m ρ c main_arg15 (by decide) (by decide) (by decide) (by decide) (by decide),
   W5_arg m ρ c main_arg16 (by decide) (by decide) (by decide) (by decide) (by decide),
   W5_arg m ρ c main_arg17 (by decide) (by decide) (by decide) (by decide) (by decide),
   W5_arg m ρ c main_arg18 (by decide) (by decide) (by decide) (by decide) (by decide),
   W5_arg m ρ c main_arg19 (by decide) (by decide) (by decide) (by decide) (by decide)⟩

end Cert.KernelIdeal.KVal

end
-- ==== Proof.KerFoldB.lean ====
/-
  The second half of the kernel program's run, boundary by boundary: from the end of the first node update to the
  result.  Each host stretch is read once as a function of the contents it is entered with (which buffers it
  writes, and the value of the one result the next region reads).  A buffer that a stretch does not write, and
  that is no array of a region, holds after it what it held before; a region's output array holds the layer's
  value at the contents the region is entered with.  Chained from the facts about the contents after the first
  node update, the last region's output is `kerOut` of the launched arguments.
-/
import proofs.«406645_j19301583028827_1_alg».proof.Proof.Gen.KernelIdeal.Frame
import proofs.«406645_j19301583028827_1_alg».proof.Proof.KerOps
import proofs.«406645_j19301583028827_1_alg».proof.Proof.KerInv
import Idealize.ShloMosaic.Lib.StableHlo.Run

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

attribute [local irreducible] Host.gather Host.scatterAdd Host.reduce

/-! ## What each host stretch of the second half writes -/

/-- The buffers the second gather writes: its twenty-two intermediate values and the gathered rows. -/
abbrev wrTakeB : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v10]

/-- The buffers the second segment sum writes: the zero, the zero table, the index column, the sums. -/
abbrev wrScatB : List (Ref sig .tc) := [main_cst_0, main_v12, main_v13, main_v14]

/-- The buffers the per-graph sum writes: the zero, the zero table, the index column, the sums. -/
abbrev wrPool : List (Ref sig .tc) := [main_cst_1, main_v16, main_v17, main_v18]

theorem hostOps2_wr : (hostOps2 : List (HloOp τ sig (Elt Ideal))).Forall fun op =>
    op.writes ⊆ (wrTakeB.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

theorem hostOps3_wr : (hostOps3 : List (HloOp τ sig (Elt Ideal))).Forall fun op =>
    op.writes ⊆ (wrScatB.map (Proc.devRef (τ := τ) .tc)).toFinset := by
  simp only [List.Forall, StableHlo.nullary_writes, StableHlo.unary_writes, StableHlo.ternary_writes,
    Finset.singleton_subset_iff, List.mem_toFinset]
  repeat' apply And.intro
  all_goals exact List.mem_map_of_mem (by decide)

theorem hostOps4_wr : (hostOps4 : List (HloOp τ sig (Elt Ideal))).Forall fun op =>
    op.writes ⊆ (wrPool.map (Proc.devRef (τ := τ) .tc)).toFinset := by
  simp only [List.Forall, StableHlo.nullary_writes, StableHlo.unary_writes, StableHlo.ternary_writes,
    Finset.singleton_subset_iff, List.mem_toFinset]
  repeat' apply And.intro
  all_goals exact List.mem_map_of_mem (by decide)

/-! ## A buffer a host stretch does not write is kept -/

theorem W6_keep (c : Dev nD) (r : Ref sig .tc) (h : r ∉ wrTakeB) :
    W6 (F := Ideal) m ρ c (Proc.devRef .tc r) = W5 (F := Ideal) m ρ c (Proc.devRef .tc r) :=
  StableHlo.after_of_writes_sub hostOps2 _ hostOps2_wr h

theorem W8_keep (c : Dev nD) (r : Ref sig .tc) (h : r ∉ wrScatB) :
    W8 (F := Ideal) m ρ c (Proc.devRef .tc r) = W7 (F := Ideal) m ρ c (Proc.devRef .tc r) :=
  StableHlo.after_of_writes_sub hostOps3 _ hostOps3_wr h

theorem W10_keep (c : Dev nD) (r : Ref sig .tc) (h : r ∉ wrPool) :
    W10 (F := Ideal) m ρ c (Proc.devRef .tc r) = W9 (F := Ideal) m ρ c (Proc.devRef .tc r) :=
  StableHlo.after_of_writes_sub hostOps4 _ hostOps4_wr h

/-! ## The value each host stretch leaves in the buffer the next region reads -/

/-- The second segment sum leaves the sum of the edge messages at the target nodes. -/
theorem scatB_val (V : Valuation τ sig (Elt Ideal)) :
    StableHlo.after hostOps3 V (Proc.devRef .tc main_v14)
      = scat128 (V (Proc.devRef .tc main_v3)) (V (Proc.devRef .tc main_v11)) := by
  after_results_simp
  rfl

/-- The per-graph sum leaves the sum of the node rows of each graph. -/
theorem pool_val (V : Valuation τ sig (Elt Ideal)) :
    StableHlo.after hostOps4 V (Proc.devRef .tc main_v18)
      = pool (V (Proc.devRef .tc main_arg3)) (V (Proc.devRef .tc main_v15)) := by
  after_results_simp
  rfl

/-! ### The second gather in three parts: the index table, the mask, the masked rows

Its twenty-three operations are read eight, ten and five at a time, each part as a function of the contents it is
entered with; the stretch is the concatenation of the parts, so the parts compose. -/

/-- The first eight operations: they end in the normalised index table. -/
abbrev takeIdxB : List (HloOp τ sig (Elt Ideal)) := (hostOps2 : List (HloOp τ sig (Elt Ideal))).take 8
/-- The next ten: they end in the per-edge mask. -/
abbrev takeMaskB : List (HloOp τ sig (Elt Ideal)) := ((hostOps2 : List (HloOp τ sig (Elt Ideal))).drop 8).take 10
/-- The last five: the gather and the masked choice. -/
abbrev takeSelB : List (HloOp τ sig (Elt Ideal)) := (hostOps2 : List (HloOp τ sig (Elt Ideal))).drop 18

theorem hostOps2_parts : (hostOps2 : List (HloOp τ sig (Elt Ideal))) = takeIdxB ++ (takeMaskB ++ takeSelB) := rfl

/-- The masked rows from the mask, the table and the index table. -/
def maskRows128 (ok : IVec S1600000 1) (x : FVec Ideal S100000x128 .f32) (i : IVec S1600000x1 32) :
    FVec Ideal S1600000x128 .f32 :=
  select (broadcastInDim S1600000x128 ![0] bcast_S1600000_S1600000x128_0 ok)
    (Host.gather gather_S100000x128_S1600000x1_S1600000x128_1_0_n_n_0_1_1128 x i)
    (broadcastInDim S1600000x128 ![] bcast_S_S1600000x128 (constant S_ .f32 0x7FC00000#32))

theorem take128_eq (x : FVec Ideal S100000x128 .f32) (s : IVec S1600000 32) :
    take128 x s = maskRows128 (inRange (normIdx s)) x (normIdx s) := rfl

theorem takeIdxB_v5 (V : Valuation τ sig (Elt Ideal)) :
    StableHlo.after takeIdxB V (Proc.devRef .tc main_call1_v5) = normIdx (V (Proc.devRef .tc main_v1)) := by
  simp only [takeIdxB, hostOps2, List.take_succ_cons, List.take_zero]
  after_results_simp
  rfl

theorem takeIdxB_v9 (V : Valuation τ sig (Elt Ideal)) :
    StableHlo.after takeIdxB V (Proc.devRef .tc main_v9) = V (Proc.devRef .tc main_v9) := by
  simp only [takeIdxB, hostOps2, List.take_succ_cons, List.take_zero]
  after_results_simp

theorem takeMaskB_v12 (V : Valuation τ sig (Elt Ideal)) :
    StableHlo.after takeMaskB V (Proc.devRef .tc main_call1_v12) = inRange (V (Proc.devRef .tc main_call1_v5)) := by
  simp only [takeMaskB, hostOps2, List.take_succ_cons, List.take_zero, List.drop_succ_cons, List.drop_zero]
  after_results_simp
  rfl

theorem takeMaskB_v5 (V : Valuation τ sig (Elt Ideal)) :
    StableHlo.after takeMaskB V (Proc.devRef .tc main_call1_v5) = V (Proc.devRef .tc main_call1_v5) := by
  simp only [takeMaskB, hostOps2, List.take_succ_cons, List.take_zero, List.drop_succ_cons, List.drop_zero]
  after_results_simp

theorem takeMaskB_v9 (V : Valuation τ sig (Elt Ideal)) :
    StableHlo.after takeMaskB V (Proc.devRef .tc main_v9) = V (Proc.devRef .tc main_v9) := by
  simp only [takeMaskB, hostOps2, List.take_succ_cons, List.take_zero, List.drop_succ_cons, List.drop_zero]
  after_results_simp

theorem takeSelB_v10 (V : Valuation τ sig (Elt Ideal)) :
    StableHlo.after takeSelB V (Proc.devRef .tc main_v10)
      = maskRows128 (V (Proc.devRef .tc main_call1_v12)) (V (Proc.devRef .tc main_v9)) (V (Proc.devRef .tc main_call1_v5)) := by
  simp only [takeSelB, hostOps2, List.drop_succ_cons, List.drop_zero]
  after_results_simp
  rfl

/-- The second gather leaves the masked gather of the node rows at the source indices. -/
theorem takeB_val (V : Valuation τ sig (Elt Ideal)) :
    StableHlo.after hostOps2 V (Proc.devRef .tc main_v10)
      = take128 (V (Proc.devRef .tc main_v9)) (V (Proc.devRef .tc main_v1)) := by
  rw [hostOps2_parts, StableHlo.after_append, StableHlo.after_append, takeSelB_v10, takeMaskB_v12, takeMaskB_v5, takeMaskB_v9,
    takeIdxB_v5, takeIdxB_v9, take128_eq]

/-! ## The values at the boundaries -/

/-- Before region 2: the gathered node rows. -/
theorem W6_v10 (c : Dev nD) :
    W6 (F := Ideal) m ρ c (Proc.devRef .tc main_v10)
      = take128 (W5 (F := Ideal) m ρ c (Proc.devRef .tc main_v9)) (W5 (F := Ideal) m ρ c (Proc.devRef .tc main_v1)) :=
  takeB_val (W5 m ρ c)

/-- After region 2: the second round's edge messages. -/
theorem W7_v11 (h2 : Val2) (c : Dev nD) :
    W7 (F := Ideal) m ρ c (Proc.devRef .tc main_v11)
      = Cert.Spec.msg (W6 (F := Ideal) m ρ c (Proc.devRef .tc main_v10)) (W6 (F := Ideal) m ρ c (Proc.devRef .tc main_arg2))
          (W6 (F := Ideal) m ρ c (Proc.devRef .tc main_arg10)) (W6 (F := Ideal) m ρ c (Proc.devRef .tc main_arg11)) :=
  (W7_arr m ρ c 4).trans (h2 (V6 m ρ) c)

/-- Before region 3: the messages summed at the target nodes. -/
theorem W8_v14 (c : Dev nD) :
    W8 (F := Ideal) m ρ c (Proc.devRef .tc main_v14)
      = scat128 (W7 (F := Ideal) m ρ c (Proc.devRef .tc main_v3)) (W7 (F := Ideal) m ρ c (Proc.devRef .tc main_v11)) :=
  scatB_val (W7 m ρ c)

/-- After region 3: the second node update. -/
theorem W9_v15 (h3 : Val3) (c : Dev nD) :
    W9 (F := Ideal) m ρ c (Proc.devRef .tc main_v15)
      = Cert.Spec.mlp (W8 (F := Ideal) m ρ c (Proc.devRef .tc main_v9)) (W8 (F := Ideal) m ρ c (Proc.devRef .tc main_v14))
          (W8 (F := Ideal) m ρ c (Proc.devRef .tc main_arg12)) (W8 (F := Ideal) m ρ c (Proc.devRef .tc main_arg13))
          (W8 (F := Ideal) m ρ c (Proc.devRef .tc main_arg14)) (W8 (F := Ideal) m ρ c (Proc.devRef .tc main_arg15)) :=
  (W9_arr m ρ c 6).trans (h3 (V8 m ρ) c)

/-- Before region 4: the node rows summed per graph. -/
theorem W10_v18 (c : Dev nD) :
    W10 (F := Ideal) m ρ c (Proc.devRef .tc main_v18)
      = pool (W9 (F := Ideal) m ρ c (Proc.devRef .tc main_arg3)) (W9 (F := Ideal) m ρ c (Proc.devRef .tc main_v15)) :=
  pool_val (W9 m ρ c)

/-- After region 4: the readout. -/
theorem W11_v19 (h4 : Val4) (c : Dev nD) :
    W11 (F := Ideal) m ρ c (Proc.devRef .tc main_v19)
      = Cert.Spec.fin (W10 (F := Ideal) m ρ c (Proc.devRef .tc main_v18)) (W10 (F := Ideal) m ρ c (Proc.devRef .tc main_arg16))
          (W10 (F := Ideal) m ρ c (Proc.devRef .tc main_arg17)) (W10 (F := Ideal) m ρ c (Proc.devRef .tc main_arg18)) (W10 (F := Ideal) m ρ c (Proc.devRef .tc main_arg19)) :=
  (W11_arr m ρ c 5).trans (h4 (V10 m ρ) c)

/-! ## Carrying a buffer from the end of the first node update to a later boundary -/

theorem W7_carry (c : Dev nD) (r : Ref sig .tc) (h6 : r ∉ wrTakeB) (h7 : ∀ w, Pipeline.arrRef spec2 w ≠ r) :
    W7 (F := Ideal) m ρ c (Proc.devRef .tc r) = W5 (F := Ideal) m ρ c (Proc.devRef .tc r) :=
  (W7_of_ne m ρ c r h7).trans (W6_keep m ρ c r h6)

theorem W8_carry (c : Dev nD) (r : Ref sig .tc) (h6 : r ∉ wrTakeB) (h7 : ∀ w, Pipeline.arrRef spec2 w ≠ r)
    (h8 : r ∉ wrScatB) : W8 (F := Ideal) m ρ c (Proc.devRef .tc r) = W5 (F := Ideal) m ρ c (Proc.devRef .tc r) :=
  (W8_keep m ρ c r h8).trans (W7_carry m ρ c r h6 h7)

theorem W9_carry (c : Dev nD) (r : Ref sig .tc) (h6 : r ∉ wrTakeB) (h7 : ∀ w, Pipeline.arrRef spec2 w ≠ r)
    (h8 : r ∉ wrScatB) (h9 : ∀ w, Pipeline.arrRef spec3 w ≠ r) :
    W9 (F := Ideal) m ρ c (Proc.devRef .tc r) = W5 (F := Ideal) m ρ c (Proc.devRef .tc r) :=
  (W9_of_ne m ρ c r h9).trans (W8_carry m ρ c r h6 h7 h8)

theorem W10_carry (c : Dev nD) (r : Ref sig .tc) (h6 : r ∉ wrTakeB) (h7 : ∀ w, Pipeline.arrRef spec2 w ≠ r)
    (h8 : r ∉ wrScatB) (h9 : ∀ w, Pipeline.arrRef spec3 w ≠ r) (h10 : r ∉ wrPool) :
    W10 (F := Ideal) m ρ c (Proc.devRef .tc r) = W5 (F := Ideal) m ρ c (Proc.devRef .tc r) :=
  (W10_keep m ρ c r h10).trans (W9_carry m ρ c r h6 h7 h8 h9)

/-! ## The buffers the rest of the run reads, carried from the end of the first node update -/

theorem W10_arg16 (c : Dev nD) :
    W10 (F := Ideal) m ρ c (Proc.devRef .tc main_arg16) = W5 (F := Ideal) m ρ c (Proc.devRef .tc main_arg16) :=
  W10_carry m ρ c main_arg16 (by decide) (by decide) (by decide) (by decide) (by decide)

theorem W10_arg17 (c : Dev nD) :
    W10 (F := Ideal) m ρ c (Proc.devRef .tc main_arg17) = W5 (F := Ideal) m ρ c (Proc.devRef .tc main_arg17) :=
  W10_carry m ρ c main_arg17 (by decide) (by decide) (by decide) (by decide) (by decide)

theorem W10_arg18 (c : Dev nD) :
    W10 (F := Ideal) m ρ c (Proc.devRef .tc main_arg18) = W5 (F := Ideal) m ρ c (Proc.devRef .tc main_arg18) :=
  W10_carry m ρ c main_arg18 (by decide) (by decide) (by decide) (by decide) (by decide)

theorem W10_arg19 (c : Dev nD) :
    W10 (F := Ideal) m ρ c (Proc.devRef .tc main_arg19) = W5 (F := Ideal) m ρ c (Proc.devRef .tc main_arg19) :=
  W10_carry m ρ c main_arg19 (by decide) (by decide) (by decide) (by decide) (by decide)

theorem W9_arg3 (c : Dev nD) :
    W9 (F := Ideal) m ρ c (Proc.devRef .tc main_arg3) = W5 (F := Ideal) m ρ c (Proc.devRef .tc main_arg3) :=
  W9_carry m ρ c main_arg3 (by decide) (by decide) (by decide) (by decide)

theorem W8_v9 (c : Dev nD) :
    W8 (F := Ideal) m ρ c (Proc.devRef .tc main_v9) = W5 (F := Ideal) m ρ c (Proc.devRef .tc main_v9) :=
  W8_carry m ρ c main_v9 (by decide) (by decide) (by decide)

theorem W8_arg12 (c : Dev nD) :
    W8 (F := Ideal) m ρ c (Proc.devRef .tc main_arg12) = W5 (F := Ideal) m ρ c (Proc.devRef .tc main_arg12) :=
  W8_carry m ρ c main_arg12 (by decide) (by decide) (by decide)

theorem W8_arg13 (c : Dev nD) :
    W8 (F := Ideal) m ρ c (Proc.devRef .tc main_arg13) = W5 (F := Ideal) m ρ c (Proc.devRef .tc main_arg13) :=
  W8_carry m ρ c main_arg13 (by decide) (by decide) (by decide)

theorem W8_arg14 (c : Dev nD) :
    W8 (F := Ideal) m ρ c (Proc.devRef .tc main_arg14) = W5 (F := Ideal) m ρ c (Proc.devRef .tc main_arg14) :=
  W8_carry m ρ c main_arg14 (by decide) (by decide) (by decide)

theorem W8_arg15 (c : Dev nD) :
    W8 (F := Ideal) m ρ c (Proc.devRef .tc main_arg15) = W5 (F := Ideal) m ρ c (Proc.devRef .tc main_arg15) :=
  W8_carry m ρ c main_arg15 (by decide) (by decide) (by decide)

theorem W7_v3 (c : Dev nD) :
    W7 (F := Ideal) m ρ c (Proc.devRef .tc main_v3) = W5 (F := Ideal) m ρ c (Proc.devRef .tc main_v3) :=
  W7_carry m ρ c main_v3 (by decide) (by decide)

theorem W6_arg2 (c : Dev nD) :
    W6 (F := Ideal) m ρ c (Proc.devRef .tc main_arg2) = W5 (F := Ideal) m ρ c (Proc.devRef .tc main_arg2) :=
  W6_keep m ρ c main_arg2 (by decide)

theorem W6_arg10 (c : Dev nD) :
    W6 (F := Ideal) m ρ c (Proc.devRef .tc main_arg10) = W5 (F := Ideal) m ρ c (Proc.devRef .tc main_arg10) :=
  W6_keep m ρ c main_arg10 (by decide)

theorem W6_arg11 (c : Dev nD) :
    W6 (F := Ideal) m ρ c (Proc.devRef .tc main_arg11) = W5 (F := Ideal) m ρ c (Proc.devRef .tc main_arg11) :=
  W6_keep m ρ c main_arg11 (by decide)

/-! ## The result -/

set_option maxHeartbeats 1000000 in
/-- The last region's output array is the network of the launched arguments. -/
theorem fold_of (h2 : Val2) (h3 : Val3) (h4 : Val4) (c : Dev nD) (hA : AfterLayer1 m ρ c) :
    W11 (F := Ideal) m ρ c (Proc.devRef .tc main_v19)
      = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  obtain ⟨a9, a1, a3, a_2, a_3, a10, a11, a12, a13, a14, a15, a16, a17, a18, a19⟩ := hA
  rw [W11_v19 m ρ h4 c, W10_v18 m ρ c, W9_v15 m ρ h3 c, W8_v14 m ρ c, W7_v11 m ρ h2 c, W6_v10 m ρ c,
    W10_arg16 m ρ c, W10_arg17 m ρ c, W10_arg18 m ρ c, W10_arg19 m ρ c, W9_arg3 m ρ c, W8_v9 m ρ c, W8_arg12 m ρ c, W8_arg13 m ρ c, W8_arg14 m ρ c, W8_arg15 m ρ c, W7_v3 m ρ c, W6_arg2 m ρ c, W6_arg10 m ρ c, W6_arg11 m ρ c,
    a9, a1, a3, a_2, a_3, a10, a11, a12, a13, a14, a15, a16, a17, a18, a19]
  rfl

end Cert.KernelIdeal.KVal

end
-- ==== Proof.PreTake.lean ====
/-
  The one use of the certificate's precondition. The program's row gather fills a row with the not-a-number pattern
  when the row's normalised index falls outside the 100000-row table; the precondition says, over all 1600000 source
  indices at once, that no normalised index does. So under the precondition the masked gather is the plain gather.
-/
import proofs.«406645_j19301583028827_1_alg».proof.Pre_finite_inputs
import proofs.«406645_j19301583028827_1_alg».proof.Proof.Gen.Pre_finite_inputs
import proofs.«406645_j19301583028827_1_alg».proof.Proof.KerOps
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.KVal

open Idealize.ShloMosaic Idealize.ShloMosaic.ValueIdx Cert.KernelIdeal Cert.KernelIdeal.Facts₀

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from 1 of an array whose every element is 1 is 1 everywhere. -/
theorem reduce_andi_one_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

/-- A broadcast of an array whose every element is 1 is 1 everywhere. -/
theorem bcast_one_of_all {s t : Shape} (dims : Fin s.rank → Fin t.rank) (hb : s.BroadcastsInDim t dims) (m : s.Idx → BitVec 1)
    (hm : ∀ e, m e = 1#1) (j : t.Idx) : broadcastInDim t dims hb m j = 1#1 := hm _

/-- Where every index is in range the masked gather of 32-wide rows is the gather. -/
theorem take32_of_inRange (x : FVec Ideal S100000x32 .f32) (s : IVec S1600000 32) (h : ∀ e, inRange (normIdx s) e = 1#1) :
    take32 x s = Host.gather gather_S100000x32_S1600000x1_S1600000x32_1_0_n_n_0_1_132 x (normIdx s) := by
  funext j
  rw [take32, select_apply, bcast_one_of_all _ _ _ h, ValueIdx.select_one]

/-- Where every index is in range the masked gather of 128-wide rows is the gather. -/
theorem take128_of_inRange (x : FVec Ideal S100000x128 .f32) (s : IVec S1600000 32) (h : ∀ e, inRange (normIdx s) e = 1#1) :
    take128 x s = Host.gather gather_S100000x128_S1600000x1_S1600000x128_1_0_n_n_0_1_1128 x (normIdx s) := by
  funext j
  rw [take128, select_apply, bcast_one_of_all _ _ _ h, ValueIdx.select_one]

/-- The range test on a table that is a broadcast of a vector holds at every entry when it holds, as a fact about words, at
    every entry of the vector (the bounds being constant arrays). -/
theorem tablePred_of_vec {sv st : Shape} (dims : Fin sv.rank → Fin st.rank) (hb : sv.BroadcastsInDim st dims) (v : IVec sv 32)
    (lo hi : IVec st 32) (clo chi : BitVec 32) (hlo : ∀ j, lo j = clo) (hhi : ∀ j, hi j = chi)
    (hv : ∀ e, IntOp.andi (IntOp.cmpi .sge (v e) clo) (IntOp.cmpi .sle (v e) chi) = 1#1) (i : st.Idx) :
    andi (cmpi .sge (broadcastInDim st dims hb v) lo) (cmpi .sle (broadcastInDim st dims hb v) hi) i = 1#1 := by
  show IntOp.andi (IntOp.cmpi .sge (v _) (lo i)) (IntOp.cmpi .sle (v _) (hi i)) = 1#1
  rw [hlo, hhi]
  exact hv _

/-- The range test on a vector, read at an entry as a fact about words. -/
theorem vecPred_word {sv : Shape} (v lo hi : IVec sv 32) (clo chi : BitVec 32) (hlo : ∀ e, lo e = clo) (hhi : ∀ e, hi e = chi)
    (e : sv.Idx) (h : andi (cmpi .sge v lo) (cmpi .sle v hi) e = 1#1) :
    IntOp.andi (IntOp.cmpi .sge (v e) clo) (IntOp.cmpi .sle (v e) chi) = 1#1 := by
  rw [← hlo e, ← hhi e]
  exact h

/-- The precondition's value is the value of its last part. -/
theorem pre_eq_part5 (a0 : FVec Ideal S100000x32 .f32) (a1 : IVec S2x1600000 32) (a2 : FVec Ideal S1600000x8 .f32) (a3 : IVec S100000 32) (a4 : FVec Ideal S8x32 .f32) (a5 : FVec Ideal S32 .f32) (a6 : FVec Ideal S32x128 .f32) (a7 : FVec Ideal S128 .f32) (a8 : FVec Ideal S128x128 .f32) (a9 : FVec Ideal S128 .f32) (a10 : FVec Ideal S8x128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32) (a18 : FVec Ideal S128x12 .f32) (a19 : FVec Ideal S12 .f32) :
    ∃ (p : IVec Cert.Pre_finite_inputs.S_ 1) (q : FVec Ideal S12 .f32) (c : FVec Ideal Cert.Pre_finite_inputs.S_ .f32),
      Cert.Pre_finite_inputs.fn (F := Ideal) a0 a1 a2 a3 a4 a5 a6 a7 a8 a9 a10 a11 a12 a13 a14 a15 a16 a17 a18 a19
        = Cert.Pre_finite_inputs.fn_part5 (F := Ideal) a1 p q c :=
  ⟨_, _, _, rfl⟩

/-- The rank-zero shape has one index. -/
local instance scalarIdxSubsingleton : Subsingleton Cert.Pre_finite_inputs.S_.Idx := ⟨fun a b => funext fun d => d.elim0⟩

/-- The last conjunct of the precondition, entry by entry: every normalised source index is in range. -/
theorem part5_all (a1 : IVec S2x1600000 32) (p : IVec Cert.Pre_finite_inputs.S_ 1) (q : FVec Ideal S12 .f32)
    (c : FVec Ideal Cert.Pre_finite_inputs.S_ .f32)
    (h : Cert.Pre_finite_inputs.fn_part5 (F := Ideal) a1 p q c ix0 = 1#1) :
    ∀ e, inRange (normIdx (srcRow a1)) e = 1#1 := by
  have h5 := (IntOp.andi_eq_one.1 h).2
  have hall := Host.reduce_andi_all _ _ _ _ _ h5
  intro e
  unfold inRange normIdx idxCol
  refine reduce_andi_one_of_all _ _ _ _ rfl (fun i => ?_) e
  refine tablePred_of_vec _ _ _ _ _ 0#32 99999#32 (fun _ => rfl) (fun _ => rfl) (fun e' => ?_) i
  exact vecPred_word _ _ _ 0#32 99999#32 (fun _ => rfl) (fun _ => rfl) e' (hall e')

/-- Under the precondition every normalised source index addresses a row of the 100000-row table. -/
theorem inRange_of_pre (a0 : FVec Ideal S100000x32 .f32) (a1 : IVec S2x1600000 32) (a2 : FVec Ideal S1600000x8 .f32) (a3 : IVec S100000 32) (a4 : FVec Ideal S8x32 .f32) (a5 : FVec Ideal S32 .f32) (a6 : FVec Ideal S32x128 .f32) (a7 : FVec Ideal S128 .f32) (a8 : FVec Ideal S128x128 .f32) (a9 : FVec Ideal S128 .f32) (a10 : FVec Ideal S8x128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32) (a18 : FVec Ideal S128x12 .f32) (a19 : FVec Ideal S12 .f32)
    (h : Cert.Pre_finite_inputs.fn (F := Ideal) a0 a1 a2 a3 a4 a5 a6 a7 a8 a9 a10 a11 a12 a13 a14 a15 a16 a17 a18 a19 = fun _ => 1#1) :
    ∀ e, inRange (normIdx (srcRow a1)) e = 1#1 := by
  obtain ⟨p, q, c, hp⟩ := pre_eq_part5 a0 a1 a2 a3 a4 a5 a6 a7 a8 a9 a10 a11 a12 a13 a14 a15 a16 a17 a18 a19
  rw [hp] at h
  exact part5_all a1 p q c (congrFun h ix0)

end Cert.KernelIdeal.KVal

end
-- ==== Proof.RefStages.lean ====
/-
  The reference network as functions of whole arrays.  Each definition below is the term the reference's
  operations compute for one layer, written over the layer's operands: the row selections of the edge list,
  the wrap of negative node numbers, the gathers and the scattered sums, the edge message (a dense layer of the
  edge attributes added to the gathered rows, rectified), the node update (two dense layers each followed by the
  exponential linear unit) and the readout (a dense layer, the rectifier, a dense layer).  The second half reads
  each layer index by index: it is the function of the same name in `Cert.Spec`.
-/
import proofs.«406645_j19301583028827_1_alg».proof.ReferenceIdeal
import proofs.«406645_j19301583028827_1_alg».proof.Proof.Gen.ReferenceIdeal
import proofs.«406645_j19301583028827_1_alg».proof.Proof.Spec
import Idealize.ShloMosaic.Lib.ValueIdx
import Idealize.ShloMosaic.Lib.ValueLayout
import Idealize.ShloMosaic.Lib.Pipeline.Value
import Idealize.ShloMosaic.Lib.StackMember

noncomputable section

namespace Cert.ReferenceIdeal.RefValue

open Idealize.ShloMosaic Idealize.ShloMosaic.ValueIdx Cert.ReferenceIdeal Cert.ReferenceIdeal.Facts₀
open scoped BigOperators

/-! ## The layers as the reference computes them -/

/-- Row 0 of the edge list (the source node of every edge), as a vector. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge list (the destination node of every edge), as a vector. -/
def dstRow (ei : IVec S2x1600000 32) : IVec S1600000 32 :=
  shapeCast S1600000 (extractStridedSlice S1x1600000 ![1, 0] ei slices_S2x1600000_S1x1600000_1_0) shapeCasts_S1x1600000_S1600000

/-- A vector of node numbers as a one-column index table. -/
def idxCol (s : IVec S1600000 32) : IVec S1600000x1 32 :=
  broadcastInDim S1600000x1 ![0] bcast_S1600000_S1600000x1_0 s

/-- The index table of a gather: a negative node number is counted from the end (100000 is added to it). -/
def normIdx (s : IVec S1600000 32) : IVec S1600000x1 32 :=
  idxCol (select (cmpi .slt s (broadcastInDim S1600000 ![] bcast_S_S1600000 (constantI S_ 32 0#32)))
    (addi s (broadcastInDim S1600000 ![] bcast_S_S1600000 (constantI S_ 32 100000#32))) s)

/-- The rows of a 32-column node array at the edges' source nodes. -/
def gath32 (x : FVec Ideal S100000x32 .f32) (i : IVec S1600000x1 32) : FVec Ideal S1600000x32 .f32 :=
  Host.gather gather_S100000x32_S1600000x1_S1600000x32_1_0_n_n_0_1_132 x i

/-- The rows of a 128-column node array at the edges' source nodes. -/
def gath128 (x : FVec Ideal S100000x128 .f32) (i : IVec S1600000x1 32) : FVec Ideal S1600000x128 .f32 :=
  Host.gather gather_S100000x128_S1600000x1_S1600000x128_1_0_n_n_0_1_1128 x i

/-- The sum, per destination node, of the 32-column edge rows. -/
def scat32 (d : IVec S1600000 32) (u : FVec Ideal S1600000x32 .f32) : FVec Ideal S100000x32 .f32 :=
  Host.scatterAdd scatter_S100000x32_S1600000x1_S1600000x32_1_0_0_1
    (broadcastInDim S100000x32 ![] bcast_S_S100000x32 (constant S_ .f32 0x00000000#32)) (idxCol d) u

/-- The sum, per destination node, of the 128-column edge rows. -/
def scat128 (d : IVec S1600000 32) (u : FVec Ideal S1600000x128 .f32) : FVec Ideal S100000x128 .f32 :=
  Host.scatterAdd scatter_S100000x128_S1600000x1_S1600000x128_1_0_0_1
    (broadcastInDim S100000x128 ![] bcast_S_S100000x128 (constant S_ .f32 0x00000000#32)) (idxCol d) u

/-- The sum, per graph, of the node rows. -/
def pool (b : IVec S100000 32) (u : FVec Ideal S100000x128 .f32) : FVec Ideal S2048x128 .f32 :=
  Host.scatterAdd scatter_S2048x128_S100000x1_S100000x128_1_0_0_1
    (broadcastInDim S2048x128 ![] bcast_S_S2048x128 (constant S_ .f32 0x00000000#32))
    (broadcastInDim S100000x1 ![0] bcast_S100000_S100000x1_0 b) u

/-- The edge message of the first layer: gathered rows plus the dense layer of the edge attributes, rectified. -/
def Rmsg32 (g : FVec Ideal S1600000x32 .f32) (ea : FVec Ideal S1600000x8 .f32) (We : FVec Ideal S8x32 .f32)
    (be : FVec Ideal S32 .f32) : FVec Ideal S1600000x32 .f32 :=
  maximumf
    (addf (addf g (Host.dotGeneral dot_S1600000x8_S8x32_S1600000x32_1_0_0_1_n_n none ea We))
      (broadcastInDim S1600000x32 ![0, 1] bcast_S1x32_S1600000x32_0_1 (broadcastInDim S1x32 ![1] bcast_S32_S1x32_1 be)))
    (broadcastInDim S1600000x32 ![] bcast_S_S1600000x32 (constant S_ .f32 0x00000000#32))

/-- The edge message of the second layer. -/
def Rmsg128 (g : FVec Ideal S1600000x128 .f32) (ea : FVec Ideal S1600000x8 .f32) (We : FVec Ideal S8x128 .f32)
    (be : FVec Ideal S128 .f32) : FVec Ideal S1600000x128 .f32 :=
  maximumf
    (addf (addf g (Host.dotGeneral dot_S1600000x8_S8x128_S1600000x128_1_0_0_1_n_n none ea We))
      (broadcastInDim S1600000x128 ![0, 1] bcast_S1x128_S1600000x128_0_1 (broadcastInDim S1x128 ![1] bcast_S128_S1x128_1 be)))
    (broadcastInDim S1600000x128 ![] bcast_S_S1600000x128 (constant S_ .f32 0x00000000#32))

/-- The exponential linear unit as the reference computes it: where the entry is positive the entry, elsewhere
    one times `expm1` of the entry (the argument of `expm1` is replaced by zero where the entry is positive). -/
def Relu (v : FVec Ideal S100000x128 .f32) : FVec Ideal S100000x128 .f32 :=
  select (cmpf .ogt v (broadcastInDim S100000x128 ![] bcast_S_S100000x128 (constant S_ .f32 0x00000000#32))) v
    (mulf (broadcastInDim S100000x128 ![] bcast_S_S100000x128 (constant S_ .f32 0x3F800000#32))
      (Host.expm1
        (select (cmpf .ogt v (broadcastInDim S100000x128 ![] bcast_S_S100000x128 (constant S_ .f32 0x00000000#32)))
          (broadcastInDim S100000x128 ![] bcast_S_S100000x128 (id (constant S_ .f32 0x00000000#32))) v)))

/-- The node update of the first layer. -/
def Rmlp32 (x agg : FVec Ideal S100000x32 .f32) (Wa : FVec Ideal S32x128 .f32) (ba : FVec Ideal S128 .f32)
    (Wb : FVec Ideal S128x128 .f32) (bb : FVec Ideal S128 .f32) : FVec Ideal S100000x128 .f32 :=
  Relu (addf (Host.dotGeneral dot_S100000x128_S128x128_S100000x128_1_0_0_1_n_n none
      (Relu (addf (Host.dotGeneral dot_S100000x32_S32x128_S100000x128_1_0_0_1_n_n none (addf x agg) Wa) (broadcastInDim S100000x128 ![0, 1] bcast_S1x128_S100000x128_0_1 (broadcastInDim S1x128 ![1] bcast_S128_S1x128_1 ba)))) Wb)
    (broadcastInDim S100000x128 ![0, 1] bcast_S1x128_S100000x128_0_1 (broadcastInDim S1x128 ![1] bcast_S128_S1x128_1 bb)))

/-- The node update of the second layer. -/
def Rmlp128 (x agg : FVec Ideal S100000x128 .f32) (Wa : FVec Ideal S128x128 .f32) (ba : FVec Ideal S128 .f32)
    (Wb : FVec Ideal S128x128 .f32) (bb : FVec Ideal S128 .f32) : FVec Ideal S100000x128 .f32 :=
  Relu (addf (Host.dotGeneral dot_S100000x128_S128x128_S100000x128_1_0_0_1_n_n none
      (Relu (addf (Host.dotGeneral dot_S100000x128_S128x128_S100000x128_1_0_0_1_n_n none (addf x agg) Wa) (broadcastInDim S100000x128 ![0, 1] bcast_S1x128_S100000x128_0_1 (broadcastInDim S1x128 ![1] bcast_S128_S1x128_1 ba)))) Wb)
    (broadcastInDim S100000x128 ![0, 1] bcast_S1x128_S100000x128_0_1 (broadcastInDim S1x128 ![1] bcast_S128_S1x128_1 bb)))

/-- The readout. -/
def Rfin (hg : FVec Ideal S2048x128 .f32) (W1 : FVec Ideal S128x128 .f32) (b1 : FVec Ideal S128 .f32)
    (W2 : FVec Ideal S128x12 .f32) (b2 : FVec Ideal S12 .f32) : FVec Ideal S2048x12 .f32 :=
  addf (Host.dotGeneral dot_S2048x128_S128x12_S2048x12_1_0_0_1_n_n none
      (maximumf
        (addf (Host.dotGeneral dot_S2048x128_S128x128_S2048x128_1_0_0_1_n_n none hg W1)
          (broadcastInDim S2048x128 ![0, 1] bcast_S1x128_S2048x128_0_1 (broadcastInDim S1x128 ![1] bcast_S128_S1x128_1 b1)))
        (broadcastInDim S2048x128 ![] bcast_S_S2048x128 (constant S_ .f32 0x00000000#32))) W2)
    (broadcastInDim S2048x12 ![0, 1] bcast_S1x12_S2048x12_0_1 (broadcastInDim S1x12 ![1] bcast_S12_S1x12_1 b2))

/-- The whole reference: two rounds of gather, edge message, scattered sum and node update, the sum per graph,
    the readout. -/
def refOut (x : FVec Ideal S100000x32 .f32) (ei : IVec S2x1600000 32) (ea : FVec Ideal S1600000x8 .f32)
    (batch : IVec S100000 32) (We1 : FVec Ideal S8x32 .f32) (be1 : FVec Ideal S32 .f32) (W1a : FVec Ideal S32x128 .f32)
    (b1a : FVec Ideal S128 .f32) (W1b : FVec Ideal S128x128 .f32) (b1b : FVec Ideal S128 .f32) (We2 : FVec Ideal S8x128 .f32)
    (be2 : FVec Ideal S128 .f32) (W2a : FVec Ideal S128x128 .f32) (b2a : FVec Ideal S128 .f32) (W2b : FVec Ideal S128x128 .f32)
    (b2b : FVec Ideal S128 .f32) (Wl1 : FVec Ideal S128x128 .f32) (bl1 : FVec Ideal S128 .f32) (Wl2 : FVec Ideal S128x12 .f32)
    (bl2 : FVec Ideal S12 .f32) : FVec Ideal S2048x12 .f32 :=
  let h1 := Rmlp32 x (scat32 (dstRow ei) (Rmsg32 (gath32 x (normIdx (srcRow ei))) ea We1 be1)) W1a b1a W1b b1b
  let h2 := Rmlp128 h1 (scat128 (dstRow ei) (Rmsg128 (gath128 h1 (normIdx (srcRow ei))) ea We2 be2)) W2a b2a W2b b2b
  Rfin (pool batch h2) Wl1 bl1 Wl2 bl2

/-- The same network with each layer the index-by-index function of `Cert.Spec`. -/
def refNet (x : FVec Ideal S100000x32 .f32) (ei : IVec S2x1600000 32) (ea : FVec Ideal S1600000x8 .f32)
    (batch : IVec S100000 32) (We1 : FVec Ideal S8x32 .f32) (be1 : FVec Ideal S32 .f32) (W1a : FVec Ideal S32x128 .f32)
    (b1a : FVec Ideal S128 .f32) (W1b : FVec Ideal S128x128 .f32) (b1b : FVec Ideal S128 .f32) (We2 : FVec Ideal S8x128 .f32)
    (be2 : FVec Ideal S128 .f32) (W2a : FVec Ideal S128x128 .f32) (b2a : FVec Ideal S128 .f32) (W2b : FVec Ideal S128x128 .f32)
    (b2b : FVec Ideal S128 .f32) (Wl1 : FVec Ideal S128x128 .f32) (bl1 : FVec Ideal S128 .f32) (Wl2 : FVec Ideal S128x12 .f32)
    (bl2 : FVec Ideal S12 .f32) : FVec Ideal S2048x12 .f32 :=
  let h1 := Cert.Spec.mlp x (scat32 (dstRow ei) (Cert.Spec.msg (gath32 x (normIdx (srcRow ei))) ea We1 be1)) W1a b1a W1b b1b
  let h2 := Cert.Spec.mlp h1 (scat128 (dstRow ei) (Cert.Spec.msg (gath128 h1 (normIdx (srcRow ei))) ea We2 be2)) W2a b2a W2b b2b
  Cert.Spec.fin (pool batch h2) Wl1 bl1 Wl2 bl2

/-! ## Each layer read index by index

First at any sizes, over a contraction record that is the plain one and the broadcast facts of the sizes; then at
the reference's own records. -/

section Generic
variable {M K N : Nat}

/-- A vector laid along one row and that row laid down every row of a matrix, read at (r, c): the vector's entry c. -/
theorem bias_apply (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) (r : Fin M) (c : Fin N) :
    broadcastInDim ⟨2, ![M, N]⟩ ![0, 1] h2 (broadcastInDim ⟨2, ![1, N]⟩ ![1] h1 b) (ix2 r c) = b (ix1 c) := by
  refine (broadcastInDim_apply ![0, 1] h2 _ (ix2 r c) (ix2 (0 : Fin 1) c) ?_).trans
    (broadcastInDim_apply ![1] h1 b (ix2 (0 : Fin 1) c) (ix1 c) ?_)
  · intro a
    match a with
    | ⟨0, _⟩ => show (0 : Nat) = if (1 : Nat) = 1 then 0 else _; rw [if_pos rfl]
    | ⟨1, _⟩ =>
      show c.val = if N = 1 then 0 else c.val
      split
      · have := c.isLt; omega
      · rfl
  · intro a
    match a with
    | ⟨0, _⟩ =>
      show c.val = if N = 1 then 0 else c.val
      split
      · have := c.isLt; omega
      · rfl

/-- The zero constant broadcast to a matrix reads 0 everywhere. -/
theorem zeros_apply {T : Shape} (h : (⟨0, ![]⟩ : Shape).BroadcastsInDim T ![]) (j : T.Idx) :
    broadcastInDim T ![] h (constant (F := Ideal) ⟨0, ![]⟩ .f32 0x00000000#32) j = 0 :=
  Ideal.ofBits_zero_f32

/-- The one constant broadcast to a matrix reads 1 everywhere. -/
theorem ones_apply {T : Shape} (h : (⟨0, ![]⟩ : Shape).BroadcastsInDim T ![]) (j : T.Idx) :
    broadcastInDim T ![] h (constant (F := Ideal) ⟨0, ![]⟩ .f32 0x3F800000#32) j = 1 :=
  Cert.Spec.ofBits_one_f32

/-- A product at the plain contraction plus the broadcast bias is the dense layer. -/
theorem lin_eq (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (A : Cert.Spec.Mat M K) (W : Cert.Spec.Mat K N) (b : Cert.Spec.Row N) :
    addf (Host.dotGeneral D none A W) (broadcastInDim ⟨2, ![M, N]⟩ ![0, 1] h2 (broadcastInDim ⟨2, ![1, N]⟩ ![1] h1 b))
      = Cert.Spec.lin A W b := by
  subst hD
  funext j
  obtain ⟨r, c, rfl⟩ : ∃ (r : Fin M) (c : Fin N), j = ix2 r c := ⟨j 0, j 1, eq_ix2 j⟩
  rw [addf_apply, bias_apply, StackMember.dotGeneral_plain_apply]
  rfl

/-- The reference's edge message is the rectified sum of the gathered row and the dense layer. -/
theorem msg_eq (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (g : Cert.Spec.Mat M N) (ea : Cert.Spec.Mat M K) (We : Cert.Spec.Mat K N) (be : Cert.Spec.Row N) :
    maximumf
        (addf (addf g (Host.dotGeneral D none ea We))
          (broadcastInDim ⟨2, ![M, N]⟩ ![0, 1] h2 (broadcastInDim ⟨2, ![1, N]⟩ ![1] h1 be)))
        (broadcastInDim ⟨2, ![M, N]⟩ ![] h0 (constant ⟨0, ![]⟩ .f32 0x00000000#32))
      = Cert.Spec.msg g ea We be := by
  funext j
  rw [maximumf_apply, zeros_apply, addf_apply, addf_apply]
  unfold Cert.Spec.msg Cert.Spec.relu1
  rw [← lin_eq D hD h1 h2 ea We be, addf_apply, add_assoc]

/-- The reference's exponential linear unit, entry by entry: where the entry is positive both selections take the
    entry; elsewhere the inner selection keeps the entry, and one times `exp v − 1` is `exp v − 1`. -/
theorem elu_eq (h0 : (⟨0, ![]⟩ : Shape).BroadcastsInDim ⟨2, ![M, N]⟩ ![]) (v : Cert.Spec.Mat M N) :
    select (cmpf .ogt v (broadcastInDim ⟨2, ![M, N]⟩ ![] h0 (constant ⟨0, ![]⟩ .f32 0x00000000#32))) v
        (mulf (broadcastInDim ⟨2, ![M, N]⟩ ![] h0 (constant ⟨0, ![]⟩ .f32 0x3F800000#32))
          (Host.expm1
            (select (cmpf .ogt v (broadcastInDim ⟨2, ![M, N]⟩ ![] h0 (constant ⟨0, ![]⟩ .f32 0x00000000#32)))
              (broadcastInDim ⟨2, ![M, N]⟩ ![] h0 (id (constant ⟨0, ![]⟩ .f32 0x00000000#32))) v)))
      = Cert.Spec.elu v := by
  funext j
  have hz : broadcastInDim ⟨2, ![M, N]⟩ ![] h0 (constant (F := Ideal) ⟨0, ![]⟩ .f32 0x00000000#32) j = 0 := zeros_apply h0 j
  have ho : broadcastInDim ⟨2, ![M, N]⟩ ![] h0 (constant (F := Ideal) ⟨0, ![]⟩ .f32 0x3F800000#32) j = 1 := ones_apply h0 j
  show Scalar.select (Ideal.cmp .ogt (v j) (broadcastInDim ⟨2, ![M, N]⟩ ![] h0 (constant (F := Ideal) ⟨0, ![]⟩ .f32 0x00000000#32) j)) (v j)
      (broadcastInDim ⟨2, ![M, N]⟩ ![] h0 (constant (F := Ideal) ⟨0, ![]⟩ .f32 0x3F800000#32) j
        * (Ideal.exp (Scalar.select
            (Ideal.cmp .ogt (v j) (broadcastInDim ⟨2, ![M, N]⟩ ![] h0 (constant (F := Ideal) ⟨0, ![]⟩ .f32 0x00000000#32) j))
            (broadcastInDim ⟨2, ![M, N]⟩ ![] h0 (constant (F := Ideal) ⟨0, ![]⟩ .f32 0x00000000#32) j) (v j)) - 1))
    = Scalar.select (Ideal.cmp .ogt (v j) 0) (v j) (Ideal.exp (v j) - 1)
  rw [hz, ho]
  by_cases hc : Ideal.cmp .ogt (v j) 0 = 1#1
  · rw [hc, select_one, select_one]
  · rw [eq_zero_of_ne_one hc, select_zero, select_zero, select_zero, one_mul]

/-- The reference's node update is the two dense layers each followed by the exponential linear unit. -/
theorem mlp_eq (Da : DotDims ⟨2, ![M, K]⟩ ⟨2, ![K, N]⟩ ⟨2, ![M, N]⟩) (hDa : Da = DotDims.plain M K N)
    (Db : DotDims ⟨2, ![M, N]⟩ ⟨2, ![N, N]⟩ ⟨2, ![M, N]⟩) (hDb : Db = DotDims.plain M N N)
    (h1 : (⟨1, ![N]⟩ : Shape).BroadcastsInDim ⟨2, ![1, N]⟩ ![1])
    (h2 : (⟨2, ![1, N]⟩ : Shape).BroadcastsInDim ⟨2, ![M, N]⟩ ![0, 1])
    (E : Cert.Spec.Mat M N → Cert.Spec.Mat M N) (hE : ∀ v, E v = Cert.Spec.elu v)
    (x agg : Cert.Spec.Mat M K) (Wa : Cert.Spec.Mat K N) (ba : Cert.Spec.Row N) (Wb : Cert.Spec.Mat N N) (bb : Cert.Spec.Row N) :
    E (addf (Host.dotGeneral Db none
          (E (addf (Host.dotGeneral Da none (addf x agg) Wa)
            (broadcastInDim ⟨2, ![M, N]⟩ ![0, 1] h2 (broadcastInDim ⟨2, ![1, N]⟩ ![1] h1 ba)))) Wb)
        (broadcastInDim ⟨2, ![M, N]⟩ ![0, 1] h2 (broadcastInDim ⟨2, ![1, N]⟩ ![1] h1 bb)))
      = Cert.Spec.mlp x agg Wa ba Wb bb := by
  rw [lin_eq Da hDa h1 h2, hE, lin_eq Db hDb h1 h2, hE]
  rfl

/-- The reference's readout is a dense layer, the rectifier, a dense layer. -/
theorem fin_eq (D1 : DotDims ⟨2, ![M, K]⟩ ⟨2, ![K, K]⟩ ⟨2, ![M, K]⟩) (hD1 : D1 = DotDims.plain M K K)
    (D2 : DotDims ⟨2, ![M, K]⟩ ⟨2, ![K, N]⟩ ⟨2, ![M, N]⟩) (hD2 : D2 = DotDims.plain M K N)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (h1' : (⟨1, ![N]⟩ : Shape).BroadcastsInDim ⟨2, ![1, N]⟩ ![1])
    (h2' : (⟨2, ![1, N]⟩ : Shape).BroadcastsInDim ⟨2, ![M, N]⟩ ![0, 1])
    (hg : Cert.Spec.Mat M K) (W1 : Cert.Spec.Mat K K) (b1 : Cert.Spec.Row K) (W2 : Cert.Spec.Mat K N) (b2 : Cert.Spec.Row N) :
    addf (Host.dotGeneral D2 none
          (maximumf
            (addf (Host.dotGeneral D1 none hg W1)
              (broadcastInDim ⟨2, ![M, K]⟩ ![0, 1] h2 (broadcastInDim ⟨2, ![1, K]⟩ ![1] h1 b1)))
            (broadcastInDim ⟨2, ![M, K]⟩ ![] h0 (constant ⟨0, ![]⟩ .f32 0x00000000#32))) W2)
        (broadcastInDim ⟨2, ![M, N]⟩ ![0, 1] h2' (broadcastInDim ⟨2, ![1, N]⟩ ![1] h1' b2))
      = Cert.Spec.fin hg W1 b1 W2 b2 := by
  rw [lin_eq D1 hD1 h1 h2, lin_eq D2 hD2 h1' h2']
  unfold Cert.Spec.fin
  congr 1
  funext j
  rw [maximumf_apply, zeros_apply]
  rfl

end Generic

/-- The first layer's edge message, at the reference's records (its contraction record is the plain one by computation). -/
theorem Rmsg32_eq (g : FVec Ideal S1600000x32 .f32) (ea : FVec Ideal S1600000x8 .f32) (We : FVec Ideal S8x32 .f32)
    (be : FVec Ideal S32 .f32) : Rmsg32 g ea We be = Cert.Spec.msg g ea We be :=
  msg_eq _ rfl _ _ _ g ea We be

/-- The second layer's edge message likewise. -/
theorem Rmsg128_eq (g : FVec Ideal S1600000x128 .f32) (ea : FVec Ideal S1600000x8 .f32) (We : FVec Ideal S8x128 .f32)
    (be : FVec Ideal S128 .f32) : Rmsg128 g ea We be = Cert.Spec.msg g ea We be :=
  msg_eq _ rfl _ _ _ g ea We be

/-- The reference's exponential linear unit on the node arrays. -/
theorem Relu_eq (v : FVec Ideal S100000x128 .f32) : Relu v = Cert.Spec.elu v :=
  elu_eq bcast_S_S100000x128 v

/-- The first layer's node update. -/
theorem Rmlp32_eq (x agg : FVec Ideal S100000x32 .f32) (Wa : FVec Ideal S32x128 .f32) (ba : FVec Ideal S128 .f32)
    (Wb : FVec Ideal S128x128 .f32) (bb : FVec Ideal S128 .f32) :
    Rmlp32 x agg Wa ba Wb bb = Cert.Spec.mlp x agg Wa ba Wb bb :=
  mlp_eq _ rfl _ rfl _ _ Relu Relu_eq x agg Wa ba Wb bb

/-- The second layer's node update. -/
theorem Rmlp128_eq (x agg : FVec Ideal S100000x128 .f32) (Wa : FVec Ideal S128x128 .f32) (ba : FVec Ideal S128 .f32)
    (Wb : FVec Ideal S128x128 .f32) (bb : FVec Ideal S128 .f32) :
    Rmlp128 x agg Wa ba Wb bb = Cert.Spec.mlp x agg Wa ba Wb bb :=
  mlp_eq _ rfl _ rfl _ _ Relu Relu_eq x agg Wa ba Wb bb

/-- The readout. -/
theorem Rfin_eq (hg : FVec Ideal S2048x128 .f32) (W1 : FVec Ideal S128x128 .f32) (b1 : FVec Ideal S128 .f32)
    (W2 : FVec Ideal S128x12 .f32) (b2 : FVec Ideal S12 .f32) : Rfin hg W1 b1 W2 b2 = Cert.Spec.fin hg W1 b1 W2 b2 :=
  fin_eq _ rfl _ rfl _ _ _ _ _ hg W1 b1 W2 b2

/-- The reference is the network of the `Cert.Spec` layers. -/
theorem refOut_eq (x : FVec Ideal S100000x32 .f32) (ei : IVec S2x1600000 32) (ea : FVec Ideal S1600000x8 .f32)
    (batch : IVec S100000 32) (We1 : FVec Ideal S8x32 .f32) (be1 : FVec Ideal S32 .f32) (W1a : FVec Ideal S32x128 .f32)
    (b1a : FVec Ideal S128 .f32) (W1b : FVec Ideal S128x128 .f32) (b1b : FVec Ideal S128 .f32) (We2 : FVec Ideal S8x128 .f32)
    (be2 : FVec Ideal S128 .f32) (W2a : FVec Ideal S128x128 .f32) (b2a : FVec Ideal S128 .f32) (W2b : FVec Ideal S128x128 .f32)
    (b2b : FVec Ideal S128 .f32) (Wl1 : FVec Ideal S128x128 .f32) (bl1 : FVec Ideal S128 .f32) (Wl2 : FVec Ideal S128x12 .f32)
    (bl2 : FVec Ideal S12 .f32) :
    refOut x ei ea batch We1 be1 W1a b1a W1b b1b We2 be2 W2a b2a W2b b2b Wl1 bl1 Wl2 bl2 = refNet x ei ea batch We1 be1 W1a b1a W1b b1b We2 be2 W2a b2a W2b b2b Wl1 bl1 Wl2 bl2 := by
  unfold refOut refNet
  simp only [Rmsg32_eq, Rmsg128_eq, Rmlp32_eq, Rmlp128_eq, Rfin_eq]

end Cert.ReferenceIdeal.RefValue

end
-- ==== Proof.RefRun.lean ====
import proofs.«406645_j19301583028827_1_alg».proof.ReferenceIdeal
import proofs.«406645_j19301583028827_1_alg».proof.Proof.Gen.ReferenceIdeal
import Idealize.ShloMosaic.Lib.StableHlo.Run
import Idealize.ShloMosaic.PureOps.Ideal
import proofs.«406645_j19301583028827_1_alg».proof.Proof.RefStages
import Idealize.ShloMosaic.Lib.Tactic

/-!
  The reference's run. The reference is a host-only program: @main is a straight line of StableHLO
  operations once its module-local functions (the two rectifiers' and the exponential linear unit's
  bodies, the latter calling the two selects' helpers) are substituted at their call sites over each
  call's own buffers. Every weakly fair execution therefore terminates with each buffer at the fold of
  that line of operations over the launch contents; at the result buffer the fold is the layered value
  `refOut` of the argument contents, and at an argument buffer it is the launch contents (no operation
  writes an argument).
-/

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable {F : FTy → Type} [FloatOps F]

/-- @main's operations in order, each call's body listed at its call site over that call's buffers: the
    first rectifier's three (the zero, its broadcast, the maximum), each exponential linear unit's fifteen
    (two comparisons with a broadcast zero, the inner select's three — the zero converted to its own type,
    broadcast, selected against the argument —, the exponential minus one, its product with a broadcast
    one, the outer select), the other two rectifiers' three each; around them @main's own seventy. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.binary main_arg2 main_arg4 main_v11 ((fun l r => Host.dotGeneral dot_S1600000x8_S8x32_S1600000x32_1_0_0_1_n_n none l r) : (⟨S1600000x8, .f32⟩ : BufTy).Contents (Elt F) → (⟨S8x32, .f32⟩ : BufTy).Contents (Elt F) → (⟨S1600000x32, .f32⟩ : BufTy).Contents (Elt F)),
    StableHlo.binary main_v10 main_v11 main_v12 (addf : (⟨S1600000x32, .f32⟩ : BufTy).Contents (Elt F) → (⟨S1600000x32, .f32⟩ : BufTy).Contents (Elt F) → (⟨S1600000x32, .f32⟩ : BufTy).Contents (Elt F)),
    StableHlo.unary main_arg5 main_v13 (broadcastInDim S1x32 ![1] bcast_S32_S1x32_1 : (⟨S32, .f32⟩ : BufTy).Contents (Elt F) → (⟨S1x32, .f32⟩ : BufTy).Contents (Elt F)),
    StableHlo.unary main_v13 main_v14 (broadcastInDim S1600000x32 ![0, 1] bcast_S1x32_S1600000x32_0_1 : (⟨S1x32, .f32⟩ : BufTy).Contents (Elt F) → (⟨S1600000x32, .f32⟩ : BufTy).Contents (Elt F)),
    StableHlo.binary main_v12 main_v14 main_v15 (addf : (⟨S1600000x32, .f32⟩ : BufTy).Contents (Elt F) → (⟨S1600000x32, .f32⟩ : BufTy).Contents (Elt F) → (⟨S1600000x32, .f32⟩ : BufTy).Contents (Elt F)),
    StableHlo.TRef.nullary main_call0.cst (constant S_ .f32 0x00000000#32),
    StableHlo.TRef.unary main_call0.cst main_call0.v0 (broadcastInDim S1600000x32 ![] bcast_S_S1600000x32),
    StableHlo.TRef.binary (.of main_v15 : StableHlo.TRef sig ⟨S1600000x32, .f32⟩) main_call0.v0 main_call0.v1 maximumf,
    StableHlo.nullary main_cst (constant S_ .f32 0x00000000#32),
    StableHlo.unary main_cst main_v17 (broadcastInDim S100000x32 ![] bcast_S_S100000x32 : (⟨S_, .f32⟩ : BufTy).Contents (Elt F) → (⟨S100000x32, .f32⟩ : BufTy).Contents (Elt F)),
    StableHlo.unary main_v3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_arg0 main_v19 main_v20 (addf : (⟨S100000x32, .f32⟩ : BufTy).Contents (Elt F) → (⟨S100000x32, .f32⟩ : BufTy).Contents (Elt F) → (⟨S100000x32, .f32⟩ : BufTy).Contents (Elt F)),
    StableHlo.binary main_v20 main_arg6 main_v21 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg7 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v24 : StableHlo.TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v24 : StableHlo.TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v24 : StableHlo.TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v24 : StableHlo.TRef sig ⟨S100000x128, .f32⟩) main_call1.v7 main_call1.call1.v0 select,
    StableHlo.binary main_v25 main_arg8 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v28 main_v29 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v29 : StableHlo.TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v29 : StableHlo.TRef sig ⟨S100000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (.of main_v29 : StableHlo.TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (.of main_v29 : StableHlo.TRef sig ⟨S100000x128, .f32⟩) main_call2.v7 main_call2.call1.v0 select,
    StableHlo.nullary main_c_1 (constantI S_ 32 0#32),
    StableHlo.unary main_c_1 main_v31 (broadcastInDim S1600000 ![] bcast_S_S1600000 : (⟨S_, .i32⟩ : BufTy).Contents (Elt F) → (⟨S1600000, .i32⟩ : BufTy).Contents (Elt F)),
    StableHlo.binary main_v1 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v33 (broadcastInDim S1600000 ![] bcast_S_S1600000 : (⟨S_, .i32⟩ : BufTy).Contents (Elt F) → (⟨S1600000, .i32⟩ : BufTy).Contents (Elt F)),
    StableHlo.binary main_v1 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_v30 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_arg2 main_arg10 main_v38 ((fun l r => Host.dotGeneral dot_S1600000x8_S8x128_S1600000x128_1_0_0_1_n_n none l r) : (⟨S1600000x8, .f32⟩ : BufTy).Contents (Elt F) → (⟨S8x128, .f32⟩ : BufTy).Contents (Elt F) → (⟨S1600000x128, .f32⟩ : BufTy).Contents (Elt F)),
    StableHlo.binary main_v37 main_v38 main_v39 (addf : (⟨S1600000x128, .f32⟩ : BufTy).Contents (Elt F) → (⟨S1600000x128, .f32⟩ : BufTy).Contents (Elt F) → (⟨S1600000x128, .f32⟩ : BufTy).Contents (Elt F)),
    StableHlo.unary main_arg11 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S1600000x128 ![0, 1] bcast_S1x128_S1600000x128_0_1 : (⟨S1x128, .f32⟩ : BufTy).Contents (Elt F) → (⟨S1600000x128, .f32⟩ : BufTy).Contents (Elt F)),
    StableHlo.binary main_v39 main_v41 main_v42 (addf : (⟨S1600000x128, .f32⟩ : BufTy).Contents (Elt F) → (⟨S1600000x128, .f32⟩ : BufTy).Contents (Elt F) → (⟨S1600000x128, .f32⟩ : BufTy).Contents (Elt F)),
    StableHlo.TRef.nullary main_call3.cst (constant S_ .f32 0x00000000#32),
    StableHlo.TRef.unary main_call3.cst main_call3.v0 (broadcastInDim S1600000x128 ![] bcast_S_S1600000x128),
    StableHlo.TRef.binary (.of main_v42 : StableHlo.TRef sig ⟨S1600000x128, .f32⟩) main_call3.v0 main_call3.v1 maximumf,
    StableHlo.nullary main_cst_3 (constant S_ .f32 0x00000000#32),
    StableHlo.unary main_cst_3 main_v44 (broadcastInDim S100000x128 ![] bcast_S_S100000x128 : (⟨S_, .f32⟩ : BufTy).Contents (Elt F) → (⟨S100000x128, .f32⟩ : BufTy).Contents (Elt F)),
    StableHlo.unary main_v3 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v30 main_v46 main_v47 (addf : (⟨S100000x128, .f32⟩ : BufTy).Contents (Elt F) → (⟨S100000x128, .f32⟩ : BufTy).Contents (Elt F) → (⟨S100000x128, .f32⟩ : BufTy).Contents (Elt F)),
    StableHlo.binary main_v47 main_arg12 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v51 : StableHlo.TRef sig ⟨S100000x128, .f32⟩) main_call4.v0 main_call4.v1 (cmpf .ogt),
    StableHlo.TRef.nullary main_call4.cst_0 (constant S_ .f32 0x00000000#32),
    StableHlo.TRef.unary main_call4.cst_0 main_call4.v2 (broadcastInDim S100000x128 ![] bcast_S_S100000x128),
    StableHlo.TRef.binary (.of main_v51 : StableHlo.TRef sig ⟨S100000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x128 ![] bcast_S_S100000x128),
    StableHlo.TRef.ternary main_call4.v3 main_call4.call0.v1 (.of main_v51 : StableHlo.TRef sig ⟨S100000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x128 ![] bcast_S_S100000x128),
    StableHlo.TRef.binary main_call4.v6 main_call4.v5 main_call4.v7 mulf,
    StableHlo.TRef.ternary main_call4.v1 (.of main_v51 : StableHlo.TRef sig ⟨S100000x128, .f32⟩) main_call4.v7 main_call4.call1.v0 select,
    StableHlo.binary main_v52 main_arg14 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v55 main_v56 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v56 : StableHlo.TRef sig ⟨S100000x128, .f32⟩) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v56 : StableHlo.TRef sig ⟨S100000x128, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v56 : StableHlo.TRef sig ⟨S100000x128, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v56 : StableHlo.TRef sig ⟨S100000x128, .f32⟩) main_call5.v7 main_call5.call1.v0 select,
    StableHlo.nullary main_cst_4 (constant S_ .f32 0x00000000#32),
    StableHlo.unary main_cst_4 main_v58 (broadcastInDim S2048x128 ![] bcast_S_S2048x128 : (⟨S_, .f32⟩ : BufTy).Contents (Elt F) → (⟨S2048x128, .f32⟩ : BufTy).Contents (Elt F)),
    StableHlo.unary main_arg3 main_v59 (broadcastInDim S100000x1 ![0] bcast_S100000_S100000x1_0 : (⟨S100000, .i32⟩ : BufTy).Contents (Elt F) → (⟨S100000x1, .i32⟩ : BufTy).Contents (Elt F)),
    StableHlo.ternary main_v58 main_v59 main_v57 main_v60 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)),
    StableHlo.binary main_v60 main_arg16 main_v61 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg17 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S2048x128 ![0, 1] bcast_S1x128_S2048x128_0_1 : (⟨S1x128, .f32⟩ : BufTy).Contents (Elt F) → (⟨S2048x128, .f32⟩ : BufTy).Contents (Elt F)),
    StableHlo.binary main_v61 main_v63 main_v64 (addf : (⟨S2048x128, .f32⟩ : BufTy).Contents (Elt F) → (⟨S2048x128, .f32⟩ : BufTy).Contents (Elt F) → (⟨S2048x128, .f32⟩ : BufTy).Contents (Elt F)),
    StableHlo.TRef.nullary main_call6.cst (constant S_ .f32 0x00000000#32),
    StableHlo.TRef.unary main_call6.cst main_call6.v0 (broadcastInDim S2048x128 ![] bcast_S_S2048x128),
    StableHlo.TRef.binary (.of main_v64 : StableHlo.TRef sig ⟨S2048x128, .f32⟩) main_call6.v0 main_call6.v1 maximumf,
    StableHlo.binary main_v65 main_arg18 main_v66 ((fun l r => Host.dotGeneral dot_S2048x128_S128x12_S2048x12_1_0_0_1_n_n none l r) : (⟨S2048x128, .f32⟩ : BufTy).Contents (Elt F) → (⟨S128x12, .f32⟩ : BufTy).Contents (Elt F) → (⟨S2048x12, .f32⟩ : BufTy).Contents (Elt F)),
    StableHlo.unary main_arg19 main_v67 (broadcastInDim S1x12 ![1] bcast_S12_S1x12_1 : (⟨S12, .f32⟩ : BufTy).Contents (Elt F) → (⟨S1x12, .f32⟩ : BufTy).Contents (Elt F)),
    StableHlo.unary main_v67 main_v68 (broadcastInDim S2048x12 ![0, 1] bcast_S1x12_S2048x12_0_1 : (⟨S1x12, .f32⟩ : BufTy).Contents (Elt F) → (⟨S2048x12, .f32⟩ : BufTy).Contents (Elt F)),
    StableHlo.binary main_v66 main_v68 main_v69 (addf : (⟨S2048x12, .f32⟩ : BufTy).Contents (Elt F) → (⟨S2048x12, .f32⟩ : BufTy).Contents (Elt F) → (⟨S2048x12, .f32⟩ : BufTy).Contents (Elt F)) ]

-- one hundred and thirty-nine binds re-associated: the rewrite recurses once per statement
set_option maxRecDepth 8192 in
set_option maxHeartbeats 4000000 in
/-- @main is that straight line: the two windows in order, the functions' definitions unfolded at their
    calls and the records at their fields; both sides are one chain of `hlo` steps once sequencing is
    reassociated. -/
theorem main_eq (c : Dev nD) : main (F := F) c = seq ops := by
  simp only [main, main_part0, main_part1, fn_relu.body, fn_elu.body, fn_where.body, fn_where_0.body,
    fn_relu_1.body, fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    unary_bufs_sub .., ternary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- For any float values, from any memory with zero counters: every weakly fair execution of @main on the
    TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are not written

No operation of the line writes an argument's buffer: the fold unrolled, each operation's result at an
argument is what was there before it (the buffer read is not the one it writes, decided on the literal
references). -/

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

set_option maxRecDepth 8192 in
theorem arg4_eq (V : Valuation τ sig (Elt F)) :
    after ops V (main_arg4 : DevRef τ sig) = V (main_arg4 : DevRef τ sig) := by
  simp only [after_cons, after_nil]
  rfl

set_option maxRecDepth 8192 in
theorem arg5_eq (V : Valuation τ sig (Elt F)) :
    after ops V (main_arg5 : DevRef τ sig) = V (main_arg5 : DevRef τ sig) := by
  simp only [after_cons, after_nil]
  rfl

set_option maxRecDepth 8192 in
theorem arg6_eq (V : Valuation τ sig (Elt F)) :
    after ops V (main_arg6 : DevRef τ sig) = V (main_arg6 : DevRef τ sig) := by
  simp only [after_cons, after_nil]
  rfl

set_option maxRecDepth 8192 in
theorem arg7_eq (V : Valuation τ sig (Elt F)) :
    after ops V (main_arg7 : DevRef τ sig) = V (main_arg7 : DevRef τ sig) := by
  simp only [after_cons, after_nil]
  rfl

set_option maxRecDepth 8192 in
theorem arg8_eq (V : Valuation τ sig (Elt F)) :
    after ops V (main_arg8 : DevRef τ sig) = V (main_arg8 : DevRef τ sig) := by
  simp only [after_cons, after_nil]
  rfl

set_option maxRecDepth 8192 in
theorem arg9_eq (V : Valuation τ sig (Elt F)) :
    after ops V (main_arg9 : DevRef τ sig) = V (main_arg9 : DevRef τ sig) := by
  simp only [after_cons, after_nil]
  rfl

set_option maxRecDepth 8192 in
theorem arg10_eq (V : Valuation τ sig (Elt F)) :
    after ops V (main_arg10 : DevRef τ sig) = V (main_arg10 : DevRef τ sig) := by
  simp only [after_cons, after_nil]
  rfl

set_option maxRecDepth 8192 in
theorem arg11_eq (V : Valuation τ sig (Elt F)) :
    after ops V (main_arg11 : DevRef τ sig) = V (main_arg11 : DevRef τ sig) := by
  simp only [after_cons, after_nil]
  rfl

set_option maxRecDepth 8192 in
theorem arg12_eq (V : Valuation τ sig (Elt F)) :
    after ops V (main_arg12 : DevRef τ sig) = V (main_arg12 : DevRef τ sig) := by
  simp only [after_cons, after_nil]
  rfl

set_option maxRecDepth 8192 in
theorem arg13_eq (V : Valuation τ sig (Elt F)) :
    after ops V (main_arg13 : DevRef τ sig) = V (main_arg13 : DevRef τ sig) := by
  simp only [after_cons, after_nil]
  rfl

set_option maxRecDepth 8192 in
theorem arg14_eq (V : Valuation τ sig (Elt F)) :
    after ops V (main_arg14 : DevRef τ sig) = V (main_arg14 : DevRef τ sig) := by
  simp only [after_cons, after_nil]
  rfl

set_option maxRecDepth 8192 in
theorem arg15_eq (V : Valuation τ sig (Elt F)) :
    after ops V (main_arg15 : DevRef τ sig) = V (main_arg15 : DevRef τ sig) := by
  simp only [after_cons, after_nil]
  rfl

set_option maxRecDepth 8192 in
theorem arg16_eq (V : Valuation τ sig (Elt F)) :
    after ops V (main_arg16 : DevRef τ sig) = V (main_arg16 : DevRef τ sig) := by
  simp only [after_cons, after_nil]
  rfl

set_option maxRecDepth 8192 in
theorem arg17_eq (V : Valuation τ sig (Elt F)) :
    after ops V (main_arg17 : DevRef τ sig) = V (main_arg17 : DevRef τ sig) := by
  simp only [after_cons, after_nil]
  rfl

set_option maxRecDepth 8192 in
theorem arg18_eq (V : Valuation τ sig (Elt F)) :
    after ops V (main_arg18 : DevRef τ sig) = V (main_arg18 : DevRef τ sig) := by
  simp only [after_cons, after_nil]
  rfl

set_option maxRecDepth 8192 in
theorem arg19_eq (V : Valuation τ sig (Elt F)) :
    after ops V (main_arg19 : DevRef τ sig) = V (main_arg19 : DevRef τ sig) := by
  simp only [after_cons, after_nil]
  rfl

/-! ## The result

The fold at the result buffer, rewritten operation by operation to each operation's function of its operands'
values (the buffer read is the one the operation writes, or it is not: decided on the literal references),
is a term over the twenty arguments' contents; `refOut`, its layers unfolded, is the same term, the typed
references' transports being the identity at literal references: an equation by computation. -/

set_option maxRecDepth 16384 in
set_option maxHeartbeats 4000000 in
theorem out_eq (V : Valuation τ sig (Elt Ideal)) :
    after (ops (F := Ideal)) V (main_v69 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig))
          (V (main_arg16 : DevRef τ sig)) (V (main_arg17 : DevRef τ sig)) (V (main_arg18 : DevRef τ sig)) (V (main_arg19 : DevRef τ sig)) := by
  after_results_simp
  sl_kernel_rfl

/-- At the extended reals, from any memory with zero counters: every weakly fair execution of the reference
    terminates with the result buffer at `refOut` of the launch contents of the twenty arguments, and every
    argument buffer as it was at launch. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD,
        r.2.mem ((c.tc : Thread nD τ).loc main_v69)
            = refOut (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)) (m ((c.tc : Thread nD τ).loc main_arg5))
                (m ((c.tc : Thread nD τ).loc main_arg6)) (m ((c.tc : Thread nD τ).loc main_arg7)) (m ((c.tc : Thread nD τ).loc main_arg8))
                (m ((c.tc : Thread nD τ).loc main_arg9)) (m ((c.tc : Thread nD τ).loc main_arg10)) (m ((c.tc : Thread nD τ).loc main_arg11))
                (m ((c.tc : Thread nD τ).loc main_arg12)) (m ((c.tc : Thread nD τ).loc main_arg13)) (m ((c.tc : Thread nD τ).loc main_arg14))
                (m ((c.tc : Thread nD τ).loc main_arg15)) (m ((c.tc : Thread nD τ).loc main_arg16)) (m ((c.tc : Thread nD τ).loc main_arg17))
                (m ((c.tc : Thread nD τ).loc main_arg18)) (m ((c.tc : Thread nD τ).loc main_arg19))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19) :=
  (θ_run defs _ _).mono
    (fun _ h c => ⟨(h c main_v69).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _)⟩)
    (run_main (F := Ideal) m ρ)

end Cert.ReferenceIdeal.RefValue
-- ==== Proof.Bridge.lean ====
/-
  The network as the kernel program computes it and the network as the reference computes it are ONE function of
  the twenty arrays wherever every source index addresses a row of the node table: there the kernel program's masked
  row gather keeps every gathered row, so it is the reference's plain gather of the same normalised indices, and
  every other step — the index normalisation, the three segment sums, the layers — is the same operation on both
  sides (the two programs' shape and dimension records are the same records).
-/
import proofs.«406645_j19301583028827_1_alg».proof.Proof.KerOps
import proofs.«406645_j19301583028827_1_alg».proof.Proof.RefStages
import proofs.«406645_j19301583028827_1_alg».proof.Proof.PreTake

noncomputable section

namespace Cert.Proof.Bridge

open Idealize.ShloMosaic Cert.KernelIdeal

theorem kerOut_eq_refNet (x : FVec Ideal S100000x32 .f32) (ei : IVec S2x1600000 32) (ea : FVec Ideal S1600000x8 .f32) (batch : IVec S100000 32) (We1 : FVec Ideal S8x32 .f32) (be1 : FVec Ideal S32 .f32) (W1a : FVec Ideal S32x128 .f32) (b1a : FVec Ideal S128 .f32) (W1b : FVec Ideal S128x128 .f32) (b1b : FVec Ideal S128 .f32) (We2 : FVec Ideal S8x128 .f32) (be2 : FVec Ideal S128 .f32) (W2a : FVec Ideal S128x128 .f32) (b2a : FVec Ideal S128 .f32) (W2b : FVec Ideal S128x128 .f32) (b2b : FVec Ideal S128 .f32) (Wl1 : FVec Ideal S128x128 .f32) (bl1 : FVec Ideal S128 .f32) (Wl2 : FVec Ideal S128x12 .f32) (bl2 : FVec Ideal S12 .f32)
    (h : ∀ e, KVal.inRange (KVal.normIdx (KVal.srcRow ei)) e = 1#1) :
    KVal.kerOut x ei ea batch We1 be1 W1a b1a W1b b1b We2 be2 W2a b2a W2b b2b Wl1 bl1 Wl2 bl2
      = Cert.ReferenceIdeal.RefValue.refNet x ei ea batch We1 be1 W1a b1a W1b b1b We2 be2 W2a b2a W2b b2b Wl1 bl1 Wl2 bl2 := by
  simp only [KVal.kerOut, KVal.layer1]
  rw [KVal.take32_of_inRange _ _ h, KVal.take128_of_inRange _ _ h]
  rfl

end Cert.Proof.Bridge

end
-- ==== Proof.lean ====
/-
  The certificate of a two-layer GINE graph network with a per-graph sum and a two-layer readout: the Pallas
  program (an edge-message kernel and a node-update kernel, each launched twice, a readout kernel; the row gathers
  and the segment sums on the host) against its jnp reference, over the extended reals.

  Both programs compute, from the same twenty arrays,
      h₁ = mlp x (Σ_{dst} msg (x[src]) ea We₁ be₁) W1a b1a W1b b1b,
      h₂ = mlp h₁ (Σ_{dst} msg (h₁[src]) ea We₂ be₂) W2a b2a W2b b2b,
      out = fin (Σ_{batch} h₂) Wl1 bl1 Wl2 bl2
  with the layers of Proof/Spec.lean (msg = relu (g + ea·We + be), mlp = elu ∘ lin ∘ elu ∘ lin of x + agg,
  fin = lin ∘ relu ∘ lin), the row gather and the three segment sums being the same host operations on both
  sides.  The kernel's regions compute their layers block of rows by block of rows (Proof/KMsgA … KFin), the
  reference computes them whole (Proof/RefStages); the two spellings differ by the association of a sum
  (g + (S + b) against (g + S) + b), by exp v − 1 against expm1 v, and by changes of float format, all equal on the
  extended reals.  The one real difference is the row gather: the kernel program's jnp.take fills rows whose index is
  out of range with the not-a-number pattern where the reference's x[src] clamps, so the claim is stated under the
  evident-domain precondition that every source index addresses a row of the table (Proof/PreTake), and there the
  two gathers are one.

  The frames of the two kernel programs are the generated ones; the reference's frame is its run (Proof/RefRun)
  with the result dropped; the ideal pass rewrote nothing, so `preserves` is trivial.
-/
import proofs.«406645_j19301583028827_1_alg».proof.Defs
import proofs.«406645_j19301583028827_1_alg».proof.Proof.Gen.Kernel
import proofs.«406645_j19301583028827_1_alg».proof.Proof.Gen.Kernel.Skeleton
import proofs.«406645_j19301583028827_1_alg».proof.Proof.Gen.Kernel.Launch
import proofs.«406645_j19301583028827_1_alg».proof.Proof.Gen.Kernel.Points
import proofs.«406645_j19301583028827_1_alg».proof.Proof.Gen.Kernel.Frame
import proofs.«406645_j19301583028827_1_alg».proof.Proof.Gen.KernelIdeal
import proofs.«406645_j19301583028827_1_alg».proof.Proof.Gen.KernelIdeal.Skeleton
import proofs.«406645_j19301583028827_1_alg».proof.Proof.Gen.KernelIdeal.Launch
import proofs.«406645_j19301583028827_1_alg».proof.Proof.Gen.KernelIdeal.Points
import proofs.«406645_j19301583028827_1_alg».proof.Proof.Gen.KernelIdeal.Frame
import proofs.«406645_j19301583028827_1_alg».proof.Proof.Gen.ReferenceIdeal
import proofs.«406645_j19301583028827_1_alg».proof.Proof.Gen.Pre_finite_inputs
import proofs.«406645_j19301583028827_1_alg».proof.Proof.KRun
import proofs.«406645_j19301583028827_1_alg».proof.Proof.KMsgA
import proofs.«406645_j19301583028827_1_alg».proof.Proof.KMsgB
import proofs.«406645_j19301583028827_1_alg».proof.Proof.KMlpA
import proofs.«406645_j19301583028827_1_alg».proof.Proof.KMlpB
import proofs.«406645_j19301583028827_1_alg».proof.Proof.KFin
import proofs.«406645_j19301583028827_1_alg».proof.Proof.KerFoldA
import proofs.«406645_j19301583028827_1_alg».proof.Proof.KerFoldB
import proofs.«406645_j19301583028827_1_alg».proof.Proof.PreTake
import proofs.«406645_j19301583028827_1_alg».proof.Proof.RefStages
import proofs.«406645_j19301583028827_1_alg».proof.Proof.RefRun
import proofs.«406645_j19301583028827_1_alg».proof.Proof.Bridge
import Idealize.ShloMosaic.Adequacy
import Idealize.ShloMosaic.Init

noncomputable section

namespace Cert.Proof

open Idealize.ShloMosaic Idealize.SL.Sem

/-- The idealized kernel program's run with its result named: the fold of its segments at the result buffer is the
    network `kerOut` of the launch contents of the argument arrays. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v19)
          = Cert.KernelIdeal.KVal.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)) :=
  (θ_run (Cert.KernelIdeal.defs (F := Ideal)) _ _).mono
    (fun r h c => ⟨(h c).1.trans (Cert.KernelIdeal.KVal.fold_of m ρ Cert.KernelIdeal.KVal.final2 Cert.KernelIdeal.KVal.final3 Cert.KernelIdeal.KVal.final4 c
        (Cert.KernelIdeal.KVal.afterLayer1 m ρ Cert.KernelIdeal.KVal.final0 Cert.KernelIdeal.KVal.final1 c)), (h c).2⟩)
    (Cert.KernelIdeal.KRun.run_named (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.KVal.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), kernel_run m ρ, ?_⟩
  refine (θ_run (Cert.ReferenceIdeal.defs (F := Ideal)) _ _).mono (fun r h c => ⟨(h c).1.trans ?_, (h c).2⟩) (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
  exact (Cert.ReferenceIdeal.RefValue.refOut_eq ..).trans
    (Bridge.kerOut_eq_refNet _ _ _ _ _ _ _ _ _ _ _ _ _ _ _ _ _ _ _ _ (Cert.KernelIdeal.KVal.inRange_of_pre _ _ _ _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.ReferenceIdeal.RefValue.run m ρ),
  trivial,
  algebraic⟩

end Cert.Proof

end
